-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S3x128 .f32) (main_arg10 : FVec F S3x128 .f32) (main_arg11 : FVec F S128x16 .f32) (main_arg12 : FVec F S16 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x16 .f32 := Host.absf main_arg11
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S3x128 .f32) (main_arg10 : FVec F S3x128 .f32) (main_arg11 : FVec F S128x16 .f32) (main_arg12 : FVec F S16 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) (main_arg11 : FVec F S128x16 .f32) (main_arg12 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S1x16 : Shape := ⟨2, ![1, 16]⟩
abbrev S2000x1 : Shape := ⟨2, ![2000, 1]⟩

abbrev nBuf : Space → Nat
  | .hbm => 128
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S128x16, .f32⟩
  | .hbm, ⟨12, _⟩ => ⟨S16, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x1, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128x128, .f32⟩
  | .hbm, ⟨32, _⟩ => ⟨S128x128, .f32⟩
  | .hbm, ⟨33, _⟩ => ⟨S1x128, .f32⟩
  | .hbm, ⟨34, _⟩ => ⟨S128, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S1x128x128, .f32⟩
  | .hbm, ⟨104, _⟩ => ⟨S128x128, .f32⟩
  | .hbm, ⟨105, _⟩ => ⟨S1x128, .f32⟩
  | .hbm, ⟨106, _⟩ => ⟨S128, .f32⟩
  | .hbm, ⟨107, _⟩ => ⟨S1x128x128, .f32⟩
  | .hbm, ⟨108, _⟩ => ⟨S128x128, .f32⟩
  | .hbm, ⟨109, _⟩ => ⟨S1x128, .f32⟩
  | .hbm, ⟨110, _⟩ => ⟨S128, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S128, .f32⟩
  | .hbm, ⟨117, _⟩ => ⟨S1x128, .f32⟩
  | .hbm, ⟨118, _⟩ => ⟨S128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S1x128, .f32⟩
  | .hbm, ⟨125, _⟩ => ⟨S50000x128, .f32⟩
  | .hbm, ⟨126, _⟩ => ⟨S1x16, .f32⟩
  | .hbm, ⟨127, _⟩ => ⟨S128x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .i32⟩
  | .local _ .vmem, ⟨45, _⟩ => ⟨S2000x1, .i32⟩
  | .local _ .vmem, ⟨46, _⟩ => ⟨S128x16, .f32⟩
  | .local _ .vmem, ⟨47, _⟩ => ⟨S1x16, .f32⟩
  | .local _ .vmem, ⟨48, _⟩ => ⟨S128x16, .f32⟩
  | .local _ .vmem, ⟨49, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_1 : Ref sig .tc := ⟨.hbm, 54, rfl⟩
abbrev main_v38 : Ref sig .tc := ⟨.hbm, 55, rfl⟩
abbrev main_v39 : Ref sig .tc := ⟨.hbm, 56, rfl⟩
abbrev main_c_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_4 : Ref sig .tc := ⟨.hbm, 90, rfl⟩
abbrev main_v71 : Ref sig .tc := ⟨.hbm, 91, rfl⟩
abbrev main_v72 : Ref sig .tc := ⟨.hbm, 92, rfl⟩
abbrev main_c_5 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_6 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_scratch0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S16_S1x16 : S16.ShapeCasts S1x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  dot_S128x128_S128x16_S128x16_1_0_0_1_n_n_wf : DotDims.WF S128x128 S128x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .f32 = 32 ∨ (Rect.block (s := S50000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x16.size a ≤ S128x16.size a
  hwx3_2 : ∀ i : grid3.Coords, EltTy.bits .f32 = 32 ∨ (Rect.block (s := S128x16) S128x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x16.size a ≤ S128x16.size a
  hwx3_4 : ∀ i : grid3.Coords, EltTy.bits .f32 = 32 ∨ (Rect.block (s := S128x16) S128x16.size (cc3_transform_4 i) (hinb3_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v66) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v68) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v69) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v70) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v97) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v99) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v100) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v101) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v102) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v103) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v103) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v104) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v105) S128x16.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S1x16 : Shape := ⟨2, ![1, 16]⟩

abbrev nBuf : Space → Nat
  | .hbm => 199
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S128x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S128, .f32⟩
  | 54 => ⟨S_, .f32⟩
  | 55 => ⟨S128, .f32⟩
  | 56 => ⟨S128, .f32⟩
  | 57 => ⟨S128, .f32⟩
  | 58 => ⟨S128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S128, .f32⟩
  | 115 => ⟨S128, .f32⟩
  | 116 => ⟨S128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S128x128, .f32⟩
  | 65 => ⟨S50000x1, .i32⟩
  | 66 => ⟨S128x128, .f32⟩
  | 67 => ⟨S128x16, .f32⟩
  | 68 => ⟨S1x16, .f32⟩
  | 69 => ⟨S128x16, .f32⟩
  | 70 => ⟨S128x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_c_4 : Ref sig .tc := ⟨.hbm, 75, rfl⟩
abbrev main_v56 : Ref sig .tc := ⟨.hbm, 76, rfl⟩
abbrev main_v57 : Ref sig .tc := ⟨.hbm, 77, rfl⟩
abbrev main_c_5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_7 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_8 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_9 : Ref sig .tc := ⟨.hbm, 130, rfl⟩
abbrev main_v106 : Ref sig .tc := ⟨.hbm, 131, rfl⟩
abbrev main_v107 : Ref sig .tc := ⟨.hbm, 132, rfl⟩
abbrev main_c_10 : Ref sig .tc := ⟨.hbm, 133, rfl⟩
abbrev main_v108 : Ref sig .tc := ⟨.hbm, 134, rfl⟩
abbrev main_v109 : Ref sig .tc := ⟨.hbm, 135, rfl⟩
abbrev main_c_11 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_12 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_13 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_14 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_15 : Ref sig .tc := ⟨.hbm, 188, rfl⟩
abbrev main_v158 : Ref sig .tc := ⟨.hbm, 189, rfl⟩
abbrev main_v159 : Ref sig .tc := ⟨.hbm, 190, rfl⟩
abbrev main_cst_16 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x16_S128x16_1_0_0_1_n_n_wf : DotDims.WF S128x128 S128x16 S128x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

class Facts : Prop extends Facts₀ where

variable [Facts]
-- ==== Proof.Region0Bits.lean ====
/-
  The first launch of the layer kernel as one region of the program: at a PARAMETER `V` (what the core's buffers hold
  when the region is entered) the blocks its ten operand windows stage at a grid point, the one whole-tile store of the
  body as a piece over the payloads of the ten loaded blocks, the body's triple, the proof data (every operand buffer
  left as found, the result buffer at the stored tile) and the body obligation at every point. Point t of the 25 takes
  rows 2000 t .. 2000 t + 1999 of the two node arrays; the eight parameter operands are whole and the same at every point.
-/
import proofs.«418468_j32066225832278_1_alg».proof.Proof.Gen.Kernel.Launch
import proofs.«418468_j32066225832278_1_alg».proof.Proof.Gen.Kernel.Skeleton
import proofs.«418468_j32066225832278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rT : Rect S2000x128 := Rect.unit (s := S2000x128) ![0, 0] S2000x128.size inb_S2000x128_S2000x128_0_0
abbrev rM : Rect S128x128 := Rect.unit (s := S128x128) ![0, 0] S128x128.size inb_S128x128_S128x128_0_0
abbrev rR : Rect S1x128 := Rect.unit (s := S1x128) ![0, 0] S1x128.size inb_S1x128_S1x128_0_0

/-- The result tile the body stores, from the ten operand blocks (window order: node features, neighbour sums, first
    weight matrix and bias, second weight matrix and bias, gamma, beta, mean, variance). -/
def tile (x0 x1 : Vec F S2000x128 .f32) (x2 : Vec F S128x128 .f32) (x3 : Vec F S1x128 .f32) (x4 : Vec F S128x128 .f32)
    (x5 x6 x7 x8 x9 : Vec F S1x128 .f32) : FVec F S2000x128 .f32 :=
  k0_pay1 (k0_pay2 (View.ld x0 rT) (View.ld x1 rT) (View.ld x2 rM) (View.ld x3 rR) (View.ld x4 rM) (View.ld x5 rR) (View.ld x8 rR))
    (k0_pay3 (View.ld x6 rR) (View.ld x9 rR)) (View.ld x7 rR)

/-- The result window's staging buffer after the body: its one store as a piece. -/
def out10 (x0 x1 : Vec F S2000x128 .f32) (x2 : Vec F S128x128 .f32) (x3 : Vec F S1x128 .f32) (x4 : Vec F S128x128 .f32)
    (x5 x6 x7 x8 x9 : Vec F S1x128 .f32) : Vec F S2000x128 .f32 :=
  View.canon [⟨rT, tile x0 x1 x2 x3 x4 x5 x6 x7 x8 x9⟩]

/-- The one store covers the buffer. -/
theorem cover10 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

set_option maxHeartbeats 4000000 in
/-- The body on whole staging memrefs, the ten operands' at read contents and the result's at anything, runs to the
    continuation holding the operands' as they were and the result's at the stored tile. -/
theorem sound_kernel (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 x1 : Vec F S2000x128 .f32) (x2 : Vec F S128x128 .f32) (x3 : Vec F S1x128 .f32) (x4 : Vec F S128x128 .f32)
    (x5 x6 x7 x8 x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out10 x0 x1 x2 x3 x4 x5 x6 x7 x8 x9)) -∗ K ⟨⟩))
      ⊢ wp frame (wpE (defs₀ (F := F)) Variants.none c none) E
          (cc0__mlp_bn_kernel i arg0 harg0 arg1 harg1 arg2 harg2 arg3 harg3 arg4 harg4 arg5 harg5 arg6 harg6 arg7 harg7 arg8 harg8 arg9 harg9 arg10 harg10) K := by
  simp only [cc0__mlp_bn_kernel_eq_skeleton]; unfold cc0__mlp_bn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The proof data -/

/-- The region's proof data on core `c`: the arrays as the region finds them; after the body at point `t` each operand's
    buffer at its block and the result's at the stored tile of the ten blocks; the invariant the scoped buffers the
    body does not touch and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out10 (iblk V c 0 t) (iblk V c 1 t) (iblk V c 2 t) (iblk V c 3 t) (iblk V c 4 t) (iblk V c 5 t)
        (iblk V c 6 t) (iblk V c 7 t) (iblk V c 8 t) (iblk V c 9 t)
  Φ _ := Pipeline.ΦA spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) :
    (dat V c).after 10 t = out10 (iblk V c 0 t) (iblk V c 1 t) (iblk V c 2 t) (iblk V c 3 t) (iblk V c 4 t) (iblk V c 5 t)
      (iblk V c 6 t) (iblk V c 7 t) (iblk V c 8 t) (iblk V c 9 t) := by dsimp only [dat]

/-- An operand window's current staging buffer holds its block at every point, fetched there or not: a window not
    fetched at a point has not moved, and the body left the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the operands' memrefs hold their blocks, so the body's triple applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Mlp0

end
-- ==== Proof.Region1Bits.lean ====
/-
  Launch 1 of the layer kernel as one region of the program: at a PARAMETER `V` (what the core's buffers hold
  when the region is entered) the blocks its ten operand windows stage at a grid point, the one whole-tile store of the
  body as a piece over the payloads of the ten loaded blocks, the body's triple, the proof data (every operand buffer
  left as found, the result buffer at the stored tile) and the body obligation at every point. Point t of the 25 takes
  rows 2000 t .. 2000 t + 1999 of the two node arrays; the eight parameter operands are whole and the same at every point.
-/
import proofs.«418468_j32066225832278_1_alg».proof.Proof.Gen.Kernel.Launch
import proofs.«418468_j32066225832278_1_alg».proof.Proof.Gen.Kernel.Skeleton
import proofs.«418468_j32066225832278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT : Rect S2000x128 := Rect.unit (s := S2000x128) ![0, 0] S2000x128.size inb_S2000x128_S2000x128_0_0
abbrev rM : Rect S128x128 := Rect.unit (s := S128x128) ![0, 0] S128x128.size inb_S128x128_S128x128_0_0
abbrev rR : Rect S1x128 := Rect.unit (s := S1x128) ![0, 0] S1x128.size inb_S1x128_S1x128_0_0

/-- The result tile the body stores, from the ten operand blocks (window order: node features, neighbour sums, first
    weight matrix and bias, second weight matrix and bias, gamma, beta, mean, variance). -/
def tile (x0 x1 : Vec F S2000x128 .f32) (x2 : Vec F S128x128 .f32) (x3 : Vec F S1x128 .f32) (x4 : Vec F S128x128 .f32)
    (x5 x6 x7 x8 x9 : Vec F S1x128 .f32) : FVec F S2000x128 .f32 :=
  k1_pay1 (k1_pay2 (View.ld x6 rR) (View.ld x9 rR))
    (k1_pay3 (View.ld x0 rT) (View.ld x1 rT) (View.ld x2 rM) (View.ld x3 rR) (View.ld x4 rM) (View.ld x5 rR) (View.ld x8 rR)) (View.ld x7 rR)

/-- The result window's staging buffer after the body: its one store as a piece. -/
def out10 (x0 x1 : Vec F S2000x128 .f32) (x2 : Vec F S128x128 .f32) (x3 : Vec F S1x128 .f32) (x4 : Vec F S128x128 .f32)
    (x5 x6 x7 x8 x9 : Vec F S1x128 .f32) : Vec F S2000x128 .f32 :=
  View.canon [⟨rT, tile x0 x1 x2 x3 x4 x5 x6 x7 x8 x9⟩]

/-- The one store covers the buffer. -/
theorem cover10 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

set_option maxHeartbeats 4000000 in
/-- The body on whole staging memrefs, the ten operands' at read contents and the result's at anything, runs to the
    continuation holding the operands' as they were and the result's at the stored tile. -/
theorem sound_kernel (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 x1 : Vec F S2000x128 .f32) (x2 : Vec F S128x128 .f32) (x3 : Vec F S1x128 .f32) (x4 : Vec F S128x128 .f32)
    (x5 x6 x7 x8 x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out10 x0 x1 x2 x3 x4 x5 x6 x7 x8 x9)) -∗ K ⟨⟩))
      ⊢ wp frame (wpE (defs₀ (F := F)) Variants.none c none) E
          (cc1__mlp_bn_kernel i arg0 harg0 arg1 harg1 arg2 harg2 arg3 harg3 arg4 harg4 arg5 harg5 arg6 harg6 arg7 harg7 arg8 harg8 arg9 harg9 arg10 harg10) K := by
  simp only [cc1__mlp_bn_kernel_eq_skeleton]; unfold cc1__mlp_bn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The proof data -/

/-- The region's proof data on core `c`: the arrays as the region finds them; after the body at point `t` each operand's
    buffer at its block and the result's at the stored tile of the ten blocks; the invariant the scoped buffers the
    body does not touch and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out10 (iblk V c 0 t) (iblk V c 1 t) (iblk V c 2 t) (iblk V c 3 t) (iblk V c 4 t) (iblk V c 5 t)
        (iblk V c 6 t) (iblk V c 7 t) (iblk V c 8 t) (iblk V c 9 t)
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) :
    (dat V c).after 10 t = out10 (iblk V c 0 t) (iblk V c 1 t) (iblk V c 2 t) (iblk V c 3 t) (iblk V c 4 t) (iblk V c 5 t)
      (iblk V c 6 t) (iblk V c 7 t) (iblk V c 8 t) (iblk V c 9 t) := by dsimp only [dat]

/-- An operand window's current staging buffer holds its block at every point, fetched there or not: a window not
    fetched at a point has not moved, and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t))

/-- The body at any point: the operands' memrefs hold their blocks, so the body's triple applies; the invariant and
    the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Mlp1

end
-- ==== Proof.Region2Bits.lean ====
/-
  Launch 2 of the layer kernel as one region of the program: at a PARAMETER `V` (what the core's buffers hold
  when the region is entered) the blocks its ten operand windows stage at a grid point, the one whole-tile store of the
  body as a piece over the payloads of the ten loaded blocks, the body's triple, the proof data (every operand buffer
  left as found, the result buffer at the stored tile) and the body obligation at every point. Point t of the 25 takes
  rows 2000 t .. 2000 t + 1999 of the two node arrays; the eight parameter operands are whole and the same at every point.
-/
import proofs.«418468_j32066225832278_1_alg».proof.Proof.Gen.Kernel.Launch
import proofs.«418468_j32066225832278_1_alg».proof.Proof.Gen.Kernel.Skeleton
import proofs.«418468_j32066225832278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S2000x128 := Rect.unit (s := S2000x128) ![0, 0] S2000x128.size inb_S2000x128_S2000x128_0_0
abbrev rM : Rect S128x128 := Rect.unit (s := S128x128) ![0, 0] S128x128.size inb_S128x128_S128x128_0_0
abbrev rR : Rect S1x128 := Rect.unit (s := S1x128) ![0, 0] S1x128.size inb_S1x128_S1x128_0_0

/-- The result tile the body stores, from the ten operand blocks (window order: node features, neighbour sums, first
    weight matrix and bias, second weight matrix and bias, gamma, beta, mean, variance). -/
def tile (x0 x1 : Vec F S2000x128 .f32) (x2 : Vec F S128x128 .f32) (x3 : Vec F S1x128 .f32) (x4 : Vec F S128x128 .f32)
    (x5 x6 x7 x8 x9 : Vec F S1x128 .f32) : FVec F S2000x128 .f32 :=
  k2_pay1 (k2_pay2 (View.ld x6 rR) (View.ld x9 rR))
    (k2_pay3 (View.ld x0 rT) (View.ld x1 rT) (View.ld x2 rM) (View.ld x3 rR) (View.ld x4 rM) (View.ld x5 rR) (View.ld x8 rR)) (View.ld x7 rR)

/-- The result window's staging buffer after the body: its one store as a piece. -/
def out10 (x0 x1 : Vec F S2000x128 .f32) (x2 : Vec F S128x128 .f32) (x3 : Vec F S1x128 .f32) (x4 : Vec F S128x128 .f32)
    (x5 x6 x7 x8 x9 : Vec F S1x128 .f32) : Vec F S2000x128 .f32 :=
  View.canon [⟨rT, tile x0 x1 x2 x3 x4 x5 x6 x7 x8 x9⟩]

/-- The one store covers the buffer. -/
theorem cover10 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

set_option maxHeartbeats 4000000 in
/-- The body on whole staging memrefs, the ten operands' at read contents and the result's at anything, runs to the
    continuation holding the operands' as they were and the result's at the stored tile. -/
theorem sound_kernel (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 x1 : Vec F S2000x128 .f32) (x2 : Vec F S128x128 .f32) (x3 : Vec F S1x128 .f32) (x4 : Vec F S128x128 .f32)
    (x5 x6 x7 x8 x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out10 x0 x1 x2 x3 x4 x5 x6 x7 x8 x9)) -∗ K ⟨⟩))
      ⊢ wp frame (wpE (defs₀ (F := F)) Variants.none c none) E
          (cc2__mlp_bn_kernel i arg0 harg0 arg1 harg1 arg2 harg2 arg3 harg3 arg4 harg4 arg5 harg5 arg6 harg6 arg7 harg7 arg8 harg8 arg9 harg9 arg10 harg10) K := by
  simp only [cc2__mlp_bn_kernel_eq_skeleton]; unfold cc2__mlp_bn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The proof data -/

/-- The region's proof data on core `c`: the arrays as the region finds them; after the body at point `t` each operand's
    buffer at its block and the result's at the stored tile of the ten blocks; the invariant the scoped buffers the
    body does not touch and the generator register; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out10 (iblk V c 0 t) (iblk V c 1 t) (iblk V c 2 t) (iblk V c 3 t) (iblk V c 4 t) (iblk V c 5 t)
        (iblk V c 6 t) (iblk V c 7 t) (iblk V c 8 t) (iblk V c 9 t)
  Φ _ := Pipeline.ΦA spec2 c
  q _ := fullShare
  owed _ := 0

theorem A_eq (c : Dev nD) (w : Fin cfg2.W) : (dat V c).A w = V c (Pipeline.arrRef spec2 w) := by dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) :
    (dat V c).after 10 t = out10 (iblk V c 0 t) (iblk V c 1 t) (iblk V c 2 t) (iblk V c 3 t) (iblk V c 4 t) (iblk V c 5 t)
      (iblk V c 6 t) (iblk V c 7 t) (iblk V c 8 t) (iblk V c 9 t) := by dsimp only [dat]

/-- An operand window's current staging buffer holds its block at every point, fetched there or not: a window not
    fetched at a point has not moved, and the body left the block in place. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t))

/-- The body at any point: the operands' memrefs hold their blocks, so the body's triple applies; the invariant and
    the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Mlp2

end
-- ==== Proof.Region3Bits.lean ====
/-
  The read-out kernel as one region of the program: at a PARAMETER `V` (what the core's buffers hold when the region is
  entered) the blocks its four operand windows stage at a grid point, what the scratch accumulator holds after each of
  the 25 points (reset to zero at the first point, then one tile's per-graph sums added per point) and what the result
  buffer holds after the last point (the linear read-out of the accumulator: the only point that stores the result, the
  result window being idle and not written back at the others); the proof data whose invariant carries the scratch, and
  the body obligation at every point.
-/
import proofs.«418468_j32066225832278_1_alg».proof.Proof.Gen.Kernel.Launch
import proofs.«418468_j32066225832278_1_alg».proof.Proof.Gen.Kernel.Skeleton
import proofs.«418468_j32066225832278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Pool3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The condition of the body's first conditional (the reset of the accumulator), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The condition of the body's second conditional (the read-out), from the grid coordinates. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-- The zero offsets of a whole-buffer rectangle of rank 2. -/
theorem hz2 : (![0, 0] : Fin 2 → ℕ) = fun _ => 0 := by
  funext a; match a with | ⟨0, _⟩ => rfl | ⟨1, _⟩ => rfl

/-! ## The body's three runs: first point, middle points, last point -/

set_option maxHeartbeats 4000000 in
/-- The body at the first point, on whole memrefs: the four operands' at read contents, the result's at contents it
    does not touch, the scratch at anything; it runs to the continuation holding the operands' and the result's as
    they were and the scratch at the first tile's sums over the zero fill. -/
theorem run_first (c : Dev nD) (E : Set ℕ) (i : grid3.Coords) (arg1 : Memref sig .tc .vmem S2000x128 .f32) (harg1 : arg1.IsWhole) (arg2 : Memref sig .tc .vmem S2000x1 .i32) (harg2 : arg2.IsWhole) (arg3 : Memref sig .tc .vmem S128x16 .f32) (harg3 : arg3.IsWhole) (arg4 : Memref sig .tc .vmem S1x16 .f32) (harg4 : arg4.IsWhole) (arg5 : Memref sig .tc .vmem S128x16 .f32) (harg5 : arg5.IsWhole) (arg6 : Memref sig .tc .vmem S128x128 .f32) (harg6 : arg6.IsWhole)
    (hc0 : cond3_0 i) (hc1 : ¬cond3_1 i)
    (x0 : Vec F S2000x128 .f32) (x1 : Vec F S2000x1 .i32) (x2 : Vec F S128x16 .f32) (x3 : Vec F S1x16 .f32) (xi : Vec F S128x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay2 x1 x0 k3_pay1)) -∗ K ⟨⟩))
      ⊢ wp frame (wpE (defs₀ (F := F)) Variants.none c none) E
          (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (fun y => ⟨_, List.mem_cons_self, View.mem_set_unit_zero (S := S128x128) hz2 inb_S128x128_S128x128_0_0 y⟩)]
  sl_unfold_words
  rw [View.canon_cons_unit_zero hz2]
  simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]

set_option maxHeartbeats 4000000 in
/-- The body at a point that is neither the first nor the last: the scratch at what the point before left; it runs
    to the continuation holding the operands' and the result's as they were and the scratch with this tile's sums
    added. -/
theorem run_mid (c : Dev nD) (E : Set ℕ) (i : grid3.Coords) (arg1 : Memref sig .tc .vmem S2000x128 .f32) (harg1 : arg1.IsWhole) (arg2 : Memref sig .tc .vmem S2000x1 .i32) (harg2 : arg2.IsWhole) (arg3 : Memref sig .tc .vmem S128x16 .f32) (harg3 : arg3.IsWhole) (arg4 : Memref sig .tc .vmem S1x16 .f32) (harg4 : arg4.IsWhole) (arg5 : Memref sig .tc .vmem S128x16 .f32) (harg5 : arg5.IsWhole) (arg6 : Memref sig .tc .vmem S128x128 .f32) (harg6 : arg6.IsWhole)
    (hc0 : ¬cond3_0 i) (hc1 : ¬cond3_1 i)
    (x0 : Vec F S2000x128 .f32) (x1 : Vec F S2000x1 .i32) (x2 : Vec F S128x16 .f32) (x3 : Vec F S1x16 .f32) (xi : Vec F S128x16 .f32)
    (xs : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay2 x1 x0 xs)) -∗ K ⟨⟩))
      ⊢ wp frame (wpE (defs₀ (F := F)) Variants.none c none) E
          (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, Hk⟩
  subst hf0 hf1 hf2 hf3 hf4 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (fun y => ⟨_, List.mem_cons_self, View.mem_set_unit_zero (S := S128x128) hz2 inb_S128x128_S128x128_0_0 y⟩)]
  sl_unfold_words
  rw [View.canon_cons_unit_zero hz2]
  simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]

set_option maxHeartbeats 4000000 in
/-- The body at the last point: the scratch at what the point before left, the result's memref at anything; it runs
    to the continuation holding the operands' as they were, the scratch with this tile's sums added and the result's
    at the read-out of that. -/
theorem run_last (c : Dev nD) (E : Set ℕ) (i : grid3.Coords) (arg1 : Memref sig .tc .vmem S2000x128 .f32) (harg1 : arg1.IsWhole) (arg2 : Memref sig .tc .vmem S2000x1 .i32) (harg2 : arg2.IsWhole) (arg3 : Memref sig .tc .vmem S128x16 .f32) (harg3 : arg3.IsWhole) (arg4 : Memref sig .tc .vmem S1x16 .f32) (harg4 : arg4.IsWhole) (arg5 : Memref sig .tc .vmem S128x16 .f32) (harg5 : arg5.IsWhole) (arg6 : Memref sig .tc .vmem S128x128 .f32) (harg6 : arg6.IsWhole)
    (hc0 : ¬cond3_0 i) (hc1 : cond3_1 i)
    (x0 : Vec F S2000x128 .f32) (x1 : Vec F S2000x1 .i32) (x2 : Vec F S128x16 .f32) (x3 : Vec F S1x16 .f32)
    (xs : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k3_pay3 (k3_pay2 x1 x0 xs) x2 x3)
            ∗ owns (c : Thread nD τ) arg6 fullShare (k3_pay2 x1 x0 xs)) -∗ K ⟨⟩))
      ⊢ wp frame (wpE (defs₀ (F := F)) Variants.none c none) E
          (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0 hf1 hf2 hf3 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    (try sl_unfold_words)
    rw [View.read_writes_eq_canon _ _ _ (fun y => ⟨_, List.mem_cons_self, View.mem_set_unit_zero (S := S128x16) hz2 inb_S128x16_S128x16_0_0 y⟩)]
    (try sl_unfold_words)
    rw [View.canon_cons_unit_zero hz2]
    simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]
  iexists _; isplitr
  swap; · iexact H6
  ipureintro
  (try sl_unfold_words)
  rw [View.read_writes_eq_canon _ _ _ (fun y => ⟨_, List.mem_cons_self, View.mem_set_unit_zero (S := S128x128) hz2 inb_S128x128_S128x128_0_0 y⟩)]
  (try sl_unfold_words)
  rw [View.canon_cons_unit_zero hz2]
  simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]

/-! ## What the scratch and the result hold, point by point -/

/-- The grid's last point. -/
theorem h24 : 24 < cfg3.N := lt_of_lt_of_eq (by omega : 24 < 25) N_3.symm

/-- The scratch accumulator after the body at point `n`. -/
def accAt (V : (c : Dev nD) → (b : Ref sig .tc) → Buf (Elt F) ((c : Thread nD τ).loc b)) (c : Dev nD) : (n : ℕ) → n < cfg3.N → Vec F S128x128 .f32
  | 0, h => k3_pay2 (iblk V c 1 ⟨0, h⟩) (iblk V c 0 ⟨0, h⟩) k3_pay1
  | n + 1, h => k3_pay2 (iblk V c 1 ⟨n + 1, h⟩) (iblk V c 0 ⟨n + 1, h⟩) (accAt V c n (Nat.lt_of_succ_lt h))

/-- The result window's staging buffer after the body at the last point. -/
def outLast (V : (c : Dev nD) → (b : Ref sig .tc) → Buf (Elt F) ((c : Thread nD τ).loc b)) (c : Dev nD) : Vec F S128x16 .f32 :=
  k3_pay3 (accAt V c 24 h24) (iblk V c 2 ⟨24, h24⟩) (iblk V c 3 ⟨24, h24⟩)

/-- At the first point: the first tile's sums over the zero fill. -/
theorem accAt_first (c : Dev nD) (t : Fin cfg3.N) (hz : t.val = 0) :
    accAt V c t.val t.isLt = k3_pay2 (iblk V c 1 t) (iblk V c 0 t) k3_pay1 := by
  obtain ⟨n, hn⟩ := t
  cases n with
  | zero => rfl
  | succ n => exact absurd hz (Nat.succ_ne_zero n)

/-- At a later point: this tile's sums over what the point before left. -/
theorem accAt_pos (c : Dev nD) (t : Fin cfg3.N) (hz : t.val ≠ 0) :
    accAt V c t.val t.isLt = k3_pay2 (iblk V c 1 t) (iblk V c 0 t)
      (accAt V c (t.val - 1) (Nat.lt_of_le_of_lt (Nat.sub_le _ _) t.isLt)) := by
  obtain ⟨n, hn⟩ := t
  cases n with
  | zero => exact absurd rfl hz
  | succ n => rfl

/-- The result at the last point: the read-out of that point's accumulator. -/
theorem outLast_at (c : Dev nD) (t : Fin cfg3.N) (hl : t.val = 24) :
    outLast V c = k3_pay3 (k3_pay2 (iblk V c 1 t) (iblk V c 0 t)
      (accAt V c (t.val - 1) (Nat.lt_of_le_of_lt (Nat.sub_le _ _) t.isLt))) (iblk V c 2 t) (iblk V c 3 t) := by
  obtain ⟨n, hn⟩ := t
  have hl' : n = 24 := hl
  subst hl'
  rfl

/-! ## The invariant: the scratch carried between points -/

/-- The scratch operand as the pipeline passes it: the kernel's own scoped buffer, whole. -/
abbrev scM : Memref sig .tc .vmem S128x128 .f32 := Memref.whole cc3_scratch0

/-- The region invariant before position `n`: the scratch at anything before the first point, afterwards at what the
    point before left; the other scoped buffers no window stages, unopened; the generator register at some state. -/
def PhiS (c : Dev nD) : (n : ℕ) → n ≤ cfg3.N → sProp 𝕄
  | 0, _ => iprop((∃ d, owns (c : Thread nD τ) scM fullShare d)
      ∗ Pipeline.scopedRestBut (Ix := Unit) (Name := ℕ) (U := UR sig nD τ) (Lvl := ℕ) (Val := Elt F) spec3 c [cc3_scratch0]
      ∗ (∃ r, prngReg c r))
  | n + 1, hn => iprop(owns (c : Thread nD τ) scM fullShare (accAt V c n hn)
      ∗ Pipeline.scopedRestBut (Ix := Unit) (Name := ℕ) (U := UR sig nD τ) (Lvl := ℕ) (Val := Elt F) spec3 c [cc3_scratch0]
      ∗ (∃ r, prngReg c r))

theorem PhiS_zero (c : Dev nD) (n : ℕ) (h : n ≤ cfg3.N) (hz : n = 0) :
    PhiS V c n h = iprop((∃ d, owns (c : Thread nD τ) scM fullShare d)
      ∗ Pipeline.scopedRestBut (Ix := Unit) (Name := ℕ) (U := UR sig nD τ) (Lvl := ℕ) (Val := Elt F) spec3 c [cc3_scratch0]
      ∗ (∃ r, prngReg c r)) := by
  subst hz; rfl

theorem PhiS_succ (c : Dev nD) (n : ℕ) (hn : n < cfg3.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec3 c [cc3_scratch0]
      ∗ (∃ r, prngReg c r)) := rfl

theorem PhiS_pos (c : Dev nD) (n : ℕ) (h : n ≤ cfg3.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-! ## The proof data -/

/-- The region's proof data on core `c`. -/
def dat (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outLast V c
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]
theorem q_eq (c : Dev nD) (w : Fin cfg3.W) : (dat V c).q w = fullShare := by dsimp only [dat]
theorem owed_eq (c : Dev nD) (t : Fin (cfg3.N + 1)) : (dat V c).owed t = 0 := by dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = outLast V c := by dsimp only [dat]

/-- The invariant at a point's start, restated at the point's position. -/
theorem Phi_castSucc (c : Dev nD) (t : Fin cfg3.N) :
    (dat V c).Φ t.castSucc = PhiS V c t.val (Nat.le_of_lt t.isLt) := by
  dsimp only [dat]; simp only [Fin.coe_castSucc]

/-- An operand window's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## Where the windows are idle -/

theorem liveAt_0 : ∀ t : Fin cfg3.N, cfg3.idle 0 (grid3.coords t) = false := fun _ => rfl
theorem liveAt_1 : ∀ t : Fin cfg3.N, cfg3.idle 1 (grid3.coords t) = false := fun _ => rfl
theorem liveAt_2 : ∀ t : Fin cfg3.N, cfg3.idle 2 (grid3.coords t) = false := fun _ => rfl
theorem liveAt_3 : ∀ t : Fin cfg3.N, cfg3.idle 3 (grid3.coords t) = false := fun _ => rfl
/-- Away from the last point the result window is idle: the body stores nothing into it there, -/
theorem idleAt_4 : ∀ t : Fin cfg3.N, ¬cond3_1 (grid3.coords t) → cfg3.idle 4 (grid3.coords t) = true := by decide +kernel
/-- and the pipeline does not write its block back; -/
theorem noFlush_4 : ∀ t : Fin cfg3.N, ¬cond3_1 (grid3.coords t) → (cfg3.win 4).flush t = false := by decide +kernel
/-- at the last point it is live. -/
theorem liveAt_4 : ∀ t : Fin cfg3.N, cond3_1 (grid3.coords t) → cfg3.idle 4 (grid3.coords t) = false := by decide +kernel

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

/-- The invariant is made, at the first point, of the generator register and the scoped buffers no window stages (the
    scratch among them, at whatever it holds), and gives them back after the last. -/
theorem Φ_first (c : Dev nD) :
    (iprop((∃ r, prngReg c r) ∗ Pipeline.scopedRest (Ix := Unit) (Name := ℕ) (U := UR sig nD τ) (Lvl := ℕ) (Val := Elt F) spec3 c) : sProp 𝕄)
      ⊢ (dat V c).Φ 0 := by
  rw [show (dat V c).Φ 0 = PhiS V c 0 (Nat.zero_le _) from rfl, PhiS_zero V c 0 _ rfl, scopedRest3_split]
  simp only [scM, owns_whole]
  iintro ⟨Hg, HS, Hr⟩
  isplitl [HS]; · iexact HS
  isplitl [Hr]; · iexact Hr
  iexact Hg
theorem Φ_last (c : Dev nD) :
    (dat V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 25 := N_3; omega), scopedRest3_split]
  simp only [scM, owns_whole]
  iintro ⟨HS, Hr, Hg⟩
  isplitl [Hg]; · iexact Hg
  isplitl [HS]; · iexists _; iexact HS
  iexact Hr

set_option maxHeartbeats 4000000 in
/-- The body at any point: the operands' memrefs hold their blocks; the point's position says which of the three
    runs applies; the invariant hands the body the scratch at what the point before left (at anything at the first
    point) and takes it back at this point's contents; the result's buffer passes through untouched except at the
    last point, which stores the read-out. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st3_0 t) fullShare ((dat V c).after 0 t) from by
    unfold Dat.leavesExact; rw [liveAt_0 t], after_0]
  rw [show (dat V c).leavesExact 1 t = owns (c : Thread nD τ) (st3_1 t) fullShare ((dat V c).after 1 t) from by
    unfold Dat.leavesExact; rw [liveAt_1 t], after_1]
  rw [show (dat V c).leavesExact 2 t = owns (c : Thread nD τ) (st3_2 t) fullShare ((dat V c).after 2 t) from by
    unfold Dat.leavesExact; rw [liveAt_2 t], after_2]
  rw [show (dat V c).leavesExact 3 t = owns (c : Thread nD τ) (st3_3 t) fullShare ((dat V c).after 3 t) from by
    unfold Dat.leavesExact; rw [liveAt_3 t], after_3]
  have hN : t.val < 25 := lt_of_lt_of_eq t.isLt (show cfg3.N = 25 from N_3)
  by_cases h0 : t.val = 0
  · have h1 : ¬t.val = 24 := by omega
    rw [Dat.leavesExact_idle (dat V c) 4 t (idleAt_4 t (fun h => h1 ((hcond3_1 t).mp h))) (noFlush_4 t (fun h => h1 ((hcond3_1 t).mp h)))]
    rw [accAt_first V c t h0, Phi_castSucc V c t, PhiS_zero V c _ _ h0]
    iintro ⟨⟨⟨%ds, HS⟩, Hr, Hg⟩, Ho, ⟨%d0, H0⟩, ⟨%d1, H1⟩, ⟨%d2, H2⟩, ⟨%d3, H3⟩, ⟨%d4, H4⟩⟩
    iapply (run_first c Set.univ (grid3.coords t) _ _ _ _ _ _ _ _ _ _ _ _ ((hcond3_0 t).mpr h0) (fun h => h1 ((hcond3_1 t).mp h))
      (iblk V c 0 t) (iblk V c 1 t) (iblk V c 2 t) (iblk V c 3 t) ((dat V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 24
    · rw [show (dat V c).leavesExact 4 t = owns (c : Thread nD τ) (st3_4 t) fullShare ((dat V c).after 4 t) from by
        unfold Dat.leavesExact; rw [liveAt_4 t ((hcond3_1 t).mpr h1)], after_4]
      rw [outLast_at V c t h1, accAt_pos V c t h0, Phi_castSucc V c t, PhiS_pos V c _ _ h0]
      iintro ⟨⟨HS, Hr, Hg⟩, Ho, ⟨%d0, H0⟩, ⟨%d1, H1⟩, ⟨%d2, H2⟩, ⟨%d3, H3⟩, ⟨%d4, H4⟩⟩
      iapply (run_last c Set.univ (grid3.coords t) _ _ _ _ _ _ _ _ _ _ _ _ (fun h => h0 ((hcond3_0 t).mp h)) ((hcond3_1 t).mpr h1)
        (iblk V c 0 t) (iblk V c 1 t) (iblk V c 2 t) (iblk V c 3 t)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h1 ((hcond3_1 t).mp h))) (noFlush_4 t (fun h => h1 ((hcond3_1 t).mp h)))]
      rw [accAt_pos V c t h0, Phi_castSucc V c t, PhiS_pos V c _ _ h0]
      iintro ⟨⟨HS, Hr, Hg⟩, Ho, ⟨%d0, H0⟩, ⟨%d1, H1⟩, ⟨%d2, H2⟩, ⟨%d3, H3⟩, ⟨%d4, H4⟩⟩
      iapply (run_mid c Set.univ (grid3.coords t) _ _ _ _ _ _ _ _ _ _ _ _ (fun h => h0 ((hcond3_0 t).mp h)) (fun h => h1 ((hcond3_1 t).mp h))
        (iblk V c 0 t) (iblk V c 1 t) (iblk V c 2 t) (iblk V c 3 t) ((dat V c).before 4 t d4)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

/-- The result window's block index is zero on both axes at every point: its block is its whole array. -/
theorem index_4 (t : Fin cfg3.N) (a : Fin 2) : win3_4.index t a = 0 := by
  match a with
  | ⟨0, _⟩ => rfl
  | ⟨1, _⟩ => rfl

/-- What the last point writes back is the whole result array's contents, read through its one block. -/
theorem flushed_4 (c : Dev nD) (t : Fin cfg3.N) :
    (dat V c).flushed 4 t = ((cfg3.win 4).blk t).view.read (Elt F) (outLast V c) := by
  show (cfg3.win 4).cut (grid3.coords t) ((dat V c).after 4 t) = _
  rw [after_4]
  funext j
  show outLast V c j = outLast V c (((cfg3.win 4).blk t).view.emb j)
  congr 1
  funext a; apply Fin.ext
  match a with
  | ⟨0, _⟩ =>
    show (j 0).val = win3_4.index t (0 : Fin 2) * 128 + 1 * (j 0).val
    rw [index_4 t 0]; omega
  | ⟨1, _⟩ =>
    show (j 1).val = win3_4.index t (1 : Fin 2) * 16 + 1 * (j 1).val
    rw [index_4 t 1]; omega

/-- The result array after the region: the one block the last point writes back. -/
theorem arrAt_out (c : Dev nD) : (dat V c).arrAt 4 cfg3.N = outLast V c := by
  refine (dat V c).arrAt_eq_of_cover 4 (outLast V c) (fun t _ => flushed_4 V c t) fun i => ?_
  refine ⟨⟨24, h24⟩, (flush3_4 _).mpr rfl, ?_⟩
  show i ∈ ((View.whole main_v105).slice (win3_4.rect ⟨24, h24⟩)).set
  rw [View.set_slice_whole, Rect.mem_set_unit]
  intro a
  match a with
  | ⟨0, _⟩ =>
    show win3_4.index ⟨24, h24⟩ (0 : Fin 2) * 128 ≤ (i 0).val ∧ (i 0).val < win3_4.index ⟨24, h24⟩ (0 : Fin 2) * 128 + 128
    rw [index_4 _ 0]; have hi : (i 0).val < 128 := (i 0).isLt; omega
  | ⟨1, _⟩ =>
    show win3_4.index ⟨24, h24⟩ (1 : Fin 2) * 16 ≤ (i 1).val ∧ (i 1).val < win3_4.index ⟨24, h24⟩ (1 : Fin 2) * 16 + 16
    rw [index_4 _ 1]; have hi : (i 1).val < 16 := (i 1).isLt; omega

/-- The operand arrays are as entered. -/
theorem arrAt_in (c : Dev nD) (w : Fin cfg3.W) (hw : (cfg3.win w).isOut = false) : (dat V c).arrAt w cfg3.N = V c (Pipeline.arrRef spec3 w) :=
  ((dat V c).arrAt_in w hw _).trans (A_eq V c w)

/-! ## The accumulator and the result as the body's payloads of the blocks -/

theorem accAt_zero (c : Dev nD) (h0 : 0 < cfg3.N) :
    accAt V c 0 h0 = k3_pay2 (iblk V c 1 ⟨0, h0⟩) (iblk V c 0 ⟨0, h0⟩) k3_pay1 := rfl
theorem accAt_succ (c : Dev nD) (n : ℕ) (hn : n + 1 < cfg3.N) :
    accAt V c (n + 1) hn = k3_pay2 (iblk V c 1 ⟨n + 1, hn⟩) (iblk V c 0 ⟨n + 1, hn⟩) (accAt V c n (Nat.lt_of_succ_lt hn)) := rfl
theorem outLast_eq (c : Dev nD) (h24 : 24 < cfg3.N) :
    outLast V c = k3_pay3 (accAt V c 24 h24) (iblk V c 2 ⟨24, h24⟩) (iblk V c 3 ⟨24, h24⟩) := rfl

end Cert.Kernel.Pool3

end
-- ==== Proof.RunValsBits.lean ====
/-
  The program between its items: what every unscoped buffer of a core holds before and after each of the four kernel
  regions, as an explicit chain from the launch memory — a stretch of host operations applies them; a region replaces
  its result array by what its write-backs leave (the array its proof data computes) and leaves every other buffer.
  The three layer outputs `H1`, `H2`, `H3` and the final result `H4` are those arrays. The generated conditional frame
  states the same chain over unknown region outputs; `outs` instantiates them and `V2_eq` … `V8_eq` identify the two.
-/
import proofs.«418468_j32066225832278_1_alg».proof.Proof.Region0Bits
import proofs.«418468_j32066225832278_1_alg».proof.Proof.Region1Bits
import proofs.«418468_j32066225832278_1_alg».proof.Proof.Region2Bits
import proofs.«418468_j32066225832278_1_alg».proof.Proof.Region3Bits
import proofs.«418468_j32066225832278_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Updating one TensorCore buffer of a valuation: read at that buffer, and at another. -/
theorem upd_self (W : Valuation τ sig (Elt F)) (r : Ref sig .tc) (x : (Proc.devRef (τ := τ) .tc r).ty.Contents (Elt F)) :
    Function.update W (Proc.devRef .tc r) x (Proc.devRef .tc r) = x := Function.update_self _ _ _
theorem upd_ne (W : Valuation τ sig (Elt F)) (r : Ref sig .tc) (x : (Proc.devRef (τ := τ) .tc r).ty.Contents (Elt F))
    (b : Ref sig .tc) (h : b ≠ r) : Function.update W (Proc.devRef .tc r) x (Proc.devRef .tc b) = W (Proc.devRef .tc b) :=
  Function.update_of_ne (StableHlo.devRef_ne_of_ne h) _ _

/-! ## The chain of contents -/

/-- Before region 0: the launch memory after the first stretch of host operations. -/
abbrev X1 (c : Dev nD) : Valuation τ sig (Elt F) := Gen.V1 m c
/-- The same read at the TensorCore's references (what a region's proof data take). -/
abbrev T1 : (c : Dev nD) → (b : Ref sig .tc) → Buf (Elt F) ((c : Thread nD τ).loc b) := fun c b => X1 m c b
/-- The first layer's output array. -/
def H1 (c : Dev nD) : (Proc.devRef (τ := τ) .tc main_v37).ty.Contents (Elt F) := (Mlp0.dat (T1 m) c).arrAt 10 cfg0.N
/-- After region 0. -/
abbrev X2 (c : Dev nD) : Valuation τ sig (Elt F) := Function.update (X1 m c) (Proc.devRef .tc main_v37) (H1 m c)
abbrev T2 : (c : Dev nD) → (b : Ref sig .tc) → Buf (Elt F) ((c : Thread nD τ).loc b) := fun c b => X2 m c b
/-- Before region 1: after the second stretch. -/
abbrev X3 (c : Dev nD) : Valuation τ sig (Elt F) := StableHlo.after hostOps1 (X2 m c)
abbrev T3 : (c : Dev nD) → (b : Ref sig .tc) → Buf (Elt F) ((c : Thread nD τ).loc b) := fun c b => X3 m c b
/-- The second layer's output array. -/
def H2 (c : Dev nD) : (Proc.devRef (τ := τ) .tc main_v70).ty.Contents (Elt F) := (Mlp1.dat (T3 m) c).arrAt 10 cfg1.N
abbrev X4 (c : Dev nD) : Valuation τ sig (Elt F) := Function.update (X3 m c) (Proc.devRef .tc main_v70) (H2 m c)
abbrev T4 : (c : Dev nD) → (b : Ref sig .tc) → Buf (Elt F) ((c : Thread nD τ).loc b) := fun c b => X4 m c b
abbrev X5 (c : Dev nD) : Valuation τ sig (Elt F) := StableHlo.after hostOps2 (X4 m c)
abbrev T5 : (c : Dev nD) → (b : Ref sig .tc) → Buf (Elt F) ((c : Thread nD τ).loc b) := fun c b => X5 m c b
/-- The third layer's output array. -/
def H3 (c : Dev nD) : (Proc.devRef (τ := τ) .tc main_v103).ty.Contents (Elt F) := (Mlp2.dat (T5 m) c).arrAt 10 cfg2.N
abbrev X6 (c : Dev nD) : Valuation τ sig (Elt F) := Function.update (X5 m c) (Proc.devRef .tc main_v103) (H3 m c)
abbrev T6 : (c : Dev nD) → (b : Ref sig .tc) → Buf (Elt F) ((c : Thread nD τ).loc b) := fun c b => X6 m c b
abbrev X7 (c : Dev nD) : Valuation τ sig (Elt F) := StableHlo.after hostOps3 (X6 m c)
abbrev T7 : (c : Dev nD) → (b : Ref sig .tc) → Buf (Elt F) ((c : Thread nD τ).loc b) := fun c b => X7 m c b
/-- The program's result array. -/
def H4 (c : Dev nD) : (Proc.devRef (τ := τ) .tc main_v105).ty.Contents (Elt F) := (Pool3.dat (T7 m) c).arrAt 4 cfg3.N
abbrev X8 (c : Dev nD) : Valuation τ sig (Elt F) := Function.update (X7 m c) (Proc.devRef .tc main_v105) (H4 m c)
abbrev T8 : (c : Dev nD) → (b : Ref sig .tc) → Buf (Elt F) ((c : Thread nD τ).loc b) := fun c b => X8 m c b

/-- What the regions leave, as the generated conditional frame asks for it: after item J − 1, buffer r on core c. -/
def outs : Gen.Outs (F := F) := fun J r c =>
  match J with
  | 2 => X2 m c (Proc.devRef .tc r)
  | 4 => X4 m c (Proc.devRef .tc r)
  | 6 => X6 m c (Proc.devRef .tc r)
  | 8 => X8 m c (Proc.devRef .tc r)
  | _ => X1 m c (Proc.devRef .tc r)

theorem V2_eq (c : Dev nD) : Gen.V2 m (outs m) c = X2 m c := by
  show Function.update (Gen.V1 m c) _ (outs m 2 main_v37 c) = Function.update (Gen.V1 m c) _ (H1 m c)
  rw [show outs m 2 main_v37 c = H1 m c from upd_self _ _ _]
theorem V3_eq (c : Dev nD) : Gen.V3 m (outs m) c = X3 m c := by
  show StableHlo.after hostOps1 (Gen.V2 m (outs m) c) = StableHlo.after hostOps1 (X2 m c); rw [V2_eq]
theorem V4_eq (c : Dev nD) : Gen.V4 m (outs m) c = X4 m c := by
  show Function.update (Gen.V3 m (outs m) c) _ (outs m 4 main_v70 c) = Function.update (X3 m c) _ (H2 m c)
  rw [V3_eq, show outs m 4 main_v70 c = H2 m c from upd_self _ _ _]
theorem V5_eq (c : Dev nD) : Gen.V5 m (outs m) c = X5 m c := by
  show StableHlo.after hostOps2 (Gen.V4 m (outs m) c) = StableHlo.after hostOps2 (X4 m c); rw [V4_eq]
theorem V6_eq (c : Dev nD) : Gen.V6 m (outs m) c = X6 m c := by
  show Function.update (Gen.V5 m (outs m) c) _ (outs m 6 main_v103 c) = Function.update (X5 m c) _ (H3 m c)
  rw [V5_eq, show outs m 6 main_v103 c = H3 m c from upd_self _ _ _]
theorem V7_eq (c : Dev nD) : Gen.V7 m (outs m) c = X7 m c := by
  show StableHlo.after hostOps3 (Gen.V6 m (outs m) c) = StableHlo.after hostOps3 (X6 m c); rw [V6_eq]
theorem V8_eq (c : Dev nD) : Gen.V8 m (outs m) c = X8 m c := by
  show Function.update (Gen.V7 m (outs m) c) _ (outs m 8 main_v105 c) = Function.update (X7 m c) _ (H4 m c)
  rw [V7_eq, show outs m 8 main_v105 c = H4 m c from upd_self _ _ _]

/-! ## The proof data family, and what rides beside the buffers -/

/-- Every pipeline's proof data, each at its region's entry contents: a literal match on the pipeline's number. -/
def pdats : (p : Fin 4) → (c : Dev nD) → Dat τ (Elt F) Unit ℕ (UR sig nD τ) ℕ (cfgs p) c
  | ⟨0, _⟩ => fun c => Mlp0.dat (T1 m) c
  | ⟨1, _⟩ => fun c => Mlp1.dat (T3 m) c
  | ⟨2, _⟩ => fun c => Mlp2.dat (T5 m) c
  | ⟨3, _⟩ => fun c => Pool3.dat (T7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

end Cert.Kernel.Whole

end
-- ==== Proof.RunReg0Bits.lean ====
/-
  Launch 0 of the layer kernel as a segment of the program's run: the region is entered from the thread state "every
  unscoped buffer at the contents before it, the generator register at some state, nothing owed" and left at the same
  with the launch's result array at what its write-backs leave. Its arrays are split out of the unscoped buffers at
  entry and put back at exit; the ten operand arrays come back as they went in.
-/
import proofs.«418468_j32066225832278_1_alg».proof.Proof.RunValsBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the layer's output. -/
theorem hF0 (c : Dev nD) (w : Fin cfg0.W) : (pdats m 0 c).arrAt w cfg0.N = T2 m c (Pipeline.arrRef spec0 w) := by
  by_cases hw : w = 10
  · subst hw
    exact (upd_self (X1 m c) main_v37 (H1 m c)).symm
  · have hin : (cfg0.win w).isOut = false := by fin_cases w <;> first | rfl | exact absurd rfl hw
    have hne : Pipeline.arrRef spec0 w ≠ main_v37 := by fin_cases w <;> first | decide | exact absurd rfl hw
    exact (((Mlp0.dat (T1 m) c).arrAt_in w hin _).trans (Mlp0.A_eq (T1 m) c w)).trans (upd_ne (X1 m c) main_v37 (H1 m c) _ hne).symm

/-- Every buffer that is no array of the region holds at its exit what it held at entry. -/
theorem hrest0 (c : Dev nD) : ∀ b, b ∉ Finset.univ.image (Pipeline.arrRef spec0) → T2 m c b = T1 m c b :=
  fun b hb => upd_ne (X1 m c) main_v37 (H1 m c) b fun e => hb (Finset.mem_image.mpr ⟨10, Finset.mem_univ _, e.symm⟩)

set_option backward.isDefEq.respectTransparency.types false in
/-- The region's record. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp0.body_obligation (T1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.RunReg1Bits.lean ====
/-
  Launch 1 of the layer kernel as a segment of the program's run: the region is entered from the thread state "every
  unscoped buffer at the contents before it, the generator register at some state, nothing owed" and left at the same
  with the launch's result array at what its write-backs leave. Its arrays are split out of the unscoped buffers at
  entry and put back at exit; the ten operand arrays come back as they went in.
-/
import proofs.«418468_j32066225832278_1_alg».proof.Proof.RunValsBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the layer's output. -/
theorem hF1 (c : Dev nD) (w : Fin cfg1.W) : (pdats m 1 c).arrAt w cfg1.N = T4 m c (Pipeline.arrRef spec1 w) := by
  by_cases hw : w = 10
  · subst hw
    exact (upd_self (X3 m c) main_v70 (H2 m c)).symm
  · have hin : (cfg1.win w).isOut = false := by fin_cases w <;> first | rfl | exact absurd rfl hw
    have hne : Pipeline.arrRef spec1 w ≠ main_v70 := by fin_cases w <;> first | decide | exact absurd rfl hw
    exact (((Mlp1.dat (T3 m) c).arrAt_in w hin _).trans (Mlp1.A_eq (T3 m) c w)).trans (upd_ne (X3 m c) main_v70 (H2 m c) _ hne).symm

/-- Every buffer that is no array of the region holds at its exit what it held at entry. -/
theorem hrest1 (c : Dev nD) : ∀ b, b ∉ Finset.univ.image (Pipeline.arrRef spec1) → T4 m c b = T3 m c b :=
  fun b hb => upd_ne (X3 m c) main_v70 (H2 m c) b fun e => hb (Finset.mem_image.mpr ⟨10, Finset.mem_univ _, e.symm⟩)

set_option backward.isDefEq.respectTransparency.types false in
/-- The region's record. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mlp1.body_obligation (T3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.RunReg2Bits.lean ====
/-
  Launch 2 of the layer kernel as a segment of the program's run: the region is entered from the thread state "every
  unscoped buffer at the contents before it, the generator register at some state, nothing owed" and left at the same
  with the launch's result array at what its write-backs leave. Its arrays are split out of the unscoped buffers at
  entry and put back at exit; the ten operand arrays come back as they went in.
-/
import proofs.«418468_j32066225832278_1_alg».proof.Proof.RunValsBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the layer's output. -/
theorem hF2 (c : Dev nD) (w : Fin cfg2.W) : (pdats m 2 c).arrAt w cfg2.N = T6 m c (Pipeline.arrRef spec2 w) := by
  by_cases hw : w = 10
  · subst hw
    exact (upd_self (X5 m c) main_v103 (H3 m c)).symm
  · have hin : (cfg2.win w).isOut = false := by fin_cases w <;> first | rfl | exact absurd rfl hw
    have hne : Pipeline.arrRef spec2 w ≠ main_v103 := by fin_cases w <;> first | decide | exact absurd rfl hw
    exact (((Mlp2.dat (T5 m) c).arrAt_in w hin _).trans (Mlp2.A_eq (T5 m) c w)).trans (upd_ne (X5 m c) main_v103 (H3 m c) _ hne).symm

/-- Every buffer that is no array of the region holds at its exit what it held at entry. -/
theorem hrest2 (c : Dev nD) : ∀ b, b ∉ Finset.univ.image (Pipeline.arrRef spec2) → T6 m c b = T5 m c b :=
  fun b hb => upd_ne (X5 m c) main_v103 (H3 m c) b fun e => hb (Finset.mem_image.mpr ⟨10, Finset.mem_univ _, e.symm⟩)

set_option backward.isDefEq.respectTransparency.types false in
/-- The region's record. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (Mlp2.body_obligation (T5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.RunReg3Bits.lean ====
/-
  The read-out kernel as a segment of the program's run: entered from "every unscoped buffer at the contents before it,
  the generator register at some state, nothing owed", left at the same with the program's result array at what the
  last grid point writes back. The scratch accumulator is a scoped buffer: it reaches the body through the region's
  invariant, made at the first point of the scoped buffers no window stages and given back after the last.
-/
import proofs.«418468_j32066225832278_1_alg».proof.Proof.RunValsBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the read-out. -/
theorem hF3 (c : Dev nD) (w : Fin cfg3.W) : (pdats m 3 c).arrAt w cfg3.N = T8 m c (Pipeline.arrRef spec3 w) := by
  fin_cases w
  · exact (Pool3.arrAt_in (T7 m) c 0 rfl).trans (upd_ne _ _ _ _ (by decide)).symm
  · exact (Pool3.arrAt_in (T7 m) c 1 rfl).trans (upd_ne _ _ _ _ (by decide)).symm
  · exact (Pool3.arrAt_in (T7 m) c 2 rfl).trans (upd_ne _ _ _ _ (by decide)).symm
  · exact (Pool3.arrAt_in (T7 m) c 3 rfl).trans (upd_ne _ _ _ _ (by decide)).symm
  · exact (upd_self _ _ _).symm

/-- Every buffer that is no array of the region holds at its exit what it held at entry. -/
theorem hrest3 (c : Dev nD) : ∀ b, b ∉ Finset.univ.image (Pipeline.arrRef spec3) → T8 m c b = T7 m c b :=
  fun b hb => upd_ne _ _ _ _ fun e => hb (Finset.mem_image.mpr ⟨4, Finset.mem_univ _, e.symm⟩)

set_option backward.isDefEq.respectTransparency.types false in
/-- The region's record. -/
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (Pool3.body_obligation (T7 m) c).loose
  hwaits := Pipeline.hwaits_of_owed_zero _ _ _ _ L lv 3 fun c t => Pool3.owed_eq (T7 m) c t
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) Gen.adm (pdats m) launch3.win launch3.arr_whole c
      ((pdats m 3 c).share_full fun w => Pool3.q_eq (T7 m) c w) (T7 m c) fun w => Pool3.A_eq (T7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from Pool3.owed_eq (T7 m) c 0]
      icases HO with ⟨%W, HO⟩; iexists W; isplitr; · ipureintro; exact fun _ _ => Or.inl trivial
      iexact HO
    isplitl [Hp]; · iexact Hp
    iexact Hrest
  hin c := by
    rw [show (pdats m 3 c).Φ 0 = (Pool3.dat (T7 m) c).Φ 0 from rfl]
    iintro ⟨Hp, -, Hr⟩
    iapply (Pool3.Φ_first (T7 m) c)
    isplitl [Hp]; · iexact Hp
    iexact Hr
  hout c := by
    rw [Pipeline.ownSems0_none, show (pdats m 3 c).Φ (Fin.last _) = (Pool3.dat (T7 m) c).Φ (Fin.last cfg3.N) from rfl]
    iintro HΦ
    ihave H := (Pool3.Φ_last (T7 m) c) $$ HΦ
    icases H with ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun w => Pool3.q_eq (T7 m) c w)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from Pool3.owed_eq (T7 m) c _]
    icases HO with ⟨%W, -, HO⟩; iexists W; iexact HO

end Cert.Kernel.Whole

end
-- ==== Proof.RunKBits.lean ====
/-
  The program's run: its four kernel regions' records handed to the generated conditional frame, which proves the host
  side. `frame`: from any memory with zero counters every weakly fair execution terminates, nothing faulting, with every
  argument array as launched.
-/
import proofs.«418468_j32066225832278_1_alg».proof.Proof.RunReg0Bits
import proofs.«418468_j32066225832278_1_alg».proof.Proof.RunReg1Bits
import proofs.«418468_j32066225832278_1_alg».proof.Proof.RunReg2Bits
import proofs.«418468_j32066225832278_1_alg».proof.Proof.RunReg3Bits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The same rest state rides beside the buffers at every boundary. -/
abbrev E : Fin 5 → Dev nD → sProp 𝕄 := fun _ c => R c

/-- The launch's ghost element yields the cells' initial state and nothing else. -/
theorem launchGhost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core has its generator register and owes nothing: the rest state on every core at once. -/
theorem launchRest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (E (F := F) 0) : sProp 𝕄) := bigSep_mono fun c _ => by
    show _ ⊢ (iprop((∃ r, prngReg c r) ∗ ∃ W, owes (c : Thread nD τ) (0 : CellTallies nD τ sig Unit) W) : sProp 𝕄)
    iintro ⟨-, HO, -, Hp, -⟩
    isplitl [Hp]; · iexists _; iexact Hp
    iexists ∅; iexact HO
  iintro ⟨H, -⟩
  imodintro
  iapply h; iexact H

/-- THE FRAME, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launchGhost E (launchRest ρ)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)

end Cert.Kernel.Whole

end
-- ==== Proof.Region0.lean ====
/-
  The first launch of the layer kernel as one region of the program: at a PARAMETER `V` (what the core's buffers hold
  when the region is entered) the blocks its ten operand windows stage at a grid point, the one whole-tile store of the
  body as a piece over the payloads of the ten loaded blocks, the body's triple, the proof data (every operand buffer
  left as found, the result buffer at the stored tile) and the body obligation at every point. Point t of the 25 takes
  rows 2000 t .. 2000 t + 1999 of the two node arrays; the eight parameter operands are whole and the same at every point.
-/
import proofs.«418468_j32066225832278_1_alg».proof.Proof.Gen.KernelIdeal.Launch
import proofs.«418468_j32066225832278_1_alg».proof.Proof.Gen.KernelIdeal.Skeleton
import proofs.«418468_j32066225832278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rT : Rect S2000x128 := Rect.unit (s := S2000x128) ![0, 0] S2000x128.size inb_S2000x128_S2000x128_0_0
abbrev rM : Rect S128x128 := Rect.unit (s := S128x128) ![0, 0] S128x128.size inb_S128x128_S128x128_0_0
abbrev rR : Rect S1x128 := Rect.unit (s := S1x128) ![0, 0] S1x128.size inb_S1x128_S1x128_0_0

/-- The result tile the body stores, from the ten operand blocks (window order: node features, neighbour sums, first
    weight matrix and bias, second weight matrix and bias, gamma, beta, mean, variance). -/
def tile (x0 x1 : Vec F S2000x128 .f32) (x2 : Vec F S128x128 .f32) (x3 : Vec F S1x128 .f32) (x4 : Vec F S128x128 .f32)
    (x5 x6 x7 x8 x9 : Vec F S1x128 .f32) : FVec F S2000x128 .f32 :=
  k0_pay1 (k0_pay2 (View.ld x0 rT) (View.ld x1 rT) (View.ld x2 rM) (View.ld x3 rR) (View.ld x4 rM) (View.ld x5 rR) (View.ld x8 rR))
    (k0_pay3 (View.ld x6 rR) (View.ld x9 rR)) (View.ld x7 rR)

/-- The result window's staging buffer after the body: its one store as a piece. -/
def out10 (x0 x1 : Vec F S2000x128 .f32) (x2 : Vec F S128x128 .f32) (x3 : Vec F S1x128 .f32) (x4 : Vec F S128x128 .f32)
    (x5 x6 x7 x8 x9 : Vec F S1x128 .f32) : Vec F S2000x128 .f32 :=
  View.canon [⟨rT, tile x0 x1 x2 x3 x4 x5 x6 x7 x8 x9⟩]

/-- The one store covers the buffer. -/
theorem cover10 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

set_option maxHeartbeats 4000000 in
/-- The body on whole staging memrefs, the ten operands' at read contents and the result's at anything, runs to the
    continuation holding the operands' as they were and the result's at the stored tile. -/
theorem sound_kernel (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 x1 : Vec F S2000x128 .f32) (x2 : Vec F S128x128 .f32) (x3 : Vec F S1x128 .f32) (x4 : Vec F S128x128 .f32)
    (x5 x6 x7 x8 x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out10 x0 x1 x2 x3 x4 x5 x6 x7 x8 x9)) -∗ K ⟨⟩))
      ⊢ wp frame (wpE (defs₀ (F := F)) Variants.none c none) E
          (cc0__mlp_bn_kernel i arg0 harg0 arg1 harg1 arg2 harg2 arg3 harg3 arg4 harg4 arg5 harg5 arg6 harg6 arg7 harg7 arg8 harg8 arg9 harg9 arg10 harg10) K := by
  simp only [cc0__mlp_bn_kernel_eq_skeleton]; unfold cc0__mlp_bn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The proof data -/

/-- The region's proof data on core `c`: the arrays as the region finds them; after the body at point `t` each operand's
    buffer at its block and the result's at the stored tile of the ten blocks; the invariant the scoped buffers the
    body does not touch and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out10 (iblk V c 0 t) (iblk V c 1 t) (iblk V c 2 t) (iblk V c 3 t) (iblk V c 4 t) (iblk V c 5 t)
        (iblk V c 6 t) (iblk V c 7 t) (iblk V c 8 t) (iblk V c 9 t)
  Φ _ := Pipeline.ΦA spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) :
    (dat V c).after 10 t = out10 (iblk V c 0 t) (iblk V c 1 t) (iblk V c 2 t) (iblk V c 3 t) (iblk V c 4 t) (iblk V c 5 t)
      (iblk V c 6 t) (iblk V c 7 t) (iblk V c 8 t) (iblk V c 9 t) := by dsimp only [dat]

/-- An operand window's current staging buffer holds its block at every point, fetched there or not: a window not
    fetched at a point has not moved, and the body left the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the operands' memrefs hold their blocks, so the body's triple applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Mlp0

end
-- ==== Proof.Region1.lean ====
/-
  Launch 1 of the layer kernel as one region of the program: at a PARAMETER `V` (what the core's buffers hold
  when the region is entered) the blocks its ten operand windows stage at a grid point, the one whole-tile store of the
  body as a piece over the payloads of the ten loaded blocks, the body's triple, the proof data (every operand buffer
  left as found, the result buffer at the stored tile) and the body obligation at every point. Point t of the 25 takes
  rows 2000 t .. 2000 t + 1999 of the two node arrays; the eight parameter operands are whole and the same at every point.
-/
import proofs.«418468_j32066225832278_1_alg».proof.Proof.Gen.KernelIdeal.Launch
import proofs.«418468_j32066225832278_1_alg».proof.Proof.Gen.KernelIdeal.Skeleton
import proofs.«418468_j32066225832278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT : Rect S2000x128 := Rect.unit (s := S2000x128) ![0, 0] S2000x128.size inb_S2000x128_S2000x128_0_0
abbrev rM : Rect S128x128 := Rect.unit (s := S128x128) ![0, 0] S128x128.size inb_S128x128_S128x128_0_0
abbrev rR : Rect S1x128 := Rect.unit (s := S1x128) ![0, 0] S1x128.size inb_S1x128_S1x128_0_0

/-- The result tile the body stores, from the ten operand blocks (window order: node features, neighbour sums, first
    weight matrix and bias, second weight matrix and bias, gamma, beta, mean, variance). -/
def tile (x0 x1 : Vec F S2000x128 .f32) (x2 : Vec F S128x128 .f32) (x3 : Vec F S1x128 .f32) (x4 : Vec F S128x128 .f32)
    (x5 x6 x7 x8 x9 : Vec F S1x128 .f32) : FVec F S2000x128 .f32 :=
  k1_pay1 (k1_pay2 (View.ld x6 rR) (View.ld x9 rR))
    (k1_pay3 (View.ld x0 rT) (View.ld x1 rT) (View.ld x2 rM) (View.ld x3 rR) (View.ld x4 rM) (View.ld x5 rR) (View.ld x8 rR)) (View.ld x7 rR)

/-- The result window's staging buffer after the body: its one store as a piece. -/
def out10 (x0 x1 : Vec F S2000x128 .f32) (x2 : Vec F S128x128 .f32) (x3 : Vec F S1x128 .f32) (x4 : Vec F S128x128 .f32)
    (x5 x6 x7 x8 x9 : Vec F S1x128 .f32) : Vec F S2000x128 .f32 :=
  View.canon [⟨rT, tile x0 x1 x2 x3 x4 x5 x6 x7 x8 x9⟩]

/-- The one store covers the buffer. -/
theorem cover10 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

set_option maxHeartbeats 4000000 in
/-- The body on whole staging memrefs, the ten operands' at read contents and the result's at anything, runs to the
    continuation holding the operands' as they were and the result's at the stored tile. -/
theorem sound_kernel (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 x1 : Vec F S2000x128 .f32) (x2 : Vec F S128x128 .f32) (x3 : Vec F S1x128 .f32) (x4 : Vec F S128x128 .f32)
    (x5 x6 x7 x8 x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out10 x0 x1 x2 x3 x4 x5 x6 x7 x8 x9)) -∗ K ⟨⟩))
      ⊢ wp frame (wpE (defs₀ (F := F)) Variants.none c none) E
          (cc1__mlp_bn_kernel i arg0 harg0 arg1 harg1 arg2 harg2 arg3 harg3 arg4 harg4 arg5 harg5 arg6 harg6 arg7 harg7 arg8 harg8 arg9 harg9 arg10 harg10) K := by
  simp only [cc1__mlp_bn_kernel_eq_skeleton]; unfold cc1__mlp_bn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The proof data -/

/-- The region's proof data on core `c`: the arrays as the region finds them; after the body at point `t` each operand's
    buffer at its block and the result's at the stored tile of the ten blocks; the invariant the scoped buffers the
    body does not touch and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out10 (iblk V c 0 t) (iblk V c 1 t) (iblk V c 2 t) (iblk V c 3 t) (iblk V c 4 t) (iblk V c 5 t)
        (iblk V c 6 t) (iblk V c 7 t) (iblk V c 8 t) (iblk V c 9 t)
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) :
    (dat V c).after 10 t = out10 (iblk V c 0 t) (iblk V c 1 t) (iblk V c 2 t) (iblk V c 3 t) (iblk V c 4 t) (iblk V c 5 t)
      (iblk V c 6 t) (iblk V c 7 t) (iblk V c 8 t) (iblk V c 9 t) := by dsimp only [dat]

/-- An operand window's current staging buffer holds its block at every point, fetched there or not: a window not
    fetched at a point has not moved, and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t))

/-- The body at any point: the operands' memrefs hold their blocks, so the body's triple applies; the invariant and
    the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Mlp1

end
-- ==== Proof.Region2.lean ====
/-
  Launch 2 of the layer kernel as one region of the program: at a PARAMETER `V` (what the core's buffers hold
  when the region is entered) the blocks its ten operand windows stage at a grid point, the one whole-tile store of the
  body as a piece over the payloads of the ten loaded blocks, the body's triple, the proof data (every operand buffer
  left as found, the result buffer at the stored tile) and the body obligation at every point. Point t of the 25 takes
  rows 2000 t .. 2000 t + 1999 of the two node arrays; the eight parameter operands are whole and the same at every point.
-/
import proofs.«418468_j32066225832278_1_alg».proof.Proof.Gen.KernelIdeal.Launch
import proofs.«418468_j32066225832278_1_alg».proof.Proof.Gen.KernelIdeal.Skeleton
import proofs.«418468_j32066225832278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S2000x128 := Rect.unit (s := S2000x128) ![0, 0] S2000x128.size inb_S2000x128_S2000x128_0_0
abbrev rM : Rect S128x128 := Rect.unit (s := S128x128) ![0, 0] S128x128.size inb_S128x128_S128x128_0_0
abbrev rR : Rect S1x128 := Rect.unit (s := S1x128) ![0, 0] S1x128.size inb_S1x128_S1x128_0_0

/-- The result tile the body stores, from the ten operand blocks (window order: node features, neighbour sums, first
    weight matrix and bias, second weight matrix and bias, gamma, beta, mean, variance). -/
def tile (x0 x1 : Vec F S2000x128 .f32) (x2 : Vec F S128x128 .f32) (x3 : Vec F S1x128 .f32) (x4 : Vec F S128x128 .f32)
    (x5 x6 x7 x8 x9 : Vec F S1x128 .f32) : FVec F S2000x128 .f32 :=
  k2_pay1 (k2_pay2 (View.ld x6 rR) (View.ld x9 rR))
    (k2_pay3 (View.ld x0 rT) (View.ld x1 rT) (View.ld x2 rM) (View.ld x3 rR) (View.ld x4 rM) (View.ld x5 rR) (View.ld x8 rR)) (View.ld x7 rR)

/-- The result window's staging buffer after the body: its one store as a piece. -/
def out10 (x0 x1 : Vec F S2000x128 .f32) (x2 : Vec F S128x128 .f32) (x3 : Vec F S1x128 .f32) (x4 : Vec F S128x128 .f32)
    (x5 x6 x7 x8 x9 : Vec F S1x128 .f32) : Vec F S2000x128 .f32 :=
  View.canon [⟨rT, tile x0 x1 x2 x3 x4 x5 x6 x7 x8 x9⟩]

/-- The one store covers the buffer. -/
theorem cover10 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

set_option maxHeartbeats 4000000 in
/-- The body on whole staging memrefs, the ten operands' at read contents and the result's at anything, runs to the
    continuation holding the operands' as they were and the result's at the stored tile. -/
theorem sound_kernel (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 x1 : Vec F S2000x128 .f32) (x2 : Vec F S128x128 .f32) (x3 : Vec F S1x128 .f32) (x4 : Vec F S128x128 .f32)
    (x5 x6 x7 x8 x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out10 x0 x1 x2 x3 x4 x5 x6 x7 x8 x9)) -∗ K ⟨⟩))
      ⊢ wp frame (wpE (defs₀ (F := F)) Variants.none c none) E
          (cc2__mlp_bn_kernel i arg0 harg0 arg1 harg1 arg2 harg2 arg3 harg3 arg4 harg4 arg5 harg5 arg6 harg6 arg7 harg7 arg8 harg8 arg9 harg9 arg10 harg10) K := by
  simp only [cc2__mlp_bn_kernel_eq_skeleton]; unfold cc2__mlp_bn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The proof data -/

/-- The region's proof data on core `c`: the arrays as the region finds them; after the body at point `t` each operand's
    buffer at its block and the result's at the stored tile of the ten blocks; the invariant the scoped buffers the
    body does not touch and the generator register; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out10 (iblk V c 0 t) (iblk V c 1 t) (iblk V c 2 t) (iblk V c 3 t) (iblk V c 4 t) (iblk V c 5 t)
        (iblk V c 6 t) (iblk V c 7 t) (iblk V c 8 t) (iblk V c 9 t)
  Φ _ := Pipeline.ΦA spec2 c
  q _ := fullShare
  owed _ := 0

theorem A_eq (c : Dev nD) (w : Fin cfg2.W) : (dat V c).A w = V c (Pipeline.arrRef spec2 w) := by dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) :
    (dat V c).after 10 t = out10 (iblk V c 0 t) (iblk V c 1 t) (iblk V c 2 t) (iblk V c 3 t) (iblk V c 4 t) (iblk V c 5 t)
      (iblk V c 6 t) (iblk V c 7 t) (iblk V c 8 t) (iblk V c 9 t) := by dsimp only [dat]

/-- An operand window's current staging buffer holds its block at every point, fetched there or not: a window not
    fetched at a point has not moved, and the body left the block in place. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t))

/-- The body at any point: the operands' memrefs hold their blocks, so the body's triple applies; the invariant and
    the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Mlp2

end
-- ==== Proof.Region3.lean ====
/-
  The read-out kernel as one region of the program: at a PARAMETER `V` (what the core's buffers hold when the region is
  entered) the blocks its four operand windows stage at a grid point, what the scratch accumulator holds after each of
  the 25 points (reset to zero at the first point, then one tile's per-graph sums added per point) and what the result
  buffer holds after the last point (the linear read-out of the accumulator: the only point that stores the result, the
  result window being idle and not written back at the others); the proof data whose invariant carries the scratch, and
  the body obligation at every point.
-/
import proofs.«418468_j32066225832278_1_alg».proof.Proof.Gen.KernelIdeal.Launch
import proofs.«418468_j32066225832278_1_alg».proof.Proof.Gen.KernelIdeal.Skeleton
import proofs.«418468_j32066225832278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Pool3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The condition of the body's first conditional (the reset of the accumulator), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The condition of the body's second conditional (the read-out), from the grid coordinates. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-- The zero offsets of a whole-buffer rectangle of rank 2. -/
theorem hz2 : (![0, 0] : Fin 2 → ℕ) = fun _ => 0 := by
  funext a; match a with | ⟨0, _⟩ => rfl | ⟨1, _⟩ => rfl

/-! ## The body's three runs: first point, middle points, last point -/

set_option maxHeartbeats 4000000 in
/-- The body at the first point, on whole memrefs: the four operands' at read contents, the result's at contents it
    does not touch, the scratch at anything; it runs to the continuation holding the operands' and the result's as
    they were and the scratch at the first tile's sums over the zero fill. -/
theorem run_first (c : Dev nD) (E : Set ℕ) (i : grid3.Coords) (arg1 : Memref sig .tc .vmem S2000x128 .f32) (harg1 : arg1.IsWhole) (arg2 : Memref sig .tc .vmem S2000x1 .i32) (harg2 : arg2.IsWhole) (arg3 : Memref sig .tc .vmem S128x16 .f32) (harg3 : arg3.IsWhole) (arg4 : Memref sig .tc .vmem S1x16 .f32) (harg4 : arg4.IsWhole) (arg5 : Memref sig .tc .vmem S128x16 .f32) (harg5 : arg5.IsWhole) (arg6 : Memref sig .tc .vmem S128x128 .f32) (harg6 : arg6.IsWhole)
    (hc0 : cond3_0 i) (hc1 : ¬cond3_1 i)
    (x0 : Vec F S2000x128 .f32) (x1 : Vec F S2000x1 .i32) (x2 : Vec F S128x16 .f32) (x3 : Vec F S1x16 .f32) (xi : Vec F S128x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay2 x1 x0 k3_pay1)) -∗ K ⟨⟩))
      ⊢ wp frame (wpE (defs₀ (F := F)) Variants.none c none) E
          (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (fun y => ⟨_, List.mem_cons_self, View.mem_set_unit_zero (S := S128x128) hz2 inb_S128x128_S128x128_0_0 y⟩)]
  sl_unfold_words
  rw [View.canon_cons_unit_zero hz2]
  simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]

set_option maxHeartbeats 4000000 in
/-- The body at a point that is neither the first nor the last: the scratch at what the point before left; it runs
    to the continuation holding the operands' and the result's as they were and the scratch with this tile's sums
    added. -/
theorem run_mid (c : Dev nD) (E : Set ℕ) (i : grid3.Coords) (arg1 : Memref sig .tc .vmem S2000x128 .f32) (harg1 : arg1.IsWhole) (arg2 : Memref sig .tc .vmem S2000x1 .i32) (harg2 : arg2.IsWhole) (arg3 : Memref sig .tc .vmem S128x16 .f32) (harg3 : arg3.IsWhole) (arg4 : Memref sig .tc .vmem S1x16 .f32) (harg4 : arg4.IsWhole) (arg5 : Memref sig .tc .vmem S128x16 .f32) (harg5 : arg5.IsWhole) (arg6 : Memref sig .tc .vmem S128x128 .f32) (harg6 : arg6.IsWhole)
    (hc0 : ¬cond3_0 i) (hc1 : ¬cond3_1 i)
    (x0 : Vec F S2000x128 .f32) (x1 : Vec F S2000x1 .i32) (x2 : Vec F S128x16 .f32) (x3 : Vec F S1x16 .f32) (xi : Vec F S128x16 .f32)
    (xs : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi
            ∗ owns (c : Thread nD τ) arg6 fullShare (k3_pay2 x1 x0 xs)) -∗ K ⟨⟩))
      ⊢ wp frame (wpE (defs₀ (F := F)) Variants.none c none) E
          (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, Hk⟩
  subst hf0 hf1 hf2 hf3 hf4 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (fun y => ⟨_, List.mem_cons_self, View.mem_set_unit_zero (S := S128x128) hz2 inb_S128x128_S128x128_0_0 y⟩)]
  sl_unfold_words
  rw [View.canon_cons_unit_zero hz2]
  simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]

set_option maxHeartbeats 4000000 in
/-- The body at the last point: the scratch at what the point before left, the result's memref at anything; it runs
    to the continuation holding the operands' as they were, the scratch with this tile's sums added and the result's
    at the read-out of that. -/
theorem run_last (c : Dev nD) (E : Set ℕ) (i : grid3.Coords) (arg1 : Memref sig .tc .vmem S2000x128 .f32) (harg1 : arg1.IsWhole) (arg2 : Memref sig .tc .vmem S2000x1 .i32) (harg2 : arg2.IsWhole) (arg3 : Memref sig .tc .vmem S128x16 .f32) (harg3 : arg3.IsWhole) (arg4 : Memref sig .tc .vmem S1x16 .f32) (harg4 : arg4.IsWhole) (arg5 : Memref sig .tc .vmem S128x16 .f32) (harg5 : arg5.IsWhole) (arg6 : Memref sig .tc .vmem S128x128 .f32) (harg6 : arg6.IsWhole)
    (hc0 : ¬cond3_0 i) (hc1 : cond3_1 i)
    (x0 : Vec F S2000x128 .f32) (x1 : Vec F S2000x1 .i32) (x2 : Vec F S128x16 .f32) (x3 : Vec F S1x16 .f32)
    (xs : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k3_pay3 (k3_pay2 x1 x0 xs) x2 x3)
            ∗ owns (c : Thread nD τ) arg6 fullShare (k3_pay2 x1 x0 xs)) -∗ K ⟨⟩))
      ⊢ wp frame (wpE (defs₀ (F := F)) Variants.none c none) E
          (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0 hf1 hf2 hf3 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    (try sl_unfold_words)
    rw [View.read_writes_eq_canon _ _ _ (fun y => ⟨_, List.mem_cons_self, View.mem_set_unit_zero (S := S128x16) hz2 inb_S128x16_S128x16_0_0 y⟩)]
    (try sl_unfold_words)
    rw [View.canon_cons_unit_zero hz2]
    simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]
  iexists _; isplitr
  swap; · iexact H6
  ipureintro
  (try sl_unfold_words)
  rw [View.read_writes_eq_canon _ _ _ (fun y => ⟨_, List.mem_cons_self, View.mem_set_unit_zero (S := S128x128) hz2 inb_S128x128_S128x128_0_0 y⟩)]
  (try sl_unfold_words)
  rw [View.canon_cons_unit_zero hz2]
  simp only [View.readAt_eq_ld, View.ld_unit_zero (S := S2000x1) hz2, View.ld_unit_zero (S := S2000x128) hz2,
    View.ld_unit_zero (S := S128x128) hz2, View.ld_unit_zero (S := S128x16) hz2, View.ld_unit_zero (S := S1x16) hz2,
    View.readCov_unit_zero (S := S128x128) _ hz2]

/-! ## What the scratch and the result hold, point by point -/

/-- The grid's last point. -/
theorem h24 : 24 < cfg3.N := lt_of_lt_of_eq (by omega : 24 < 25) N_3.symm

/-- The scratch accumulator after the body at point `n`. -/
def accAt (V : (c : Dev nD) → (b : Ref sig .tc) → Buf (Elt F) ((c : Thread nD τ).loc b)) (c : Dev nD) : (n : ℕ) → n < cfg3.N → Vec F S128x128 .f32
  | 0, h => k3_pay2 (iblk V c 1 ⟨0, h⟩) (iblk V c 0 ⟨0, h⟩) k3_pay1
  | n + 1, h => k3_pay2 (iblk V c 1 ⟨n + 1, h⟩) (iblk V c 0 ⟨n + 1, h⟩) (accAt V c n (Nat.lt_of_succ_lt h))

/-- The result window's staging buffer after the body at the last point. -/
def outLast (V : (c : Dev nD) → (b : Ref sig .tc) → Buf (Elt F) ((c : Thread nD τ).loc b)) (c : Dev nD) : Vec F S128x16 .f32 :=
  k3_pay3 (accAt V c 24 h24) (iblk V c 2 ⟨24, h24⟩) (iblk V c 3 ⟨24, h24⟩)

/-- At the first point: the first tile's sums over the zero fill. -/
theorem accAt_first (c : Dev nD) (t : Fin cfg3.N) (hz : t.val = 0) :
    accAt V c t.val t.isLt = k3_pay2 (iblk V c 1 t) (iblk V c 0 t) k3_pay1 := by
  obtain ⟨n, hn⟩ := t
  cases n with
  | zero => rfl
  | succ n => exact absurd hz (Nat.succ_ne_zero n)

/-- At a later point: this tile's sums over what the point before left. -/
theorem accAt_pos (c : Dev nD) (t : Fin cfg3.N) (hz : t.val ≠ 0) :
    accAt V c t.val t.isLt = k3_pay2 (iblk V c 1 t) (iblk V c 0 t)
      (accAt V c (t.val - 1) (Nat.lt_of_le_of_lt (Nat.sub_le _ _) t.isLt)) := by
  obtain ⟨n, hn⟩ := t
  cases n with
  | zero => exact absurd rfl hz
  | succ n => rfl

/-- The result at the last point: the read-out of that point's accumulator. -/
theorem outLast_at (c : Dev nD) (t : Fin cfg3.N) (hl : t.val = 24) :
    outLast V c = k3_pay3 (k3_pay2 (iblk V c 1 t) (iblk V c 0 t)
      (accAt V c (t.val - 1) (Nat.lt_of_le_of_lt (Nat.sub_le _ _) t.isLt))) (iblk V c 2 t) (iblk V c 3 t) := by
  obtain ⟨n, hn⟩ := t
  have hl' : n = 24 := hl
  subst hl'
  rfl

/-! ## The invariant: the scratch carried between points -/

/-- The scratch operand as the pipeline passes it: the kernel's own scoped buffer, whole. -/
abbrev scM : Memref sig .tc .vmem S128x128 .f32 := Memref.whole cc3_scratch0

/-- The region invariant before position `n`: the scratch at anything before the first point, afterwards at what the
    point before left; the other scoped buffers no window stages, unopened; the generator register at some state. -/
def PhiS (c : Dev nD) : (n : ℕ) → n ≤ cfg3.N → sProp 𝕄
  | 0, _ => iprop((∃ d, owns (c : Thread nD τ) scM fullShare d)
      ∗ Pipeline.scopedRestBut (Ix := Unit) (Name := ℕ) (U := UR sig nD τ) (Lvl := ℕ) (Val := Elt F) spec3 c [cc3_scratch0]
      ∗ (∃ r, prngReg c r))
  | n + 1, hn => iprop(owns (c : Thread nD τ) scM fullShare (accAt V c n hn)
      ∗ Pipeline.scopedRestBut (Ix := Unit) (Name := ℕ) (U := UR sig nD τ) (Lvl := ℕ) (Val := Elt F) spec3 c [cc3_scratch0]
      ∗ (∃ r, prngReg c r))

theorem PhiS_zero (c : Dev nD) (n : ℕ) (h : n ≤ cfg3.N) (hz : n = 0) :
    PhiS V c n h = iprop((∃ d, owns (c : Thread nD τ) scM fullShare d)
      ∗ Pipeline.scopedRestBut (Ix := Unit) (Name := ℕ) (U := UR sig nD τ) (Lvl := ℕ) (Val := Elt F) spec3 c [cc3_scratch0]
      ∗ (∃ r, prngReg c r)) := by
  subst hz; rfl

theorem PhiS_succ (c : Dev nD) (n : ℕ) (hn : n < cfg3.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec3 c [cc3_scratch0]
      ∗ (∃ r, prngReg c r)) := rfl

theorem PhiS_pos (c : Dev nD) (n : ℕ) (h : n ≤ cfg3.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-! ## The proof data -/

/-- The region's proof data on core `c`. -/
def dat (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outLast V c
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]
theorem q_eq (c : Dev nD) (w : Fin cfg3.W) : (dat V c).q w = fullShare := by dsimp only [dat]
theorem owed_eq (c : Dev nD) (t : Fin (cfg3.N + 1)) : (dat V c).owed t = 0 := by dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = outLast V c := by dsimp only [dat]

/-- The invariant at a point's start, restated at the point's position. -/
theorem Phi_castSucc (c : Dev nD) (t : Fin cfg3.N) :
    (dat V c).Φ t.castSucc = PhiS V c t.val (Nat.le_of_lt t.isLt) := by
  dsimp only [dat]; simp only [Fin.coe_castSucc]

/-- An operand window's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## Where the windows are idle -/

theorem liveAt_0 : ∀ t : Fin cfg3.N, cfg3.idle 0 (grid3.coords t) = false := fun _ => rfl
theorem liveAt_1 : ∀ t : Fin cfg3.N, cfg3.idle 1 (grid3.coords t) = false := fun _ => rfl
theorem liveAt_2 : ∀ t : Fin cfg3.N, cfg3.idle 2 (grid3.coords t) = false := fun _ => rfl
theorem liveAt_3 : ∀ t : Fin cfg3.N, cfg3.idle 3 (grid3.coords t) = false := fun _ => rfl
/-- Away from the last point the result window is idle: the body stores nothing into it there, -/
theorem idleAt_4 : ∀ t : Fin cfg3.N, ¬cond3_1 (grid3.coords t) → cfg3.idle 4 (grid3.coords t) = true := by decide +kernel
/-- and the pipeline does not write its block back; -/
theorem noFlush_4 : ∀ t : Fin cfg3.N, ¬cond3_1 (grid3.coords t) → (cfg3.win 4).flush t = false := by decide +kernel
/-- at the last point it is live. -/
theorem liveAt_4 : ∀ t : Fin cfg3.N, cond3_1 (grid3.coords t) → cfg3.idle 4 (grid3.coords t) = false := by decide +kernel

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

/-- The invariant is made, at the first point, of the generator register and the scoped buffers no window stages (the
    scratch among them, at whatever it holds), and gives them back after the last. -/
theorem Φ_first (c : Dev nD) :
    (iprop((∃ r, prngReg c r) ∗ Pipeline.scopedRest (Ix := Unit) (Name := ℕ) (U := UR sig nD τ) (Lvl := ℕ) (Val := Elt F) spec3 c) : sProp 𝕄)
      ⊢ (dat V c).Φ 0 := by
  rw [show (dat V c).Φ 0 = PhiS V c 0 (Nat.zero_le _) from rfl, PhiS_zero V c 0 _ rfl, scopedRest3_split]
  simp only [scM, owns_whole]
  iintro ⟨Hg, HS, Hr⟩
  isplitl [HS]; · iexact HS
  isplitl [Hr]; · iexact Hr
  iexact Hg
theorem Φ_last (c : Dev nD) :
    (dat V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 25 := N_3; omega), scopedRest3_split]
  simp only [scM, owns_whole]
  iintro ⟨HS, Hr, Hg⟩
  isplitl [Hg]; · iexact Hg
  isplitl [HS]; · iexists _; iexact HS
  iexact Hr

set_option maxHeartbeats 4000000 in
/-- The body at any point: the operands' memrefs hold their blocks; the point's position says which of the three
    runs applies; the invariant hands the body the scratch at what the point before left (at anything at the first
    point) and takes it back at this point's contents; the result's buffer passes through untouched except at the
    last point, which stores the read-out. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st3_0 t) fullShare ((dat V c).after 0 t) from by
    unfold Dat.leavesExact; rw [liveAt_0 t], after_0]
  rw [show (dat V c).leavesExact 1 t = owns (c : Thread nD τ) (st3_1 t) fullShare ((dat V c).after 1 t) from by
    unfold Dat.leavesExact; rw [liveAt_1 t], after_1]
  rw [show (dat V c).leavesExact 2 t = owns (c : Thread nD τ) (st3_2 t) fullShare ((dat V c).after 2 t) from by
    unfold Dat.leavesExact; rw [liveAt_2 t], after_2]
  rw [show (dat V c).leavesExact 3 t = owns (c : Thread nD τ) (st3_3 t) fullShare ((dat V c).after 3 t) from by
    unfold Dat.leavesExact; rw [liveAt_3 t], after_3]
  have hN : t.val < 25 := lt_of_lt_of_eq t.isLt (show cfg3.N = 25 from N_3)
  by_cases h0 : t.val = 0
  · have h1 : ¬t.val = 24 := by omega
    rw [Dat.leavesExact_idle (dat V c) 4 t (idleAt_4 t (fun h => h1 ((hcond3_1 t).mp h))) (noFlush_4 t (fun h => h1 ((hcond3_1 t).mp h)))]
    rw [accAt_first V c t h0, Phi_castSucc V c t, PhiS_zero V c _ _ h0]
    iintro ⟨⟨⟨%ds, HS⟩, Hr, Hg⟩, Ho, ⟨%d0, H0⟩, ⟨%d1, H1⟩, ⟨%d2, H2⟩, ⟨%d3, H3⟩, ⟨%d4, H4⟩⟩
    iapply (run_first c Set.univ (grid3.coords t) _ _ _ _ _ _ _ _ _ _ _ _ ((hcond3_0 t).mpr h0) (fun h => h1 ((hcond3_1 t).mp h))
      (iblk V c 0 t) (iblk V c 1 t) (iblk V c 2 t) (iblk V c 3 t) ((dat V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 24
    · rw [show (dat V c).leavesExact 4 t = owns (c : Thread nD τ) (st3_4 t) fullShare ((dat V c).after 4 t) from by
        unfold Dat.leavesExact; rw [liveAt_4 t ((hcond3_1 t).mpr h1)], after_4]
      rw [outLast_at V c t h1, accAt_pos V c t h0, Phi_castSucc V c t, PhiS_pos V c _ _ h0]
      iintro ⟨⟨HS, Hr, Hg⟩, Ho, ⟨%d0, H0⟩, ⟨%d1, H1⟩, ⟨%d2, H2⟩, ⟨%d3, H3⟩, ⟨%d4, H4⟩⟩
      iapply (run_last c Set.univ (grid3.coords t) _ _ _ _ _ _ _ _ _ _ _ _ (fun h => h0 ((hcond3_0 t).mp h)) ((hcond3_1 t).mpr h1)
        (iblk V c 0 t) (iblk V c 1 t) (iblk V c 2 t) (iblk V c 3 t)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h1 ((hcond3_1 t).mp h))) (noFlush_4 t (fun h => h1 ((hcond3_1 t).mp h)))]
      rw [accAt_pos V c t h0, Phi_castSucc V c t, PhiS_pos V c _ _ h0]
      iintro ⟨⟨HS, Hr, Hg⟩, Ho, ⟨%d0, H0⟩, ⟨%d1, H1⟩, ⟨%d2, H2⟩, ⟨%d3, H3⟩, ⟨%d4, H4⟩⟩
      iapply (run_mid c Set.univ (grid3.coords t) _ _ _ _ _ _ _ _ _ _ _ _ (fun h => h0 ((hcond3_0 t).mp h)) (fun h => h1 ((hcond3_1 t).mp h))
        (iblk V c 0 t) (iblk V c 1 t) (iblk V c 2 t) (iblk V c 3 t) ((dat V c).before 4 t d4)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

/-- The result window's block index is zero on both axes at every point: its block is its whole array. -/
theorem index_4 (t : Fin cfg3.N) (a : Fin 2) : win3_4.index t a = 0 := by
  match a with
  | ⟨0, _⟩ => rfl
  | ⟨1, _⟩ => rfl

/-- What the last point writes back is the whole result array's contents, read through its one block. -/
theorem flushed_4 (c : Dev nD) (t : Fin cfg3.N) :
    (dat V c).flushed 4 t = ((cfg3.win 4).blk t).view.read (Elt F) (outLast V c) := by
  show (cfg3.win 4).cut (grid3.coords t) ((dat V c).after 4 t) = _
  rw [after_4]
  funext j
  show outLast V c j = outLast V c (((cfg3.win 4).blk t).view.emb j)
  congr 1
  funext a; apply Fin.ext
  match a with
  | ⟨0, _⟩ =>
    show (j 0).val = win3_4.index t (0 : Fin 2) * 128 + 1 * (j 0).val
    rw [index_4 t 0]; omega
  | ⟨1, _⟩ =>
    show (j 1).val = win3_4.index t (1 : Fin 2) * 16 + 1 * (j 1).val
    rw [index_4 t 1]; omega

/-- The result array after the region: the one block the last point writes back. -/
theorem arrAt_out (c : Dev nD) : (dat V c).arrAt 4 cfg3.N = outLast V c := by
  refine (dat V c).arrAt_eq_of_cover 4 (outLast V c) (fun t _ => flushed_4 V c t) fun i => ?_
  refine ⟨⟨24, h24⟩, (flush3_4 _).mpr rfl, ?_⟩
  show i ∈ ((View.whole main_v105).slice (win3_4.rect ⟨24, h24⟩)).set
  rw [View.set_slice_whole, Rect.mem_set_unit]
  intro a
  match a with
  | ⟨0, _⟩ =>
    show win3_4.index ⟨24, h24⟩ (0 : Fin 2) * 128 ≤ (i 0).val ∧ (i 0).val < win3_4.index ⟨24, h24⟩ (0 : Fin 2) * 128 + 128
    rw [index_4 _ 0]; have hi : (i 0).val < 128 := (i 0).isLt; omega
  | ⟨1, _⟩ =>
    show win3_4.index ⟨24, h24⟩ (1 : Fin 2) * 16 ≤ (i 1).val ∧ (i 1).val < win3_4.index ⟨24, h24⟩ (1 : Fin 2) * 16 + 16
    rw [index_4 _ 1]; have hi : (i 1).val < 16 := (i 1).isLt; omega

/-- The operand arrays are as entered. -/
theorem arrAt_in (c : Dev nD) (w : Fin cfg3.W) (hw : (cfg3.win w).isOut = false) : (dat V c).arrAt w cfg3.N = V c (Pipeline.arrRef spec3 w) :=
  ((dat V c).arrAt_in w hw _).trans (A_eq V c w)

/-! ## The accumulator and the result as the body's payloads of the blocks -/

theorem accAt_zero (c : Dev nD) (h0 : 0 < cfg3.N) :
    accAt V c 0 h0 = k3_pay2 (iblk V c 1 ⟨0, h0⟩) (iblk V c 0 ⟨0, h0⟩) k3_pay1 := rfl
theorem accAt_succ (c : Dev nD) (n : ℕ) (hn : n + 1 < cfg3.N) :
    accAt V c (n + 1) hn = k3_pay2 (iblk V c 1 ⟨n + 1, hn⟩) (iblk V c 0 ⟨n + 1, hn⟩) (accAt V c n (Nat.lt_of_succ_lt hn)) := rfl
theorem outLast_eq (c : Dev nD) (h24 : 24 < cfg3.N) :
    outLast V c = k3_pay3 (accAt V c 24 h24) (iblk V c 2 ⟨24, h24⟩) (iblk V c 3 ⟨24, h24⟩) := rfl

end Cert.KernelIdeal.Pool3

end
-- ==== Proof.RunVals.lean ====
/-
  The program between its items: what every unscoped buffer of a core holds before and after each of the four kernel
  regions, as an explicit chain from the launch memory — a stretch of host operations applies them; a region replaces
  its result array by what its write-backs leave (the array its proof data computes) and leaves every other buffer.
  The three layer outputs `H1`, `H2`, `H3` and the final result `H4` are those arrays. The generated conditional frame
  states the same chain over unknown region outputs; `outs` instantiates them and `V2_eq` … `V8_eq` identify the two.
-/
import proofs.«418468_j32066225832278_1_alg».proof.Proof.Region0
import proofs.«418468_j32066225832278_1_alg».proof.Proof.Region1
import proofs.«418468_j32066225832278_1_alg».proof.Proof.Region2
import proofs.«418468_j32066225832278_1_alg».proof.Proof.Region3
import proofs.«418468_j32066225832278_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Updating one TensorCore buffer of a valuation: read at that buffer, and at another. -/
theorem upd_self (W : Valuation τ sig (Elt F)) (r : Ref sig .tc) (x : (Proc.devRef (τ := τ) .tc r).ty.Contents (Elt F)) :
    Function.update W (Proc.devRef .tc r) x (Proc.devRef .tc r) = x := Function.update_self _ _ _
theorem upd_ne (W : Valuation τ sig (Elt F)) (r : Ref sig .tc) (x : (Proc.devRef (τ := τ) .tc r).ty.Contents (Elt F))
    (b : Ref sig .tc) (h : b ≠ r) : Function.update W (Proc.devRef .tc r) x (Proc.devRef .tc b) = W (Proc.devRef .tc b) :=
  Function.update_of_ne (StableHlo.devRef_ne_of_ne h) _ _

/-! ## The chain of contents -/

/-- Before region 0: the launch memory after the first stretch of host operations. -/
abbrev X1 (c : Dev nD) : Valuation τ sig (Elt F) := Gen.V1 m c
/-- The same read at the TensorCore's references (what a region's proof data take). -/
abbrev T1 : (c : Dev nD) → (b : Ref sig .tc) → Buf (Elt F) ((c : Thread nD τ).loc b) := fun c b => X1 m c b
/-- The first layer's output array. -/
def H1 (c : Dev nD) : (Proc.devRef (τ := τ) .tc main_v37).ty.Contents (Elt F) := (Mlp0.dat (T1 m) c).arrAt 10 cfg0.N
/-- After region 0. -/
abbrev X2 (c : Dev nD) : Valuation τ sig (Elt F) := Function.update (X1 m c) (Proc.devRef .tc main_v37) (H1 m c)
abbrev T2 : (c : Dev nD) → (b : Ref sig .tc) → Buf (Elt F) ((c : Thread nD τ).loc b) := fun c b => X2 m c b
/-- Before region 1: after the second stretch. -/
abbrev X3 (c : Dev nD) : Valuation τ sig (Elt F) := StableHlo.after hostOps1 (X2 m c)
abbrev T3 : (c : Dev nD) → (b : Ref sig .tc) → Buf (Elt F) ((c : Thread nD τ).loc b) := fun c b => X3 m c b
/-- The second layer's output array. -/
def H2 (c : Dev nD) : (Proc.devRef (τ := τ) .tc main_v70).ty.Contents (Elt F) := (Mlp1.dat (T3 m) c).arrAt 10 cfg1.N
abbrev X4 (c : Dev nD) : Valuation τ sig (Elt F) := Function.update (X3 m c) (Proc.devRef .tc main_v70) (H2 m c)
abbrev T4 : (c : Dev nD) → (b : Ref sig .tc) → Buf (Elt F) ((c : Thread nD τ).loc b) := fun c b => X4 m c b
abbrev X5 (c : Dev nD) : Valuation τ sig (Elt F) := StableHlo.after hostOps2 (X4 m c)
abbrev T5 : (c : Dev nD) → (b : Ref sig .tc) → Buf (Elt F) ((c : Thread nD τ).loc b) := fun c b => X5 m c b
/-- The third layer's output array. -/
def H3 (c : Dev nD) : (Proc.devRef (τ := τ) .tc main_v103).ty.Contents (Elt F) := (Mlp2.dat (T5 m) c).arrAt 10 cfg2.N
abbrev X6 (c : Dev nD) : Valuation τ sig (Elt F) := Function.update (X5 m c) (Proc.devRef .tc main_v103) (H3 m c)
abbrev T6 : (c : Dev nD) → (b : Ref sig .tc) → Buf (Elt F) ((c : Thread nD τ).loc b) := fun c b => X6 m c b
abbrev X7 (c : Dev nD) : Valuation τ sig (Elt F) := StableHlo.after hostOps3 (X6 m c)
abbrev T7 : (c : Dev nD) → (b : Ref sig .tc) → Buf (Elt F) ((c : Thread nD τ).loc b) := fun c b => X7 m c b
/-- The program's result array. -/
def H4 (c : Dev nD) : (Proc.devRef (τ := τ) .tc main_v105).ty.Contents (Elt F) := (Pool3.dat (T7 m) c).arrAt 4 cfg3.N
abbrev X8 (c : Dev nD) : Valuation τ sig (Elt F) := Function.update (X7 m c) (Proc.devRef .tc main_v105) (H4 m c)
abbrev T8 : (c : Dev nD) → (b : Ref sig .tc) → Buf (Elt F) ((c : Thread nD τ).loc b) := fun c b => X8 m c b

/-- What the regions leave, as the generated conditional frame asks for it: after item J − 1, buffer r on core c. -/
def outs : Gen.Outs (F := F) := fun J r c =>
  match J with
  | 2 => X2 m c (Proc.devRef .tc r)
  | 4 => X4 m c (Proc.devRef .tc r)
  | 6 => X6 m c (Proc.devRef .tc r)
  | 8 => X8 m c (Proc.devRef .tc r)
  | _ => X1 m c (Proc.devRef .tc r)

theorem V2_eq (c : Dev nD) : Gen.V2 m (outs m) c = X2 m c := by
  show Function.update (Gen.V1 m c) _ (outs m 2 main_v37 c) = Function.update (Gen.V1 m c) _ (H1 m c)
  rw [show outs m 2 main_v37 c = H1 m c from upd_self _ _ _]
theorem V3_eq (c : Dev nD) : Gen.V3 m (outs m) c = X3 m c := by
  show StableHlo.after hostOps1 (Gen.V2 m (outs m) c) = StableHlo.after hostOps1 (X2 m c); rw [V2_eq]
theorem V4_eq (c : Dev nD) : Gen.V4 m (outs m) c = X4 m c := by
  show Function.update (Gen.V3 m (outs m) c) _ (outs m 4 main_v70 c) = Function.update (X3 m c) _ (H2 m c)
  rw [V3_eq, show outs m 4 main_v70 c = H2 m c from upd_self _ _ _]
theorem V5_eq (c : Dev nD) : Gen.V5 m (outs m) c = X5 m c := by
  show StableHlo.after hostOps2 (Gen.V4 m (outs m) c) = StableHlo.after hostOps2 (X4 m c); rw [V4_eq]
theorem V6_eq (c : Dev nD) : Gen.V6 m (outs m) c = X6 m c := by
  show Function.update (Gen.V5 m (outs m) c) _ (outs m 6 main_v103 c) = Function.update (X5 m c) _ (H3 m c)
  rw [V5_eq, show outs m 6 main_v103 c = H3 m c from upd_self _ _ _]
theorem V7_eq (c : Dev nD) : Gen.V7 m (outs m) c = X7 m c := by
  show StableHlo.after hostOps3 (Gen.V6 m (outs m) c) = StableHlo.after hostOps3 (X6 m c); rw [V6_eq]
theorem V8_eq (c : Dev nD) : Gen.V8 m (outs m) c = X8 m c := by
  show Function.update (Gen.V7 m (outs m) c) _ (outs m 8 main_v105 c) = Function.update (X7 m c) _ (H4 m c)
  rw [V7_eq, show outs m 8 main_v105 c = H4 m c from upd_self _ _ _]

/-! ## The proof data family, and what rides beside the buffers -/

/-- Every pipeline's proof data, each at its region's entry contents: a literal match on the pipeline's number. -/
def pdats : (p : Fin 4) → (c : Dev nD) → Dat τ (Elt F) Unit ℕ (UR sig nD τ) ℕ (cfgs p) c
  | ⟨0, _⟩ => fun c => Mlp0.dat (T1 m) c
  | ⟨1, _⟩ => fun c => Mlp1.dat (T3 m) c
  | ⟨2, _⟩ => fun c => Mlp2.dat (T5 m) c
  | ⟨3, _⟩ => fun c => Pool3.dat (T7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

end Cert.KernelIdeal.Whole

end
-- ==== Proof.RunReg0.lean ====
/-
  Launch 0 of the layer kernel as a segment of the program's run: the region is entered from the thread state "every
  unscoped buffer at the contents before it, the generator register at some state, nothing owed" and left at the same
  with the launch's result array at what its write-backs leave. Its arrays are split out of the unscoped buffers at
  entry and put back at exit; the ten operand arrays come back as they went in.
-/
import proofs.«418468_j32066225832278_1_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the layer's output. -/
theorem hF0 (c : Dev nD) (w : Fin cfg0.W) : (pdats m 0 c).arrAt w cfg0.N = T2 m c (Pipeline.arrRef spec0 w) := by
  by_cases hw : w = 10
  · subst hw
    exact (upd_self (X1 m c) main_v37 (H1 m c)).symm
  · have hin : (cfg0.win w).isOut = false := by fin_cases w <;> first | rfl | exact absurd rfl hw
    have hne : Pipeline.arrRef spec0 w ≠ main_v37 := by fin_cases w <;> first | decide | exact absurd rfl hw
    exact (((Mlp0.dat (T1 m) c).arrAt_in w hin _).trans (Mlp0.A_eq (T1 m) c w)).trans (upd_ne (X1 m c) main_v37 (H1 m c) _ hne).symm

/-- Every buffer that is no array of the region holds at its exit what it held at entry. -/
theorem hrest0 (c : Dev nD) : ∀ b, b ∉ Finset.univ.image (Pipeline.arrRef spec0) → T2 m c b = T1 m c b :=
  fun b hb => upd_ne (X1 m c) main_v37 (H1 m c) b fun e => hb (Finset.mem_image.mpr ⟨10, Finset.mem_univ _, e.symm⟩)

set_option backward.isDefEq.respectTransparency.types false in
/-- The region's record. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp0.body_obligation (T1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.RunReg1.lean ====
/-
  Launch 1 of the layer kernel as a segment of the program's run: the region is entered from the thread state "every
  unscoped buffer at the contents before it, the generator register at some state, nothing owed" and left at the same
  with the launch's result array at what its write-backs leave. Its arrays are split out of the unscoped buffers at
  entry and put back at exit; the ten operand arrays come back as they went in.
-/
import proofs.«418468_j32066225832278_1_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the layer's output. -/
theorem hF1 (c : Dev nD) (w : Fin cfg1.W) : (pdats m 1 c).arrAt w cfg1.N = T4 m c (Pipeline.arrRef spec1 w) := by
  by_cases hw : w = 10
  · subst hw
    exact (upd_self (X3 m c) main_v70 (H2 m c)).symm
  · have hin : (cfg1.win w).isOut = false := by fin_cases w <;> first | rfl | exact absurd rfl hw
    have hne : Pipeline.arrRef spec1 w ≠ main_v70 := by fin_cases w <;> first | decide | exact absurd rfl hw
    exact (((Mlp1.dat (T3 m) c).arrAt_in w hin _).trans (Mlp1.A_eq (T3 m) c w)).trans (upd_ne (X3 m c) main_v70 (H2 m c) _ hne).symm

/-- Every buffer that is no array of the region holds at its exit what it held at entry. -/
theorem hrest1 (c : Dev nD) : ∀ b, b ∉ Finset.univ.image (Pipeline.arrRef spec1) → T4 m c b = T3 m c b :=
  fun b hb => upd_ne (X3 m c) main_v70 (H2 m c) b fun e => hb (Finset.mem_image.mpr ⟨10, Finset.mem_univ _, e.symm⟩)

set_option backward.isDefEq.respectTransparency.types false in
/-- The region's record. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mlp1.body_obligation (T3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.RunReg2.lean ====
/-
  Launch 2 of the layer kernel as a segment of the program's run: the region is entered from the thread state "every
  unscoped buffer at the contents before it, the generator register at some state, nothing owed" and left at the same
  with the launch's result array at what its write-backs leave. Its arrays are split out of the unscoped buffers at
  entry and put back at exit; the ten operand arrays come back as they went in.
-/
import proofs.«418468_j32066225832278_1_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the layer's output. -/
theorem hF2 (c : Dev nD) (w : Fin cfg2.W) : (pdats m 2 c).arrAt w cfg2.N = T6 m c (Pipeline.arrRef spec2 w) := by
  by_cases hw : w = 10
  · subst hw
    exact (upd_self (X5 m c) main_v103 (H3 m c)).symm
  · have hin : (cfg2.win w).isOut = false := by fin_cases w <;> first | rfl | exact absurd rfl hw
    have hne : Pipeline.arrRef spec2 w ≠ main_v103 := by fin_cases w <;> first | decide | exact absurd rfl hw
    exact (((Mlp2.dat (T5 m) c).arrAt_in w hin _).trans (Mlp2.A_eq (T5 m) c w)).trans (upd_ne (X5 m c) main_v103 (H3 m c) _ hne).symm

/-- Every buffer that is no array of the region holds at its exit what it held at entry. -/
theorem hrest2 (c : Dev nD) : ∀ b, b ∉ Finset.univ.image (Pipeline.arrRef spec2) → T6 m c b = T5 m c b :=
  fun b hb => upd_ne (X5 m c) main_v103 (H3 m c) b fun e => hb (Finset.mem_image.mpr ⟨10, Finset.mem_univ _, e.symm⟩)

set_option backward.isDefEq.respectTransparency.types false in
/-- The region's record. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (Mlp2.body_obligation (T5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.RunReg3.lean ====
/-
  The read-out kernel as a segment of the program's run: entered from "every unscoped buffer at the contents before it,
  the generator register at some state, nothing owed", left at the same with the program's result array at what the
  last grid point writes back. The scratch accumulator is a scoped buffer: it reaches the body through the region's
  invariant, made at the first point of the scoped buffers no window stages and given back after the last.
-/
import proofs.«418468_j32066225832278_1_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an operand array what it held at entry,
    the result array the read-out. -/
theorem hF3 (c : Dev nD) (w : Fin cfg3.W) : (pdats m 3 c).arrAt w cfg3.N = T8 m c (Pipeline.arrRef spec3 w) := by
  fin_cases w
  · exact (Pool3.arrAt_in (T7 m) c 0 rfl).trans (upd_ne _ _ _ _ (by decide)).symm
  · exact (Pool3.arrAt_in (T7 m) c 1 rfl).trans (upd_ne _ _ _ _ (by decide)).symm
  · exact (Pool3.arrAt_in (T7 m) c 2 rfl).trans (upd_ne _ _ _ _ (by decide)).symm
  · exact (Pool3.arrAt_in (T7 m) c 3 rfl).trans (upd_ne _ _ _ _ (by decide)).symm
  · exact (upd_self _ _ _).symm

/-- Every buffer that is no array of the region holds at its exit what it held at entry. -/
theorem hrest3 (c : Dev nD) : ∀ b, b ∉ Finset.univ.image (Pipeline.arrRef spec3) → T8 m c b = T7 m c b :=
  fun b hb => upd_ne _ _ _ _ fun e => hb (Finset.mem_image.mpr ⟨4, Finset.mem_univ _, e.symm⟩)

set_option backward.isDefEq.respectTransparency.types false in
/-- The region's record. -/
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (Pool3.body_obligation (T7 m) c).loose
  hwaits := Pipeline.hwaits_of_owed_zero _ _ _ _ L lv 3 fun c t => Pool3.owed_eq (T7 m) c t
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) Gen.adm (pdats m) launch3.win launch3.arr_whole c
      ((pdats m 3 c).share_full fun w => Pool3.q_eq (T7 m) c w) (T7 m c) fun w => Pool3.A_eq (T7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from Pool3.owed_eq (T7 m) c 0]
      icases HO with ⟨%W, HO⟩; iexists W; isplitr; · ipureintro; exact fun _ _ => Or.inl trivial
      iexact HO
    isplitl [Hp]; · iexact Hp
    iexact Hrest
  hin c := by
    rw [show (pdats m 3 c).Φ 0 = (Pool3.dat (T7 m) c).Φ 0 from rfl]
    iintro ⟨Hp, -, Hr⟩
    iapply (Pool3.Φ_first (T7 m) c)
    isplitl [Hp]; · iexact Hp
    iexact Hr
  hout c := by
    rw [Pipeline.ownSems0_none, show (pdats m 3 c).Φ (Fin.last _) = (Pool3.dat (T7 m) c).Φ (Fin.last cfg3.N) from rfl]
    iintro HΦ
    ihave H := (Pool3.Φ_last (T7 m) c) $$ HΦ
    icases H with ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun w => Pool3.q_eq (T7 m) c w)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from Pool3.owed_eq (T7 m) c _]
    icases HO with ⟨%W, -, HO⟩; iexists W; iexact HO

end Cert.KernelIdeal.Whole

end
-- ==== Proof.RunK.lean ====
/-
  The program's run: its four kernel regions' records handed to the generated conditional frame, which proves the host
  side. `frame`: from any memory with zero counters every weakly fair execution terminates, nothing faulting, with every
  argument array as launched.
-/
import proofs.«418468_j32066225832278_1_alg».proof.Proof.RunReg0
import proofs.«418468_j32066225832278_1_alg».proof.Proof.RunReg1
import proofs.«418468_j32066225832278_1_alg».proof.Proof.RunReg2
import proofs.«418468_j32066225832278_1_alg».proof.Proof.RunReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The same rest state rides beside the buffers at every boundary. -/
abbrev E : Fin 5 → Dev nD → sProp 𝕄 := fun _ c => R c

/-- The launch's ghost element yields the cells' initial state and nothing else. -/
theorem launchGhost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core has its generator register and owes nothing: the rest state on every core at once. -/
theorem launchRest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (E (F := F) 0) : sProp 𝕄) := bigSep_mono fun c _ => by
    show _ ⊢ (iprop((∃ r, prngReg c r) ∗ ∃ W, owes (c : Thread nD τ) (0 : CellTallies nD τ sig Unit) W) : sProp 𝕄)
    iintro ⟨-, HO, -, Hp, -⟩
    isplitl [Hp]; · iexists _; iexact Hp
    iexists ∅; iexact HO
  iintro ⟨H, -⟩
  imodintro
  iapply h; iexact H

/-- THE FRAME, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launchGhost E (launchRest ρ)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)

end Cert.KernelIdeal.Whole

end
-- ==== Proof.RunValued.lean ====
/-
  The program's run with its result named: the same four region records handed to the conditional run whose post also
  reads the result buffer off the last thread state — it ends at the array `H4` the read-out region's write-back leaves.
-/
import proofs.«418468_j32066225832278_1_alg».proof.Proof.RunK
import proofs.«418468_j32066225832278_1_alg».proof.Proof.RegionsValued
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- THE RUN WITH ITS RESULT NAMED. -/
theorem run_valued (ρ : Dev nD → PrngReg) :
    θ_run defs (onTc (τ := τ) (main (F := F))) ⟨m, fun _ => 0, ρ⟩ (fun r => ∀ c : Dev nD,
      r.2.mem ((c.tc : Thread nD τ).loc main_v105) = H4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (by rw [V8_eq]; exact upd_self _ _ _), (h c).2⟩)
    (GenValued.frame_cond_valued m emb₁ () 𝒱₀ L lv (fun _ _ => rfl) ρ (outs m) (pdats m) 0 (fun _ => iprop(emp))
    (initOf (Pipeline.cells cfgs cellOf_inj) (Pipeline.launchToks cfgs cellOf_inj)) launchGhost E (launchRest ρ)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl))

end Cert.KernelIdeal.Whole

end
-- ==== Proof.HostStretches.lean ====
/-
  The host operations of the kernel program's @main between its four kernel calls, read as functions of the buffers they
  start from: what each stretch leaves in every buffer a later kernel call reads, for an arbitrary valuation at the
  stretch's start. The pieces are named as in the reference: the two rows of the edge list (`srcOf`, `dstOf`), the
  neighbour sum (`aggT`: gather the source rows, a negative id counted from the end, and add them into the destination
  rows of the zero array), layer K's matrix (`matK`) and layer K's 128-vector as a 1 x 128 row (`rowK`), the id words
  as a 50000 x 1 column (`colOf`) and the bias as a 1 x 16 row (`biasRow`).

  Contents (W is the valuation at a stretch's start; `after hostOpsK W b` is buffer b after stretch K; all of it for any
  float values):
  * srcOf ei, dstOf ei : row 0 / row 1 of the edge list as 800000 words; aggT h src dst; mat0/mat1/mat2 a : 128 x 128;
    row0/row1/row2 a : 1 x 128; colOf batch : 50000 x 1; biasRow bc : 1 x 16.
  * mat0_apply / mat1_apply / mat2_apply : matK a (ix2 i j) = a (ix3 K i j).
    row0_apply / row1_apply / row2_apply : rowK a (ix2 u j) = a (ix2 K j), u : Fin 1.
    colOf_apply : colOf batch (ix2 r u) = batch (ix1 r), u : Fin 1.   biasRow_apply : biasRow bc (ix2 u o) = bc (ix1 o).
  * stretch 0, after0_<buffer> : main_v1 = srcOf (W arg1); main_v3 = dstOf (W arg1); main_v4 = colOf (W arg2);
    main_v14 = aggT (W arg0) (srcOf (W arg1)) (dstOf (W arg1)); main_v16 = mat0 (W arg3); main_v20 = mat0 (W arg5);
    main_v31 … main_v36 = row0 of W arg4, arg6, arg7, arg8, arg9, arg10; main_arg0 … main_arg12 unchanged.
  * stretch 1, after1_<buffer> : main_v47 = aggT (W main_v37) (W main_v1) (W main_v3); main_v49 = mat1 (W arg3);
    main_v53 = mat1 (W arg5); main_v64 … main_v69 = row1 of W arg4, arg6, arg7, arg8, arg9, arg10; main_v37, main_v1,
    main_v3, main_v4 and main_arg0 … main_arg12 unchanged.
  * stretch 2, after2_<buffer> : main_v80 = aggT (W main_v70) (W main_v1) (W main_v3); main_v82 = mat2 (W arg3);
    main_v86 = mat2 (W arg5); main_v97 … main_v102 = row2 of W arg4, arg6, arg7, arg8, arg9, arg10; main_v70, main_v1,
    main_v3, main_v4 and main_arg0 … main_arg12 unchanged.
  * stretch 3, after3_<buffer> : main_v104 = biasRow (W arg12); main_v103, main_v4 and main_arg0 … main_arg12 unchanged.
-/
import proofs.«418468_j32066225832278_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Facts₀ Cert.KernelIdeal.Facts
open Cert.KernelIdeal.Gen (hostOps0 hostOps1 hostOps2 hostOps3)

variable {F : FTy → Type} [FloatOps F]

/-! ## The pieces -/

/-- Row 0 / row 1 of the 2 x 800000 edge list. -/
def srcOf (ei : IVec S2x800000 32) : IVec S800000 32 :=
  shapeCast _ (extractStridedSlice S1x800000 ![0, 0] ei slices_S2x800000_S1x800000_0_0) shapeCasts_S1x800000_S800000
def dstOf (ei : IVec S2x800000 32) : IVec S800000 32 :=
  shapeCast _ (extractStridedSlice S1x800000 ![1, 0] ei slices_S2x800000_S1x800000_1_0) shapeCasts_S1x800000_S800000

/-- The neighbour sum: row `src e` of `h` (a negative id counted from the end) added into row `dst e`, over the edges. -/
def aggT (h : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Layer K's matrix of a stacked 3 x 128 x 128 array. -/
abbrev mat0 (a : FVec F S3x128x128 .f32) : FVec F S128x128 .f32 :=
  shapeCast _ (extractStridedSlice S1x128x128 ![0, 0, 0] a slices_S3x128x128_S1x128x128_0_0_0) shapeCasts_S1x128x128_S128x128
abbrev mat1 (a : FVec F S3x128x128 .f32) : FVec F S128x128 .f32 :=
  shapeCast _ (extractStridedSlice S1x128x128 ![1, 0, 0] a slices_S3x128x128_S1x128x128_1_0_0) shapeCasts_S1x128x128_S128x128
abbrev mat2 (a : FVec F S3x128x128 .f32) : FVec F S128x128 .f32 :=
  shapeCast _ (extractStridedSlice S1x128x128 ![2, 0, 0] a slices_S3x128x128_S1x128x128_2_0_0) shapeCasts_S1x128x128_S128x128

/-- Layer K's 128-vector of a stacked 3 x 128 array, as a 1 x 128 row. -/
abbrev row0 (a : FVec F S3x128 .f32) : FVec F S1x128 .f32 :=
  shapeCast _ (shapeCast _ (extractStridedSlice S1x128 ![0, 0] a slices_S3x128_S1x128_0_0) shapeCasts_S1x128_S128) shapeCasts_S128_S1x128
abbrev row1 (a : FVec F S3x128 .f32) : FVec F S1x128 .f32 :=
  shapeCast _ (shapeCast _ (extractStridedSlice S1x128 ![1, 0] a slices_S3x128_S1x128_1_0) shapeCasts_S1x128_S128) shapeCasts_S128_S1x128
abbrev row2 (a : FVec F S3x128 .f32) : FVec F S1x128 .f32 :=
  shapeCast _ (shapeCast _ (extractStridedSlice S1x128 ![2, 0] a slices_S3x128_S1x128_2_0) shapeCasts_S1x128_S128) shapeCasts_S128_S1x128

/-- The 50000 id words as a 50000 x 1 column. -/
abbrev colOf (batch : IVec S50000 32) : IVec S50000x1 32 := shapeCast _ batch shapeCasts_S50000_S50000x1

/-- The 16 biases as a 1 x 16 row. -/
abbrev biasRow (bc : FVec F S16 .f32) : FVec F S1x16 .f32 := shapeCast _ bc shapeCasts_S16_S1x16

/-! ## The pieces read at a coordinate -/

section Index

/-- Layer K's matrix at (i, j) is the stacked array at (K, i, j): dropping the leading unit axis reads the slab at
    (0, i, j), and the slab cut at offset K along the first axis reads the stacked array at (K, i, j). -/
theorem mat0_apply (a : FVec F S3x128x128 .f32) (i j : Fin 128) : mat0 a (ix2 i j) = a (ix3 0 i j) := by
  refine (shapeCast_1ab_ab_apply _ _ i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm
theorem mat1_apply (a : FVec F S3x128x128 .f32) (i j : Fin 128) : mat1 a (ix2 i j) = a (ix3 1 i j) := by
  refine (shapeCast_1ab_ab_apply _ _ i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm
theorem mat2_apply (a : FVec F S3x128x128 .f32) (i j : Fin 128) : mat2 a (ix2 i j) = a (ix3 2 i j) := by
  refine (shapeCast_1ab_ab_apply _ _ i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm

/-- Layer K's row at (u, j), u the unit coordinate, is the stacked array at (K, j): the vector as a row reads the vector
    at j, the vector reads the 1 x 128 slab at (0, j), and the slab cut at offset K reads the stacked array at (K, j). -/
theorem row0_apply (a : FVec F S3x128 .f32) (u : Fin 1) (j : Fin 128) : row0 a (ix2 u j) = a (ix2 0 j) := by
  refine (shapeCast_a_1a_apply _ _ u j).trans ((shapeCast_1a_a_apply _ _ j).trans ?_)
  refine extractStridedSlice_apply _ _ _ _ _ fun ax => ?_
  match ax with
  | ⟨0, _⟩ => rfl
  | ⟨1, _⟩ => exact (Nat.zero_add _).symm
theorem row1_apply (a : FVec F S3x128 .f32) (u : Fin 1) (j : Fin 128) : row1 a (ix2 u j) = a (ix2 1 j) := by
  refine (shapeCast_a_1a_apply _ _ u j).trans ((shapeCast_1a_a_apply _ _ j).trans ?_)
  refine extractStridedSlice_apply _ _ _ _ _ fun ax => ?_
  match ax with
  | ⟨0, _⟩ => rfl
  | ⟨1, _⟩ => exact (Nat.zero_add _).symm
theorem row2_apply (a : FVec F S3x128 .f32) (u : Fin 1) (j : Fin 128) : row2 a (ix2 u j) = a (ix2 2 j) := by
  refine (shapeCast_a_1a_apply _ _ u j).trans ((shapeCast_1a_a_apply _ _ j).trans ?_)
  refine extractStridedSlice_apply _ _ _ _ _ fun ax => ?_
  match ax with
  | ⟨0, _⟩ => rfl
  | ⟨1, _⟩ => exact (Nat.zero_add _).symm

/-- The id column at (r, u), u the unit coordinate, is node r's word: both sit at row-major position r. -/
theorem colOf_apply (batch : IVec S50000 32) (r : Fin 50000) (u : Fin 1) : colOf batch (ix2 r u) = batch (ix1 r) :=
  shapeCast_apply batch _ _ _ (by
    have hu : u.val = 0 := by omega
    rw [Shape.rowMajor_val_one, Shape.rowMajor_val_two]
    show r.val = r.val * 1 + u.val
    rw [hu, Nat.mul_one, Nat.add_zero])

/-- The bias row at (u, o), u the unit coordinate, is class o's bias. -/
theorem biasRow_apply (bc : FVec F S16 .f32) (u : Fin 1) (o : Fin 16) : biasRow bc (ix2 u o) = bc (ix1 o) :=
  shapeCast_a_1a_apply _ _ u o

end Index

variable (W : Valuation τ sig (Elt F))

/-! ## Stretch 0: the host operations before the first kernel call

What the first call reads, over the arguments: the edge rows, the id column (read by the last call), the neighbour sum
of the input features, and layer 0's two matrices and six rows. The arguments keep their contents. -/

theorem after0_main_v1 : after hostOps0 W (Proc.devRef .tc main_v1) = srcOf (W (Proc.devRef .tc main_arg1)) := by
  after_results_simp <;> rfl
theorem after0_main_v3 : after hostOps0 W (Proc.devRef .tc main_v3) = dstOf (W (Proc.devRef .tc main_arg1)) := by
  after_results_simp <;> rfl
theorem after0_main_v4 : after hostOps0 W (Proc.devRef .tc main_v4) = colOf (W (Proc.devRef .tc main_arg2)) := by
  after_results_simp <;> rfl
theorem after0_main_v14 : after hostOps0 W (Proc.devRef .tc main_v14) = aggT (W (Proc.devRef .tc main_arg0)) (srcOf (W (Proc.devRef .tc main_arg1))) (dstOf (W (Proc.devRef .tc main_arg1))) := by
  after_results_simp <;> rfl
theorem after0_main_v16 : after hostOps0 W (Proc.devRef .tc main_v16) = mat0 (W (Proc.devRef .tc main_arg3)) := by
  after_results_simp <;> rfl
theorem after0_main_v31 : after hostOps0 W (Proc.devRef .tc main_v31) = row0 (W (Proc.devRef .tc main_arg4)) := by
  after_results_simp <;> rfl
theorem after0_main_v20 : after hostOps0 W (Proc.devRef .tc main_v20) = mat0 (W (Proc.devRef .tc main_arg5)) := by
  after_results_simp <;> rfl
theorem after0_main_v32 : after hostOps0 W (Proc.devRef .tc main_v32) = row0 (W (Proc.devRef .tc main_arg6)) := by
  after_results_simp <;> rfl
theorem after0_main_v33 : after hostOps0 W (Proc.devRef .tc main_v33) = row0 (W (Proc.devRef .tc main_arg7)) := by
  after_results_simp <;> rfl
theorem after0_main_v34 : after hostOps0 W (Proc.devRef .tc main_v34) = row0 (W (Proc.devRef .tc main_arg8)) := by
  after_results_simp <;> rfl
theorem after0_main_v35 : after hostOps0 W (Proc.devRef .tc main_v35) = row0 (W (Proc.devRef .tc main_arg9)) := by
  after_results_simp <;> rfl
theorem after0_main_v36 : after hostOps0 W (Proc.devRef .tc main_v36) = row0 (W (Proc.devRef .tc main_arg10)) := by
  after_results_simp <;> rfl
theorem after0_main_arg0 : after hostOps0 W (Proc.devRef .tc main_arg0) = W (Proc.devRef .tc main_arg0) := by
  after_results_simp
theorem after0_main_arg1 : after hostOps0 W (Proc.devRef .tc main_arg1) = W (Proc.devRef .tc main_arg1) := by
  after_results_simp
theorem after0_main_arg2 : after hostOps0 W (Proc.devRef .tc main_arg2) = W (Proc.devRef .tc main_arg2) := by
  after_results_simp
theorem after0_main_arg3 : after hostOps0 W (Proc.devRef .tc main_arg3) = W (Proc.devRef .tc main_arg3) := by
  after_results_simp
theorem after0_main_arg4 : after hostOps0 W (Proc.devRef .tc main_arg4) = W (Proc.devRef .tc main_arg4) := by
  after_results_simp
theorem after0_main_arg5 : after hostOps0 W (Proc.devRef .tc main_arg5) = W (Proc.devRef .tc main_arg5) := by
  after_results_simp
theorem after0_main_arg6 : after hostOps0 W (Proc.devRef .tc main_arg6) = W (Proc.devRef .tc main_arg6) := by
  after_results_simp
theorem after0_main_arg7 : after hostOps0 W (Proc.devRef .tc main_arg7) = W (Proc.devRef .tc main_arg7) := by
  after_results_simp
theorem after0_main_arg8 : after hostOps0 W (Proc.devRef .tc main_arg8) = W (Proc.devRef .tc main_arg8) := by
  after_results_simp
theorem after0_main_arg9 : after hostOps0 W (Proc.devRef .tc main_arg9) = W (Proc.devRef .tc main_arg9) := by
  after_results_simp
theorem after0_main_arg10 : after hostOps0 W (Proc.devRef .tc main_arg10) = W (Proc.devRef .tc main_arg10) := by
  after_results_simp
theorem after0_main_arg11 : after hostOps0 W (Proc.devRef .tc main_arg11) = W (Proc.devRef .tc main_arg11) := by
  after_results_simp
theorem after0_main_arg12 : after hostOps0 W (Proc.devRef .tc main_arg12) = W (Proc.devRef .tc main_arg12) := by
  after_results_simp

/-! ## Stretch 1: between the first and the second kernel call

The neighbour sum of the first call's result `main_v37` over the edge rows stretch 0 left, and layer 1's matrices and
rows. The first call's result, the edge rows, the id column and the arguments keep their contents. -/

theorem after1_main_v47 : after hostOps1 W (Proc.devRef .tc main_v47) = aggT (W (Proc.devRef .tc main_v37)) (W (Proc.devRef .tc main_v1)) (W (Proc.devRef .tc main_v3)) := by
  after_results_simp <;> rfl
theorem after1_main_v49 : after hostOps1 W (Proc.devRef .tc main_v49) = mat1 (W (Proc.devRef .tc main_arg3)) := by
  after_results_simp <;> rfl
theorem after1_main_v64 : after hostOps1 W (Proc.devRef .tc main_v64) = row1 (W (Proc.devRef .tc main_arg4)) := by
  after_results_simp <;> rfl
theorem after1_main_v53 : after hostOps1 W (Proc.devRef .tc main_v53) = mat1 (W (Proc.devRef .tc main_arg5)) := by
  after_results_simp <;> rfl
theorem after1_main_v65 : after hostOps1 W (Proc.devRef .tc main_v65) = row1 (W (Proc.devRef .tc main_arg6)) := by
  after_results_simp <;> rfl
theorem after1_main_v66 : after hostOps1 W (Proc.devRef .tc main_v66) = row1 (W (Proc.devRef .tc main_arg7)) := by
  after_results_simp <;> rfl
theorem after1_main_v67 : after hostOps1 W (Proc.devRef .tc main_v67) = row1 (W (Proc.devRef .tc main_arg8)) := by
  after_results_simp <;> rfl
theorem after1_main_v68 : after hostOps1 W (Proc.devRef .tc main_v68) = row1 (W (Proc.devRef .tc main_arg9)) := by
  after_results_simp <;> rfl
theorem after1_main_v69 : after hostOps1 W (Proc.devRef .tc main_v69) = row1 (W (Proc.devRef .tc main_arg10)) := by
  after_results_simp <;> rfl
theorem after1_main_v37 : after hostOps1 W (Proc.devRef .tc main_v37) = W (Proc.devRef .tc main_v37) := by
  after_results_simp
theorem after1_main_v1 : after hostOps1 W (Proc.devRef .tc main_v1) = W (Proc.devRef .tc main_v1) := by
  after_results_simp
theorem after1_main_v3 : after hostOps1 W (Proc.devRef .tc main_v3) = W (Proc.devRef .tc main_v3) := by
  after_results_simp
theorem after1_main_v4 : after hostOps1 W (Proc.devRef .tc main_v4) = W (Proc.devRef .tc main_v4) := by
  after_results_simp
theorem after1_main_arg0 : after hostOps1 W (Proc.devRef .tc main_arg0) = W (Proc.devRef .tc main_arg0) := by
  after_results_simp
theorem after1_main_arg1 : after hostOps1 W (Proc.devRef .tc main_arg1) = W (Proc.devRef .tc main_arg1) := by
  after_results_simp
theorem after1_main_arg2 : after hostOps1 W (Proc.devRef .tc main_arg2) = W (Proc.devRef .tc main_arg2) := by
  after_results_simp
theorem after1_main_arg3 : after hostOps1 W (Proc.devRef .tc main_arg3) = W (Proc.devRef .tc main_arg3) := by
  after_results_simp
theorem after1_main_arg4 : after hostOps1 W (Proc.devRef .tc main_arg4) = W (Proc.devRef .tc main_arg4) := by
  after_results_simp
theorem after1_main_arg5 : after hostOps1 W (Proc.devRef .tc main_arg5) = W (Proc.devRef .tc main_arg5) := by
  after_results_simp
theorem after1_main_arg6 : after hostOps1 W (Proc.devRef .tc main_arg6) = W (Proc.devRef .tc main_arg6) := by
  after_results_simp
theorem after1_main_arg7 : after hostOps1 W (Proc.devRef .tc main_arg7) = W (Proc.devRef .tc main_arg7) := by
  after_results_simp
theorem after1_main_arg8 : after hostOps1 W (Proc.devRef .tc main_arg8) = W (Proc.devRef .tc main_arg8) := by
  after_results_simp
theorem after1_main_arg9 : after hostOps1 W (Proc.devRef .tc main_arg9) = W (Proc.devRef .tc main_arg9) := by
  after_results_simp
theorem after1_main_arg10 : after hostOps1 W (Proc.devRef .tc main_arg10) = W (Proc.devRef .tc main_arg10) := by
  after_results_simp
theorem after1_main_arg11 : after hostOps1 W (Proc.devRef .tc main_arg11) = W (Proc.devRef .tc main_arg11) := by
  after_results_simp
theorem after1_main_arg12 : after hostOps1 W (Proc.devRef .tc main_arg12) = W (Proc.devRef .tc main_arg12) := by
  after_results_simp

/-! ## Stretch 2: between the second and the third kernel call

The neighbour sum of the second call's result `main_v70`, and layer 2's matrices and rows. -/

theorem after2_main_v80 : after hostOps2 W (Proc.devRef .tc main_v80) = aggT (W (Proc.devRef .tc main_v70)) (W (Proc.devRef .tc main_v1)) (W (Proc.devRef .tc main_v3)) := by
  after_results_simp <;> rfl
theorem after2_main_v82 : after hostOps2 W (Proc.devRef .tc main_v82) = mat2 (W (Proc.devRef .tc main_arg3)) := by
  after_results_simp <;> rfl
theorem after2_main_v97 : after hostOps2 W (Proc.devRef .tc main_v97) = row2 (W (Proc.devRef .tc main_arg4)) := by
  after_results_simp <;> rfl
theorem after2_main_v86 : after hostOps2 W (Proc.devRef .tc main_v86) = mat2 (W (Proc.devRef .tc main_arg5)) := by
  after_results_simp <;> rfl
theorem after2_main_v98 : after hostOps2 W (Proc.devRef .tc main_v98) = row2 (W (Proc.devRef .tc main_arg6)) := by
  after_results_simp <;> rfl
theorem after2_main_v99 : after hostOps2 W (Proc.devRef .tc main_v99) = row2 (W (Proc.devRef .tc main_arg7)) := by
  after_results_simp <;> rfl
theorem after2_main_v100 : after hostOps2 W (Proc.devRef .tc main_v100) = row2 (W (Proc.devRef .tc main_arg8)) := by
  after_results_simp <;> rfl
theorem after2_main_v101 : after hostOps2 W (Proc.devRef .tc main_v101) = row2 (W (Proc.devRef .tc main_arg9)) := by
  after_results_simp <;> rfl
theorem after2_main_v102 : after hostOps2 W (Proc.devRef .tc main_v102) = row2 (W (Proc.devRef .tc main_arg10)) := by
  after_results_simp <;> rfl
theorem after2_main_v70 : after hostOps2 W (Proc.devRef .tc main_v70) = W (Proc.devRef .tc main_v70) := by
  after_results_simp
theorem after2_main_v1 : after hostOps2 W (Proc.devRef .tc main_v1) = W (Proc.devRef .tc main_v1) := by
  after_results_simp
theorem after2_main_v3 : after hostOps2 W (Proc.devRef .tc main_v3) = W (Proc.devRef .tc main_v3) := by
  after_results_simp
theorem after2_main_v4 : after hostOps2 W (Proc.devRef .tc main_v4) = W (Proc.devRef .tc main_v4) := by
  after_results_simp
theorem after2_main_arg0 : after hostOps2 W (Proc.devRef .tc main_arg0) = W (Proc.devRef .tc main_arg0) := by
  after_results_simp
theorem after2_main_arg1 : after hostOps2 W (Proc.devRef .tc main_arg1) = W (Proc.devRef .tc main_arg1) := by
  after_results_simp
theorem after2_main_arg2 : after hostOps2 W (Proc.devRef .tc main_arg2) = W (Proc.devRef .tc main_arg2) := by
  after_results_simp
theorem after2_main_arg3 : after hostOps2 W (Proc.devRef .tc main_arg3) = W (Proc.devRef .tc main_arg3) := by
  after_results_simp
theorem after2_main_arg4 : after hostOps2 W (Proc.devRef .tc main_arg4) = W (Proc.devRef .tc main_arg4) := by
  after_results_simp
theorem after2_main_arg5 : after hostOps2 W (Proc.devRef .tc main_arg5) = W (Proc.devRef .tc main_arg5) := by
  after_results_simp
theorem after2_main_arg6 : after hostOps2 W (Proc.devRef .tc main_arg6) = W (Proc.devRef .tc main_arg6) := by
  after_results_simp
theorem after2_main_arg7 : after hostOps2 W (Proc.devRef .tc main_arg7) = W (Proc.devRef .tc main_arg7) := by
  after_results_simp
theorem after2_main_arg8 : after hostOps2 W (Proc.devRef .tc main_arg8) = W (Proc.devRef .tc main_arg8) := by
  after_results_simp
theorem after2_main_arg9 : after hostOps2 W (Proc.devRef .tc main_arg9) = W (Proc.devRef .tc main_arg9) := by
  after_results_simp
theorem after2_main_arg10 : after hostOps2 W (Proc.devRef .tc main_arg10) = W (Proc.devRef .tc main_arg10) := by
  after_results_simp
theorem after2_main_arg11 : after hostOps2 W (Proc.devRef .tc main_arg11) = W (Proc.devRef .tc main_arg11) := by
  after_results_simp
theorem after2_main_arg12 : after hostOps2 W (Proc.devRef .tc main_arg12) = W (Proc.devRef .tc main_arg12) := by
  after_results_simp

/-! ## Stretch 3: before the last kernel call

One operation: the bias as a 1 x 16 row. The third call's result `main_v103`, the id column and the arguments keep
their contents. -/

theorem after3_main_v104 : after hostOps3 W (Proc.devRef .tc main_v104) = biasRow (W (Proc.devRef .tc main_arg12)) := by
  after_results_simp <;> rfl
theorem after3_main_v103 : after hostOps3 W (Proc.devRef .tc main_v103) = W (Proc.devRef .tc main_v103) := by
  after_results_simp
theorem after3_main_v4 : after hostOps3 W (Proc.devRef .tc main_v4) = W (Proc.devRef .tc main_v4) := by
  after_results_simp
theorem after3_main_arg0 : after hostOps3 W (Proc.devRef .tc main_arg0) = W (Proc.devRef .tc main_arg0) := by
  after_results_simp
theorem after3_main_arg1 : after hostOps3 W (Proc.devRef .tc main_arg1) = W (Proc.devRef .tc main_arg1) := by
  after_results_simp
theorem after3_main_arg2 : after hostOps3 W (Proc.devRef .tc main_arg2) = W (Proc.devRef .tc main_arg2) := by
  after_results_simp
theorem after3_main_arg3 : after hostOps3 W (Proc.devRef .tc main_arg3) = W (Proc.devRef .tc main_arg3) := by
  after_results_simp
theorem after3_main_arg4 : after hostOps3 W (Proc.devRef .tc main_arg4) = W (Proc.devRef .tc main_arg4) := by
  after_results_simp
theorem after3_main_arg5 : after hostOps3 W (Proc.devRef .tc main_arg5) = W (Proc.devRef .tc main_arg5) := by
  after_results_simp
theorem after3_main_arg6 : after hostOps3 W (Proc.devRef .tc main_arg6) = W (Proc.devRef .tc main_arg6) := by
  after_results_simp
theorem after3_main_arg7 : after hostOps3 W (Proc.devRef .tc main_arg7) = W (Proc.devRef .tc main_arg7) := by
  after_results_simp
theorem after3_main_arg8 : after hostOps3 W (Proc.devRef .tc main_arg8) = W (Proc.devRef .tc main_arg8) := by
  after_results_simp
theorem after3_main_arg9 : after hostOps3 W (Proc.devRef .tc main_arg9) = W (Proc.devRef .tc main_arg9) := by
  after_results_simp
theorem after3_main_arg10 : after hostOps3 W (Proc.devRef .tc main_arg10) = W (Proc.devRef .tc main_arg10) := by
  after_results_simp
theorem after3_main_arg11 : after hostOps3 W (Proc.devRef .tc main_arg11) = W (Proc.devRef .tc main_arg11) := by
  after_results_simp
theorem after3_main_arg12 : after hostOps3 W (Proc.devRef .tc main_arg12) = W (Proc.devRef .tc main_arg12) := by
  after_results_simp

end Cert.KernelIdeal.HostValue

end
-- ==== Proof.GinSpec.lean ====
/-
  The mathematics both programs compute, written once on the extended reals, coordinate by coordinate.

  One graph-isomorphism layer is ROW-LOCAL: node r's new feature vector depends only on the row z = h_r + agg_r (its own
  features plus the sum of its in-neighbours'), through a two-layer perceptron with a rectifier between the layers,
  an affine normalisation by running statistics (subtract the mean, scale by gamma * (var + eps)^(-1/2), add beta) and a
  final rectifier. `layerRow` is that function of the row.

  The read-out sums node features per graph and applies one linear map: `pooled` is the per-graph sum, written with the
  0/1 weight `hit` (node r belongs to graph g exactly when its 32-bit graph id IS the word g), and `classify` the linear map.
  A product with the weight 0 vanishes on the extended reals whatever the other factor is, so no finiteness is needed.
-/
import Idealize.ShloMosaic.PureOps.Ideal
import Idealize.ShloMosaic.Lib.ValueIdx

noncomputable section

namespace Cert.GinSpec

open Idealize.ShloMosaic

/-- The normalisation's epsilon: the one binary32 word both programs spell. -/
def eps : EReal := Ideal.ofBits .f32 0x3727C5AC#32

/-- Hidden unit j of the perceptron on the row z: the rectified affine form. -/
def hidden (z : Fin 128 → EReal) (W1 : Fin 128 → Fin 128 → EReal) (b1 : Fin 128 → EReal) (j : Fin 128) : EReal :=
  max ((∑ k : Fin 128, z k * W1 k j) + b1 j) 0

/-- Output feature c of one layer on the row z. -/
def layerRow (z : Fin 128 → EReal) (W1 W2 : Fin 128 → Fin 128 → EReal) (b1 b2 gam bet mu var : Fin 128 → EReal)
    (c : Fin 128) : EReal :=
  max ((((∑ j : Fin 128, hidden z W1 b1 j * W2 j c) + b2 c) - mu c) * (gam c * Ideal.rsqrt (var c + eps)) + bet c) 0

/-- The membership weight: 1 when the graph id word is g, else 0. -/
def hit (w : BitVec 32) (g : Fin 128) : EReal := if w = BitVec.ofNat 32 g.val then 1 else 0

/-- Feature d summed over the nodes of graph g. -/
def pooled (h : Fin 50000 → Fin 128 → EReal) (batch : Fin 50000 → BitVec 32) (g d : Fin 128) : EReal :=
  ∑ r : Fin 50000, hit (batch r) g * h r d

/-- The same sum over one tile of 2000 consecutive nodes. -/
def pooledTile (hb : Fin 2000 → Fin 128 → EReal) (bb : Fin 2000 → BitVec 32) (g d : Fin 128) : EReal :=
  ∑ y : Fin 2000, hit (bb y) g * hb y d

/-- The linear read-out of a pooled matrix. -/
def classify (p : Fin 128 → Fin 128 → EReal) (Wc : Fin 128 → Fin 16 → EReal) (bc : Fin 16 → EReal)
    (g : Fin 128) (o : Fin 16) : EReal :=
  (∑ d : Fin 128, p g d * Wc d o) + bc o

end Cert.GinSpec

end
-- ==== Proof.RefLayer.lean ====
/-
  The reference's host operations for ONE layer, named as functions of their operands exactly as its run composes them:
  the neighbour sum (`aggT`: gather the source rows, add them into the destination rows), the layer proper (`layerT`:
  two matrix products with a rectifier between, the normalisation, the last rectifier; a 128-vector enters as a row
  repeated down the 50000 nodes) and the slices of the stacked parameter arrays (`matK`, `vecK`: layer K's 128 x 128
  matrix and 128-vector). Read at a coordinate, the layer is `GinSpec.layerRow` of the node's summed row.
-/
import proofs.«418468_j32066225832278_1_alg».proof.Proof.Gen.ReferenceIdeal.Run
import proofs.«418468_j32066225832278_1_alg».proof.Proof.GinSpec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Facts₀ Cert.ReferenceIdeal.Facts

variable {F : FTy → Type} [FloatOps F]

/-- A 128-vector as a row, repeated down the 50000 rows. -/
abbrev rows (v : FVec F S128 .f32) : FVec F S50000x128 .f32 :=
  broadcastInDim S50000x128 ![0, 1] bcast_S1x128_S50000x128_0_1 (broadcastInDim S1x128 ![1] bcast_S128_S1x128_1 v)

/-- The all-zero 50000 x 128 array. -/
abbrev zeros : FVec F S50000x128 .f32 := broadcastInDim S50000x128 ![] bcast_S_S50000x128 (constant S_ .f32 0x00000000#32)

/-- One layer on the node features `h` and their neighbour sums `a`. -/
def layerT (h a : FVec F S50000x128 .f32) (W1 W2 : FVec F S128x128 .f32) (b1 b2 gam bet mu var : FVec F S128 .f32) :
    FVec F S50000x128 .f32 :=
  maximumf (addf (mulf (subf (addf (Host.dotGeneral dot_S50000x128_S128x128_S50000x128_1_0_0_1_n_n none
      (maximumf (addf (Host.dotGeneral dot_S50000x128_S128x128_S50000x128_1_0_0_1_n_n none (addf h a) W1) (rows b1)) zeros) W2)
      (rows b2)) (rows mu))
    (rows (mulf gam (Host.rsqrt (addf var (broadcastInDim S128 ![] bcast_S_S128 (constant S_ .f32 0x3727C5AC#32)))))))
    (rows bet)) zeros

/-- The neighbour sum: row `src e` of `h` (a negative id counted from the end) added into row `dst e`, over the edges. -/
def aggT (h : FVec F S50000x128 .f32) (src dst : IVec S800000 32) : FVec F S50000x128 .f32 :=
  Host.scatterAdd scatter_S50000x128_S800000x1_S800000x128_1_0_0_1 zeros
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Row 0 / row 1 of the 2 x 800000 edge list. -/
def srcOf (ei : IVec S2x800000 32) : IVec S800000 32 :=
  shapeCast _ (extractStridedSlice S1x800000 ![0, 0] ei slices_S2x800000_S1x800000_0_0) shapeCasts_S1x800000_S800000
def dstOf (ei : IVec S2x800000 32) : IVec S800000 32 :=
  shapeCast _ (extractStridedSlice S1x800000 ![1, 0] ei slices_S2x800000_S1x800000_1_0) shapeCasts_S1x800000_S800000

/-- Layer K's matrix of a stacked 3 x 128 x 128 array, and layer K's vector of a stacked 3 x 128 array. -/
abbrev mat0 (a : FVec F S3x128x128 .f32) : FVec F S128x128 .f32 :=
  shapeCast _ (extractStridedSlice S1x128x128 ![0, 0, 0] a slices_S3x128x128_S1x128x128_0_0_0) shapeCasts_S1x128x128_S128x128
abbrev mat1 (a : FVec F S3x128x128 .f32) : FVec F S128x128 .f32 :=
  shapeCast _ (extractStridedSlice S1x128x128 ![1, 0, 0] a slices_S3x128x128_S1x128x128_1_0_0) shapeCasts_S1x128x128_S128x128
abbrev mat2 (a : FVec F S3x128x128 .f32) : FVec F S128x128 .f32 :=
  shapeCast _ (extractStridedSlice S1x128x128 ![2, 0, 0] a slices_S3x128x128_S1x128x128_2_0_0) shapeCasts_S1x128x128_S128x128
abbrev vec0 (a : FVec F S3x128 .f32) : FVec F S128 .f32 :=
  shapeCast _ (extractStridedSlice S1x128 ![0, 0] a slices_S3x128_S1x128_0_0) shapeCasts_S1x128_S128
abbrev vec1 (a : FVec F S3x128 .f32) : FVec F S128 .f32 :=
  shapeCast _ (extractStridedSlice S1x128 ![1, 0] a slices_S3x128_S1x128_1_0) shapeCasts_S1x128_S128
abbrev vec2 (a : FVec F S3x128 .f32) : FVec F S128 .f32 :=
  shapeCast _ (extractStridedSlice S1x128 ![2, 0] a slices_S3x128_S1x128_2_0) shapeCasts_S1x128_S128

/-- The slices read at a coordinate: dropping the leading unit axis reads the slab at (0, …), and the slab cut at
    offset K along the first axis reads the stacked array at (K, …). -/
theorem mat0_apply (a : FVec F S3x128x128 .f32) (i j : Fin 128) : mat0 a (ix2 i j) = a (ix3 0 i j) := by
  refine (shapeCast_1ab_ab_apply _ _ i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm
theorem mat1_apply (a : FVec F S3x128x128 .f32) (i j : Fin 128) : mat1 a (ix2 i j) = a (ix3 1 i j) := by
  refine (shapeCast_1ab_ab_apply _ _ i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm
theorem mat2_apply (a : FVec F S3x128x128 .f32) (i j : Fin 128) : mat2 a (ix2 i j) = a (ix3 2 i j) := by
  refine (shapeCast_1ab_ab_apply _ _ i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm
theorem vec0_apply (a : FVec F S3x128 .f32) (j : Fin 128) : vec0 a (ix1 j) = a (ix2 0 j) := by
  refine (shapeCast_1a_a_apply _ _ j).trans ?_
  refine extractStridedSlice_apply _ _ _ _ _ fun ax => ?_
  match ax with
  | ⟨0, _⟩ => rfl
  | ⟨1, _⟩ => exact (Nat.zero_add _).symm
theorem vec1_apply (a : FVec F S3x128 .f32) (j : Fin 128) : vec1 a (ix1 j) = a (ix2 1 j) := by
  refine (shapeCast_1a_a_apply _ _ j).trans ?_
  refine extractStridedSlice_apply _ _ _ _ _ fun ax => ?_
  match ax with
  | ⟨0, _⟩ => rfl
  | ⟨1, _⟩ => exact (Nat.zero_add _).symm
theorem vec2_apply (a : FVec F S3x128 .f32) (j : Fin 128) : vec2 a (ix1 j) = a (ix2 2 j) := by
  refine (shapeCast_1a_a_apply _ _ j).trans ?_
  refine extractStridedSlice_apply _ _ _ _ _ fun ax => ?_
  match ax with
  | ⟨0, _⟩ => rfl
  | ⟨1, _⟩ => exact (Nat.zero_add _).symm

/-- A repeated row read at (r, c) is the vector at c. -/
theorem rows_apply (v : FVec F S128 .f32) (r : Fin 50000) (c : Fin 128) : rows v (ix2 r c) = v (ix1 c) := by
  refine (broadcastInDim_apply _ _ _ (ix2 r c) (ix2 (0 : Fin 1) c) fun ax => ?_).trans ?_
  · match ax with
    | ⟨0, _⟩ => rfl
    | ⟨1, _⟩ => rfl
  · refine broadcastInDim_apply _ _ _ _ (ix1 c) fun ax => ?_
    match ax with
    | ⟨0, _⟩ => rfl

/-- The zero array reads 0 everywhere. -/
theorem zeros_apply (i : S50000x128.Idx) : zeros (F := Ideal) i = 0 := by
  show Ideal.ofBits .f32 0x00000000#32 = 0
  exact Ideal.ofBits_zero_f32

/-- The epsilon broadcast over the 128 features reads the one word everywhere. -/
theorem eps_apply (i : S128.Idx) :
    broadcastInDim S128 ![] bcast_S_S128 (constant (F := Ideal) S_ .f32 0x3727C5AC#32) i = GinSpec.eps := rfl

/-- The product's operand indices, axis by axis: the left operand is read at (row of the result, contracted position),
    the right one at (contracted position, column of the result). -/
theorem lhs_dot_S50000x128_S128x128_S50000x128_1_0_0_1_n_n_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_dot_S50000x128_S128x128_S50000x128_1_0_0_1_n_n_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_dot_S50000x128_S128x128_S50000x128_1_0_0_1_n_n_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_dot_S50000x128_S128x128_S50000x128_1_0_0_1_n_n_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product read at (r, c): the sum over the shared axis. -/
theorem layerDot_apply (X : FVec Ideal S50000x128 .f32) (W : FVec Ideal S128x128 .f32) (r : Fin 50000) (c : Fin 128) :
    Host.dotGeneral (F := Ideal) dot_S50000x128_S128x128_S50000x128_1_0_0_1_n_n none X W (ix2 r c)
      = ∑ k : Fin 128, X (ix2 r k) * W (ix2 k c) := by
  show FloatOps.dotGeneral dot_S50000x128_S128x128_S50000x128_1_0_0_1_n_n none .single X W (ix2 r c) = _
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c)
      ((contrEquiv1 dot_S50000x128_S128x128_S50000x128_1_0_0_1_n_n 128 rfl rfl).symm k) = ix2 r k :=
    funext fun a => Fin.ext (by
      match a with
      | ⟨0, _⟩ => exact lhs_dot_S50000x128_S128x128_S50000x128_1_0_0_1_n_n_0 _ _
      | ⟨1, _⟩ => exact (lhs_dot_S50000x128_S128x128_S50000x128_1_0_0_1_n_n_1 _ _).trans hk)
  have er : dot_S50000x128_S128x128_S50000x128_1_0_0_1_n_n.rhsIdx (ix2 r c)
      ((contrEquiv1 dot_S50000x128_S128x128_S50000x128_1_0_0_1_n_n 128 rfl rfl).symm k) = ix2 k c :=
    funext fun a => Fin.ext (by
      match a with
      | ⟨0, _⟩ => exact (rhs_dot_S50000x128_S128x128_S50000x128_1_0_0_1_n_n_0 _ _).trans hk
      | ⟨1, _⟩ => exact rhs_dot_S50000x128_S128x128_S50000x128_1_0_0_1_n_n_1 _ _)
  rw [el, er]

/-- The inner rectified product at (r, j): hidden unit j of the node's summed row. -/
theorem layerHidden_apply (h a : FVec Ideal S50000x128 .f32) (W1 : FVec Ideal S128x128 .f32) (b1 : FVec Ideal S128 .f32)
    (r : Fin 50000) (j : Fin 128) :
    maximumf (addf (Host.dotGeneral (F := Ideal) dot_S50000x128_S128x128_S50000x128_1_0_0_1_n_n none (addf h a) W1) (rows b1))
        (zeros (F := Ideal)) (ix2 r j)
      = GinSpec.hidden (fun k => h (ix2 r k) + a (ix2 r k)) (fun k j => W1 (ix2 k j)) (fun j => b1 (ix1 j)) j := by
  rw [maximumf_apply, addf_apply, layerDot_apply, rows_apply, zeros_apply]
  rfl

/-- The layer read at node r, feature c: the row function of the node's summed row. -/
theorem layerT_apply (h a : FVec Ideal S50000x128 .f32) (W1 W2 : FVec Ideal S128x128 .f32)
    (b1 b2 gam bet mu var : FVec Ideal S128 .f32) (r : Fin 50000) (c : Fin 128) :
    layerT (F := Ideal) h a W1 W2 b1 b2 gam bet mu var (ix2 r c)
      = GinSpec.layerRow (fun k => h (ix2 r k) + a (ix2 r k)) (fun k j => W1 (ix2 k j)) (fun j c => W2 (ix2 j c))
          (fun j => b1 (ix1 j)) (fun c => b2 (ix1 c)) (fun c => gam (ix1 c)) (fun c => bet (ix1 c))
          (fun c => mu (ix1 c)) (fun c => var (ix1 c)) c := by
  unfold layerT
  rw [maximumf_apply, addf_apply, mulf_apply, subf_apply, addf_apply, layerDot_apply, rows_apply, rows_apply, rows_apply,
    rows_apply, zeros_apply]
  simp only [layerHidden_apply]
  rfl

end Cert.ReferenceIdeal.RefValue

end
-- ==== Proof.RefPool.lean ====
/-
  The reference's read-out, named as a function of its operands exactly as its run composes it: the per-graph sum of
  node features (an accumulating scatter into a zero 128 x 128 array, node r's row added into row `batch r`; an id
  outside 0..127, read signed, lands nowhere and contributes nothing), then the linear map and the bias. Read at a
  coordinate it is `GinSpec.classify` of `GinSpec.pooled`: a node lands on row g exactly when its id word is g.
-/
import proofs.«418468_j32066225832278_1_alg».proof.Proof.Gen.ReferenceIdeal.Run
import proofs.«418468_j32066225832278_1_alg».proof.Proof.GinSpec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Facts₀ Cert.ReferenceIdeal.Facts

variable {F : FTy → Type} [FloatOps F]

/-- The read-out of the last layer's features `h`. -/
def poolT (h : FVec F S50000x128 .f32) (batch : IVec S50000 32) (Wc : FVec F S128x16 .f32) (bc : FVec F S16 .f32) :
    FVec F S128x16 .f32 :=
  addf (Host.dotGeneral dot_S128x128_S128x16_S128x16_1_0_0_1_n_n none
      (Host.scatterAdd scatter_S128x128_S50000x1_S50000x128_1_0_0_1
        (broadcastInDim S128x128 ![] bcast_S_S128x128 (constant S_ .f32 0x00000000#32))
        (broadcastInDim S50000x1 ![0] bcast_S50000_S50000x1_0 batch) h) Wc)
    (broadcastInDim S128x16 ![0, 1] bcast_S1x16_S128x16_0_1 (broadcastInDim S1x16 ![1] bcast_S16_S1x16_1 bc))

/-! ### The accumulating scatter's landing coordinate -/

/-- A 32-bit word is the word of g (0 ≤ g < 128) exactly when its signed value is g. -/
theorem word_eq_iff (w : BitVec 32) (g : Fin 128) : w = BitVec.ofNat 32 g.val ↔ w.toInt = (g.val : Int) := by
  have hg := g.isLt
  have hw : (BitVec.ofNat 32 g.val).toInt = (g.val : Int) := by
    rw [BitVec.toInt_eq_toNat_cond, BitVec.toNat_ofNat]
    have : g.val % 2 ^ 32 = g.val := Nat.mod_eq_of_lt (by omega)
    rw [this, if_pos (by omega)]
  constructor
  · intro h
    rw [h, hw]
  · intro h
    exact BitVec.eq_of_toInt_eq (h.trans hw.symm)

/-- Axis 0 of the operand is the scattered axis: the start there is node r's id word, read signed. -/
theorem scat_start0 (idx : IVec S50000x1 32) (r : Fin 50000) (d' : Fin 128) :
    scatter_S128x128_S50000x1_S50000x128_1_0_0_1.start (ix2 r d') idx 0 = (idx (ix2 r 0)).toInt := by
  unfold ScatterDims.start
  rw [dif_pos (show (0 : Fin S128x128.rank) ∈ scatter_S128x128_S50000x1_S50000x128_1_0_0_1.scatterDimsToOperandDims from
    List.mem_singleton.mpr rfl)]
  congr 2
  funext b
  refine Fin.ext ?_
  match b with
  | ⟨0, _⟩ => rfl
  | ⟨1, _⟩ => rfl

/-- Axis 1 of the operand is not scattered: the start there is 0. -/
theorem scat_start1 (idx : IVec S50000x1 32) (r : Fin 50000) (d' : Fin 128) :
    scatter_S128x128_S50000x1_S50000x128_1_0_0_1.start (ix2 r d') idx 1 = 0 := by
  unfold ScatterDims.start
  rw [dif_neg (show ¬ (1 : Fin S128x128.rank) ∈ scatter_S128x128_S50000x1_S50000x128_1_0_0_1.scatterDimsToOperandDims by decide)]

/-- Axis 0 of the operand is an inserted axis: the window coordinate there is 0. -/
theorem scat_window0 (r : Fin 50000) (d' : Fin 128) :
    scatter_S128x128_S50000x1_S50000x128_1_0_0_1.window (ix2 r d') 0 = 0 := by
  unfold ScatterDims.window
  rw [dif_neg (show ¬ (0 : Fin S128x128.rank) ∈ scatter_S128x128_S50000x1_S50000x128_1_0_0_1.sKept by decide)]

/-- Axis 1 of the operand takes the update's window coordinate, the feature d'. -/
theorem scat_window1 (r : Fin 50000) (d' : Fin 128) :
    scatter_S128x128_S50000x1_S50000x128_1_0_0_1.window (ix2 r d') 1 = d'.val := by
  unfold ScatterDims.window
  rw [dif_pos (show (1 : Fin S128x128.rank) ∈ scatter_S128x128_S50000x1_S50000x128_1_0_0_1.sKept by decide)]
  rfl

/-- Where the update at (r, d') lands: on (g, d) exactly when the feature is d and node r's id word is g. A word whose
    signed value is negative or at least 128 lands on no row. -/
theorem scat_resultIdx (idx : IVec S50000x1 32) (r : Fin 50000) (d' : Fin 128) (g d : Fin 128) :
    scatter_S128x128_S50000x1_S50000x128_1_0_0_1.resultIdx? (ix2 r d') idx = some (ix2 g d)
      ↔ d' = d ∧ idx (ix2 r 0) = BitVec.ofNat 32 g.val := by
  rw [word_eq_iff]
  have hg := g.isLt
  have hd := d.isLt
  have hd' := d'.isLt
  have s0 : ((S128x128.size 0 : Nat) : Int) = 128 := rfl
  have s1 : ((S128x128.size 1 : Nat) : Int) = 128 := rfl
  unfold ScatterDims.resultIdx?
  split
  · rename_i h
    rw [Option.some.injEq]
    have h0 := h 0
    rw [scat_start0, scat_window0] at h0
    constructor
    · intro he
      have e0 : (scatter_S128x128_S50000x1_S50000x128_1_0_0_1.start (ix2 r d') idx 0 + ((scatter_S128x128_S50000x1_S50000x128_1_0_0_1.window (ix2 r d') 0 : Nat) : Int)).toNat = g.val :=
        congrArg (fun f => (f 0).val) he
      have e1 : (scatter_S128x128_S50000x1_S50000x128_1_0_0_1.start (ix2 r d') idx 1 + ((scatter_S128x128_S50000x1_S50000x128_1_0_0_1.window (ix2 r d') 1 : Nat) : Int)).toNat = d.val :=
        congrArg (fun f => (f 1).val) he
      rw [scat_start0, scat_window0] at e0
      rw [scat_start1, scat_window1] at e1
      refine ⟨Fin.ext ?_, ?_⟩ <;> omega
    · rintro ⟨rfl, hw⟩
      have k0 : (scatter_S128x128_S50000x1_S50000x128_1_0_0_1.start (ix2 r d') idx 0 + ((scatter_S128x128_S50000x1_S50000x128_1_0_0_1.window (ix2 r d') 0 : Nat) : Int)).toNat = g.val := by
        rw [scat_start0, scat_window0, hw]; omega
      have k1 : (scatter_S128x128_S50000x1_S50000x128_1_0_0_1.start (ix2 r d') idx 1 + ((scatter_S128x128_S50000x1_S50000x128_1_0_0_1.window (ix2 r d') 1 : Nat) : Int)).toNat = d'.val := by
        rw [scat_start1, scat_window1]; omega
      funext a
      refine Fin.ext ?_
      match a with
      | ⟨0, _⟩ => exact k0
      | ⟨1, _⟩ => exact k1
  · rename_i h
    constructor
    · intro he
      exact absurd he (by simp)
    · rintro ⟨rfl, hw⟩
      exfalso
      have k0 : 0 ≤ scatter_S128x128_S50000x1_S50000x128_1_0_0_1.start (ix2 r d') idx 0 + ((scatter_S128x128_S50000x1_S50000x128_1_0_0_1.window (ix2 r d') 0 : Nat) : Int)
          ∧ scatter_S128x128_S50000x1_S50000x128_1_0_0_1.start (ix2 r d') idx 0 + ((scatter_S128x128_S50000x1_S50000x128_1_0_0_1.window (ix2 r d') 0 : Nat) : Int) < ((S128x128.size 0 : Nat) : Int) := by
        rw [scat_start0, scat_window0, hw, s0]; omega
      have k1 : 0 ≤ scatter_S128x128_S50000x1_S50000x128_1_0_0_1.start (ix2 r d') idx 1 + ((scatter_S128x128_S50000x1_S50000x128_1_0_0_1.window (ix2 r d') 1 : Nat) : Int)
          ∧ scatter_S128x128_S50000x1_S50000x128_1_0_0_1.start (ix2 r d') idx 1 + ((scatter_S128x128_S50000x1_S50000x128_1_0_0_1.window (ix2 r d') 1 : Nat) : Int) < ((S128x128.size 1 : Nat) : Int) := by
        rw [scat_start1, scat_window1, s1]; omega
      refine h fun a => ?_
      match a with
      | ⟨0, _⟩ => exact k0
      | ⟨1, _⟩ => exact k1

/-! ### The broadcasts read at an index -/

/-- The zero scalar broadcast over the 128 x 128 operand reads 0 everywhere. -/
theorem zero_apply (j : S128x128.Idx) :
    broadcastInDim S128x128 ![] bcast_S_S128x128 (constant (F := Ideal) S_ .f32 0x00000000#32) j = 0 := by
  rw [broadcastInDim_apply _ _ _ j ix0 (fun a => a.elim0)]
  exact Ideal.ofBits_zero_f32

/-- The id words as a 50000 x 1 column read node r's word at (r, 0). -/
theorem ids_apply (batch : IVec S50000 32) (r : Fin 50000) :
    broadcastInDim S50000x1 ![0] bcast_S50000_S50000x1_0 batch (ix2 r 0) = batch (ix1 r) := by
  refine broadcastInDim_apply _ _ _ _ (ix1 r) fun a => ?_
  match a with
  | ⟨0, _⟩ => rfl

/-- The bias as a row, then over every graph, reads class o's entry at (g, o). -/
theorem bias_apply (bc : FVec Ideal S16 .f32) (g : Fin 128) (o : Fin 16) :
    broadcastInDim S128x16 ![0, 1] bcast_S1x16_S128x16_0_1 (broadcastInDim S1x16 ![1] bcast_S16_S1x16_1 bc) (ix2 g o)
      = bc (ix1 o) := by
  rw [broadcastInDim_apply _ _ _ (ix2 g o) (ix2 (0 : Fin 1) o) (fun a => by
    match a with
    | ⟨0, _⟩ => rfl
    | ⟨1, _⟩ => rfl)]
  refine broadcastInDim_apply _ _ _ _ (ix1 o) fun a => ?_
  match a with
  | ⟨0, _⟩ => rfl

/-! ### The per-graph sum -/

/-- The accumulating scatter into the zero array, read at (g, d): feature d summed over the nodes whose id word is g. -/
theorem scatterAdd_apply (h : FVec Ideal S50000x128 .f32) (batch : IVec S50000 32) (g d : Fin 128) :
    Host.scatterAdd (F := Ideal) scatter_S128x128_S50000x1_S50000x128_1_0_0_1
        (broadcastInDim S128x128 ![] bcast_S_S128x128 (constant (F := Ideal) S_ .f32 0x00000000#32))
        (broadcastInDim S50000x1 ![0] bcast_S50000_S50000x1_0 batch) h (ix2 g d)
      = GinSpec.pooled (fun r d => h (ix2 r d)) (fun r => batch (ix1 r)) g d := by
  show Ideal.hostScatterAdd scatter_S128x128_S50000x1_S50000x128_1_0_0_1 _ _ h (ix2 g d) = _
  unfold Ideal.hostScatterAdd GinSpec.pooled
  rw [zero_apply, zero_add, Finset.sum_filter, sum_idx2]
  refine Finset.sum_congr rfl fun r _ => ?_
  by_cases hb : batch (ix1 r) = BitVec.ofNat 32 g.val
  · rw [Finset.sum_eq_single d]
    · rw [if_pos ((scat_resultIdx _ r d g d).mpr ⟨rfl, (ids_apply batch r).trans hb⟩)]
      unfold GinSpec.hit
      rw [if_pos hb, one_mul]
    · intro b _ hbd
      rw [if_neg (fun hc => hbd ((scat_resultIdx _ r b g d).mp hc).1)]
    · intro hn
      exact absurd (Finset.mem_univ d) hn
  · rw [Finset.sum_eq_zero (fun b _ => by
      rw [if_neg (fun hc => hb ((ids_apply batch r).symm.trans ((scat_resultIdx _ r b g d).mp hc).2))])]
    unfold GinSpec.hit
    rw [if_neg hb, zero_mul]

/-! ### The linear map -/

/-- The left operand's axis 0 reads the result's row coordinate. -/
theorem lhs_dot_S128x128_S128x16_S128x16_1_0_0_1_n_n_0 (j : S128x16.Idx) (k : dot_S128x128_S128x16_S128x16_1_0_0_1_n_n.contr.Idx) :
    (dot_S128x128_S128x16_S128x16_1_0_0_1_n_n.lhsIdx j k 0).val = (j 0).val := by
  unfold DotDims.lhsIdx
  rw [dif_neg (show ¬ (0 : Fin S128x128.rank) ∈ dot_S128x128_S128x16_S128x16_1_0_0_1_n_n.lhsBatch by decide),
    dif_pos (show (0 : Fin S128x128.rank) ∈ dot_S128x128_S128x16_S128x16_1_0_0_1_n_n.lhsNonContracting by decide)]
  rfl

/-- The left operand's axis 1 is the contracted one: it reads the contraction coordinate. -/
theorem lhs_dot_S128x128_S128x16_S128x16_1_0_0_1_n_n_1 (j : S128x16.Idx) (k : dot_S128x128_S128x16_S128x16_1_0_0_1_n_n.contr.Idx) :
    (dot_S128x128_S128x16_S128x16_1_0_0_1_n_n.lhsIdx j k 1).val = (k ⟨0, by decide⟩).val :=
  dot_S128x128_S128x16_S128x16_1_0_0_1_n_n.lhsIdx_val_of_single rfl j k

/-- The right operand's axis 0 is the contracted one: it reads the contraction coordinate. -/
theorem rhs_dot_S128x128_S128x16_S128x16_1_0_0_1_n_n_0 (j : S128x16.Idx) (k : dot_S128x128_S128x16_S128x16_1_0_0_1_n_n.contr.Idx) :
    (dot_S128x128_S128x16_S128x16_1_0_0_1_n_n.rhsIdx j k 0).val = (k ⟨0, by decide⟩).val :=
  dot_S128x128_S128x16_S128x16_1_0_0_1_n_n.rhsIdx_val_of_single rfl j k

/-- The right operand's axis 1 reads the result's column coordinate. -/
theorem rhs_dot_S128x128_S128x16_S128x16_1_0_0_1_n_n_1 (j : S128x16.Idx) (k : dot_S128x128_S128x16_S128x16_1_0_0_1_n_n.contr.Idx) :
    (dot_S128x128_S128x16_S128x16_1_0_0_1_n_n.rhsIdx j k 1).val = (j 1).val := by
  unfold DotDims.rhsIdx
  rw [dif_neg (show ¬ (1 : Fin S128x16.rank) ∈ dot_S128x128_S128x16_S128x16_1_0_0_1_n_n.rhsBatch by decide),
    dif_pos (show (1 : Fin S128x16.rank) ∈ dot_S128x128_S128x16_S128x16_1_0_0_1_n_n.rhsNonContracting by decide)]
  rfl

/-- The 128 x 128 by 128 x 16 product read at (g, o): the sum over the contracted feature coordinate. -/
theorem dot_apply (A : FVec Ideal S128x128 .f32) (B : FVec Ideal S128x16 .f32) (g : Fin 128) (o : Fin 16) :
    Host.dotGeneral (F := Ideal) dot_S128x128_S128x16_S128x16_1_0_0_1_n_n none A B (ix2 g o)
      = ∑ d : Fin 128, A (ix2 g d) * B (ix2 d o) := by
  show FloatOps.dotGeneral _ none _ A B (ix2 g o) = _
  rw [Ideal.dotGeneral_apply, ← Equiv.sum_comp (contrEquiv1 dot_S128x128_S128x16_S128x16_1_0_0_1_n_n 128 rfl rfl).symm]
  refine Finset.sum_congr rfl fun c _ => ?_
  have hk := contrEquiv1_symm_val dot_S128x128_S128x16_S128x16_1_0_0_1_n_n 128 rfl rfl c
  have hl : dot_S128x128_S128x16_S128x16_1_0_0_1_n_n.lhsIdx (ix2 g o) ((contrEquiv1 dot_S128x128_S128x16_S128x16_1_0_0_1_n_n 128 rfl rfl).symm c) = ix2 g c := by
    funext a
    refine Fin.ext ?_
    match a with
    | ⟨0, _⟩ => exact lhs_dot_S128x128_S128x16_S128x16_1_0_0_1_n_n_0 _ _
    | ⟨1, _⟩ => exact (lhs_dot_S128x128_S128x16_S128x16_1_0_0_1_n_n_1 _ _).trans hk
  have hr : dot_S128x128_S128x16_S128x16_1_0_0_1_n_n.rhsIdx (ix2 g o) ((contrEquiv1 dot_S128x128_S128x16_S128x16_1_0_0_1_n_n 128 rfl rfl).symm c) = ix2 c o := by
    funext a
    refine Fin.ext ?_
    match a with
    | ⟨0, _⟩ => exact (rhs_dot_S128x128_S128x16_S128x16_1_0_0_1_n_n_0 _ _).trans hk
    | ⟨1, _⟩ => exact rhs_dot_S128x128_S128x16_S128x16_1_0_0_1_n_n_1 _ _
  rw [hl, hr]

/-- The read-out at (graph g, class o). -/
theorem poolT_apply (h : FVec Ideal S50000x128 .f32) (batch : IVec S50000 32) (Wc : FVec Ideal S128x16 .f32)
    (bc : FVec Ideal S16 .f32) (g : Fin 128) (o : Fin 16) :
    poolT (F := Ideal) h batch Wc bc (ix2 g o)
      = GinSpec.classify (GinSpec.pooled (fun r d => h (ix2 r d)) (fun r => batch (ix1 r)))
          (fun d o => Wc (ix2 d o)) (fun o => bc (ix1 o)) g o := by
  unfold poolT GinSpec.classify
  rw [addf_apply, bias_apply, dot_apply]
  refine congrArg (· + bc (ix1 o)) (Finset.sum_congr rfl fun d _ => ?_)
  rw [scatterAdd_apply]

end Cert.ReferenceIdeal.RefValue

end
-- ==== Proof.RefNet.lean ====
/-
  The reference program as one function of its argument arrays: three layers, each on the previous layer's features and
  their neighbour sums with that layer's slices of the stacked parameters, then the read-out. The reference's run ends
  with its result at this function of the launch contents, the arguments unchanged: its composed term IS this one,
  spelled with the named pieces.
-/
import proofs.«418468_j32066225832278_1_alg».proof.Proof.RefLayer
import proofs.«418468_j32066225832278_1_alg».proof.Proof.RefPool

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value Cert.ReferenceIdeal.Facts₀ Cert.ReferenceIdeal.Facts

variable {F : FTy → Type} [FloatOps F]

/-- Layer K's output from the previous features: the layer on them and their neighbour sums, with layer K's parameters. -/
def layer0 (h : FVec F S50000x128 .f32) (ei : IVec S2x800000 32) (a3 a5 : FVec F S3x128x128 .f32)
    (a4 a6 a7 a8 a9 a10 : FVec F S3x128 .f32) : FVec F S50000x128 .f32 :=
  layerT h (aggT h (srcOf ei) (dstOf ei)) (mat0 a3) (mat0 a5) (vec0 a4) (vec0 a6) (vec0 a7) (vec0 a8) (vec0 a9) (vec0 a10)
def layer1 (h : FVec F S50000x128 .f32) (ei : IVec S2x800000 32) (a3 a5 : FVec F S3x128x128 .f32)
    (a4 a6 a7 a8 a9 a10 : FVec F S3x128 .f32) : FVec F S50000x128 .f32 :=
  layerT h (aggT h (srcOf ei) (dstOf ei)) (mat1 a3) (mat1 a5) (vec1 a4) (vec1 a6) (vec1 a7) (vec1 a8) (vec1 a9) (vec1 a10)
def layer2 (h : FVec F S50000x128 .f32) (ei : IVec S2x800000 32) (a3 a5 : FVec F S3x128x128 .f32)
    (a4 a6 a7 a8 a9 a10 : FVec F S3x128 .f32) : FVec F S50000x128 .f32 :=
  layerT h (aggT h (srcOf ei) (dstOf ei)) (mat2 a3) (mat2 a5) (vec2 a4) (vec2 a6) (vec2 a7) (vec2 a8) (vec2 a9) (vec2 a10)

/-- The whole network. -/
def net (x : FVec F S50000x128 .f32) (ei : IVec S2x800000 32) (batch : IVec S50000 32) (a3 a5 : FVec F S3x128x128 .f32)
    (a4 a6 a7 a8 a9 a10 : FVec F S3x128 .f32) (a11 : FVec F S128x16 .f32) (a12 : FVec F S16 .f32) : FVec F S128x16 .f32 :=
  poolT (layer2 (layer1 (layer0 x ei a3 a5 a4 a6 a7 a8 a9 a10) ei a3 a5 a4 a6 a7 a8 a9 a10) ei a3 a5 a4 a6 a7 a8 a9 a10)
    batch a11 a12

/-- The reference's run: its result is the network of the launch contents, its arguments end unchanged. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v166)
        = net (launchContents m c (Proc.devRef .tc main_arg0)) (launchContents m c (Proc.devRef .tc main_arg1)) (launchContents m c (Proc.devRef .tc main_arg2)) (launchContents m c (Proc.devRef .tc main_arg3)) (launchContents m c (Proc.devRef .tc main_arg5))
            (launchContents m c (Proc.devRef .tc main_arg4)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
            (launchContents m c (Proc.devRef .tc main_arg11)) (launchContents m c (Proc.devRef .tc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (Value.run (F := F) m ρ).mono fun _ h c => ⟨(h c).1.trans rfl, (h c).2⟩

end Cert.ReferenceIdeal.RefValue

end
-- ==== Proof.MlpKernel.lean ====
/-
  The perceptron-and-normalisation kernel's stored value, read at one coordinate of its 2000 x 128 tile, is the layer's
  row function `GinSpec.layerRow` of that tile row: the two matrix products are sums over the 128 contracted
  coordinates, the row-vector operands broadcast along the rows, and the changes of float format are the identity.
  The three launches print the same arithmetic cut into payloads in two ways (launch 0; launches 1 and 2).
-/
import proofs.«418468_j32066225832278_1_alg».proof.Proof.Gen.KernelIdeal.Skeleton
import proofs.«418468_j32066225832278_1_alg».proof.Proof.GinSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.MlpValue

open Idealize.ShloMosaic Idealize.ShloMosaic.ValueIdx Cert.KernelIdeal Cert.KernelIdeal.Gen

/-- Row axis of the left operand: not contracted, it reads the result's row. -/
theorem lhs_dot_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬ (0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- Column axis of the left operand: the contracted one, it reads the contraction coordinate. -/
theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- Row axis of the right operand: the contracted one. -/
theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- Column axis of the right operand: not contracted, it reads the result's column. -/
theorem rhs_dot_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬ (1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix product into a zero accumulator, read at (y, c): the sum over the contracted coordinate. -/
theorem matmul_zero_apply {φ₁ φ₂ : FTy} (A : FVec Ideal S2000x128 φ₁) (B : FVec Ideal S128x128 φ₂) (y : Fin 2000) (c : Fin 128) :
    matmul dot_S2000x128_S128x128_S2000x128_1_0_0_1_n_n none A B (constant (F := Ideal) S2000x128 .f32 0x00000000#32) (ix2 y c)
      = ∑ k : Fin 128, A (ix2 y k) * B (ix2 k c) := by
  show FloatOps.matmul _ none A B _ (ix2 y c) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 y c)
      ((contrEquiv1 dot_S2000x128_S128x128_S2000x128_1_0_0_1_n_n 128 rfl rfl).symm k) = ix2 y k := by
    funext a; apply Fin.ext
    match a with
    | ⟨0, _⟩ => exact lhs_dot_0 _ _
    | ⟨1, _⟩ => exact (lhs_dot_1 _ _).trans hk
  have hr : dot_S2000x128_S128x128_S2000x128_1_0_0_1_n_n.rhsIdx (ix2 y c)
      ((contrEquiv1 dot_S2000x128_S128x128_S2000x128_1_0_0_1_n_n 128 rfl rfl).symm k) = ix2 k c := by
    funext a; apply Fin.ext
    match a with
    | ⟨0, _⟩ => exact (rhs_dot_0 _ _).trans hk
    | ⟨1, _⟩ => exact rhs_dot_1 _ _
  rw [hl, hr]

/-- The reciprocal square root of a vector, read at an index. -/
theorem rsqrt_apply {s : Shape} {φ : FTy} (v : FVec Ideal s φ) (i : s.Idx) : rsqrt v i = Ideal.rsqrt (v i) := rfl

/-- The first matrix product, its bias and the rectifier at (y, j): hidden unit j of the tile row y. -/
theorem hidden_apply (x0 x1 : Vec Ideal S2000x128 .f32) (w1 : Vec Ideal S128x128 .f32) (b1 : Vec Ideal S1x128 .f32)
    (y : Fin 2000) (j : Fin 128) :
    maximumf (addf (matmul dot_S2000x128_S128x128_S2000x128_1_0_0_1_n_n none
        (truncf .bf16 (addf x0 x1) bitsLt_bf16_f32) (truncf .bf16 w1 bitsLt_bf16_f32)
        (constant (F := Ideal) S2000x128 .f32 0x00000000#32))
        (broadcastTo S2000x128 b1 broadcasts_S1x128_S2000x128))
      (broadcast S2000x128 (FloatOps.ofBits (F := Ideal) .f32 0x00000000#32)) (ix2 y j)
      = GinSpec.hidden (fun k => x0 (ix2 y k) + x1 (ix2 y k)) (fun k j => w1 (ix2 k j)) (fun j => b1 (ix2 0 j)) j := by
  rw [maximumf_apply, addf_apply, matmul_zero_apply, broadcastTo_1b_ab_apply, broadcast_apply]
  simp only [truncf_apply, addf_apply, Ideal.ofBits_def, Ideal.ofBits_zero_f32]
  rfl

/-- The row function's arguments read off a tile's operands: the tile row y of the two node-feature blocks summed,
    the weight matrices coordinate by coordinate, the 1 x 128 row vectors at their only row. -/
abbrev rowOf (x0 x1 : Vec Ideal S2000x128 .f32) (w1 w2 : Vec Ideal S128x128 .f32)
    (b1 b2 gam bet mu var : Vec Ideal S1x128 .f32) (y : Fin 2000) (c : Fin 128) : EReal :=
  GinSpec.layerRow (fun k => x0 (ix2 y k) + x1 (ix2 y k)) (fun k j => w1 (ix2 k j)) (fun j c => w2 (ix2 j c))
    (fun j => b1 (ix2 0 j)) (fun c => b2 (ix2 0 c)) (fun c => gam (ix2 0 c)) (fun c => bet (ix2 0 c))
    (fun c => mu (ix2 0 c)) (fun c => var (ix2 0 c)) c

theorem layer0_apply (x0 x1 : Vec Ideal S2000x128 .f32) (w1 w2 : Vec Ideal S128x128 .f32)
    (b1 b2 gam bet mu var : Vec Ideal S1x128 .f32) (y : Fin 2000) (c : Fin 128) :
    k0_pay1 (F := Ideal) (k0_pay2 x0 x1 w1 b1 w2 b2 mu) (k0_pay3 gam var) bet (ix2 y c)
      = rowOf x0 x1 w1 w2 b1 b2 gam bet mu var y c := by
  unfold k0_pay1 k0_pay2 k0_pay3
  simp only [shapeCast_self]
  rw [maximumf_apply, addf_apply, mulf_apply, subf_apply, addf_apply, matmul_zero_apply]
  simp only [truncf_apply, hidden_apply]
  simp only [broadcastTo_1b_ab_apply, broadcast_apply, mulf_apply, addf_apply, rsqrt_apply,
    Ideal.ofBits_def, Ideal.ofBits_zero_f32]
  rfl

theorem layer1_apply (x0 x1 : Vec Ideal S2000x128 .f32) (w1 w2 : Vec Ideal S128x128 .f32)
    (b1 b2 gam bet mu var : Vec Ideal S1x128 .f32) (y : Fin 2000) (c : Fin 128) :
    k1_pay1 (F := Ideal) (k1_pay2 gam var) (k1_pay3 x0 x1 w1 b1 w2 b2 mu) bet (ix2 y c)
      = rowOf x0 x1 w1 w2 b1 b2 gam bet mu var y c := by
  unfold k1_pay1 k1_pay2 k1_pay3
  simp only [shapeCast_self]
  rw [maximumf_apply, addf_apply, mulf_apply, subf_apply, addf_apply, matmul_zero_apply]
  simp only [truncf_apply, hidden_apply]
  simp only [broadcastTo_1b_ab_apply, broadcast_apply, mulf_apply, addf_apply, rsqrt_apply,
    Ideal.ofBits_def, Ideal.ofBits_zero_f32]
  rfl

theorem layer2_apply (x0 x1 : Vec Ideal S2000x128 .f32) (w1 w2 : Vec Ideal S128x128 .f32)
    (b1 b2 gam bet mu var : Vec Ideal S1x128 .f32) (y : Fin 2000) (c : Fin 128) :
    k2_pay1 (F := Ideal) (k2_pay2 gam var) (k2_pay3 x0 x1 w1 b1 w2 b2 mu) bet (ix2 y c)
      = rowOf x0 x1 w1 w2 b1 b2 gam bet mu var y c := by
  unfold k2_pay1 k2_pay2 k2_pay3
  simp only [shapeCast_self]
  rw [maximumf_apply, addf_apply, mulf_apply, subf_apply, addf_apply, matmul_zero_apply]
  simp only [truncf_apply, hidden_apply]
  simp only [broadcastTo_1b_ab_apply, broadcast_apply, mulf_apply, addf_apply, rsqrt_apply,
    Ideal.ofBits_def, Ideal.ofBits_zero_f32]
  rfl

end Cert.KernelIdeal.MlpValue

end
-- ==== Proof.MlpArr.lean ====
/-
  The array a layer region leaves, read at a coordinate. Each of the three launches of the layer kernel walks the 25
  blocks of 2000 node rows; at point t it stores, into rows 2000 t .. 2000 t + 1999 of its result array, the tile whose
  entry (y, f) is the layer's row function of tile row y of the two node blocks and of the eight parameter operands,
  which are whole at every point. The blocks tile the 50000 rows (row r lies in block r / 2000), so after the region the
  result array at (r, f) is the row function `GinSpec.layerRow` of node r's summed row of the two node arrays as the
  region found them. The ten operand arrays are never written.
-/
import proofs.«418468_j32066225832278_1_alg».proof.Proof.Region0
import proofs.«418468_j32066225832278_1_alg».proof.Proof.Region1
import proofs.«418468_j32066225832278_1_alg».proof.Proof.Region2
import proofs.«418468_j32066225832278_1_alg».proof.Proof.MlpKernel
import proofs.«418468_j32066225832278_1_alg».proof.Proof.GinSpec
import Idealize.ShloMosaic.Lib.Pipeline.Value
import Idealize.ShloMosaic.Lib.ValueIdx

set_option maxRecDepth 16384

noncomputable section

namespace Cert.KernelIdeal.MlpArr

open Cert.KernelIdeal Cert.KernelIdeal.Gen
open Idealize.ShloMosaic Idealize.ShloMosaic.TcCoe Idealize.ShloMosaic.ValueIdx
open Idealize.ShloMosaic.Pipeline (Dat Cfg Window)

/-! ## The operand arrays are left as found (at every float instance) -/

section Kept
variable {F : FTy → Type} [FloatOps F]
variable (V : (c : Dev nD) → (b : Ref sig .tc) → Buf (Elt F) ((c : Thread nD τ).loc b))

/-- An operand window's array is never written: after region 0 it holds what the region found. -/
theorem arr0_in (c : Dev nD) (w : Fin cfg0.W) (hin : (cfg0.win w).isOut = false) :
    (Mlp0.dat V c).arrAt w cfg0.N = V c (Pipeline.arrRef spec0 w) :=
  ((Mlp0.dat V c).arrAt_in w hin _).trans (Mlp0.A_eq V c w)
/-- An operand window's array is never written: after region 1 it holds what the region found. -/
theorem arr1_in (c : Dev nD) (w : Fin cfg1.W) (hin : (cfg1.win w).isOut = false) :
    (Mlp1.dat V c).arrAt w cfg1.N = V c (Pipeline.arrRef spec1 w) :=
  ((Mlp1.dat V c).arrAt_in w hin _).trans (Mlp1.A_eq V c w)
/-- An operand window's array is never written: after region 2 it holds what the region found. -/
theorem arr2_in (c : Dev nD) (w : Fin cfg2.W) (hin : (cfg2.win w).isOut = false) :
    (Mlp2.dat V c).arrAt w cfg2.N = V c (Pipeline.arrRef spec2 w) :=
  ((Mlp2.dat V c).arrAt_in w hin _).trans (Mlp2.A_eq V c w)

end Kept

/-! ## Shared by the three launches -/

/-- The zero offsets of a whole-buffer access. -/
theorem hz : (![0, 0] : Fin 2 → Nat) = fun _ => 0 := funext fun a => by fin_cases a <;> rfl

/-- The layer's row function read off whole arrays: node r's summed row of the two node arrays, the weight matrices
    coordinate by coordinate, the 1 x 128 row vectors at their only row. -/
abbrev rowAt (A0 A1 : FVec Ideal S50000x128 .f32) (W1 W2 : FVec Ideal S128x128 .f32)
    (b1 b2 gam bet mu var : FVec Ideal S1x128 .f32) (r : Fin 50000) (f : Fin 128) : EReal :=
  GinSpec.layerRow (fun k => A0 (ix2 r k) + A1 (ix2 r k)) (fun k j => W1 (ix2 k j)) (fun j f => W2 (ix2 j f))
    (fun j => b1 (ix2 0 j)) (fun f => b2 (ix2 0 f)) (fun f => gam (ix2 0 f)) (fun f => bet (ix2 0 f))
    (fun f => mu (ix2 0 f)) (fun f => var (ix2 0 f)) f

/-- The row function of a tile row and of an array row agree when the operands agree coordinate by coordinate. -/
theorem rowOf_eq_rowAt (x0 x1 : Vec Ideal S2000x128 .f32) (w1 w2 : Vec Ideal S128x128 .f32)
    (b1 b2 gam bet mu var : Vec Ideal S1x128 .f32) (A0 A1 : FVec Ideal S50000x128 .f32) (W1 W2 : FVec Ideal S128x128 .f32)
    (B1 B2 Gam Bet Mu Var : FVec Ideal S1x128 .f32) (y : Fin 2000) (r : Fin 50000) (f : Fin 128)
    (h0 : ∀ k, x0 (ix2 y k) = A0 (ix2 r k)) (h1 : ∀ k, x1 (ix2 y k) = A1 (ix2 r k))
    (hw1 : ∀ k j, w1 (ix2 k j) = W1 (ix2 k j)) (hw2 : ∀ k j, w2 (ix2 k j) = W2 (ix2 k j))
    (hb1 : ∀ j, b1 (ix2 0 j) = B1 (ix2 0 j)) (hb2 : ∀ j, b2 (ix2 0 j) = B2 (ix2 0 j))
    (hgam : ∀ j, gam (ix2 0 j) = Gam (ix2 0 j)) (hbet : ∀ j, bet (ix2 0 j) = Bet (ix2 0 j))
    (hmu : ∀ j, mu (ix2 0 j) = Mu (ix2 0 j)) (hvar : ∀ j, var (ix2 0 j) = Var (ix2 0 j)) :
    MlpValue.rowOf x0 x1 w1 w2 b1 b2 gam bet mu var y f = rowAt A0 A1 W1 W2 B1 B2 Gam Bet Mu Var r f := by
  show GinSpec.layerRow _ _ _ _ _ _ _ _ _ f = GinSpec.layerRow _ _ _ _ _ _ _ _ _ f
  simp only [h0, h1, hw1, hw2, hb1, hb2, hgam, hbet, hmu, hvar]

/-! ## Launch 0 -/

/-- The printed index maps of launch 0, decided over its 25 points: the two node arrays and the result move one block of
    2000 rows per point, the eight parameter operands stay at their only block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The stored tile of launch 0 at (y, f): the layer's row function of tile row y. -/
theorem tile0_apply (x0 x1 : Vec Ideal S2000x128 .f32) (x2 : Vec Ideal S128x128 .f32) (x3 : Vec Ideal S1x128 .f32)
    (x4 : Vec Ideal S128x128 .f32) (x5 x6 x7 x8 x9 : Vec Ideal S1x128 .f32) (y : Fin 2000) (f : Fin 128) :
    Mlp0.tile x0 x1 x2 x3 x4 x5 x6 x7 x8 x9 (ix2 y f) = MlpValue.rowOf x0 x1 x2 x4 x3 x5 x6 x7 x8 x9 y f := by
  unfold Mlp0.tile
  simp only [View.ld_unit_zero (S := S2000x128) hz, View.ld_unit_zero (S := S128x128) hz, View.ld_unit_zero (S := S1x128) hz]
  exact MlpValue.layer0_apply x0 x1 x2 x4 x3 x5 x6 x7 x8 x9 y f

section Launch0
variable (V : (c : Dev nD) → (b : Ref sig .tc) → Buf (Elt Ideal) ((c : Thread nD τ).loc b))

/-- Point t's block of a node array, read at (y, k): the array at row 2000 t + y. -/
theorem iblk0_0 (c : Dev nD) (t : Fin cfg0.N) (y : Fin 2000) (k : Fin 128) (r : Fin 50000) (hr : r.val = t.val * 2000 + y.val) :
    Mlp0.iblk V c 0 t (ix2 y k) = (V c (Pipeline.arrRef spec0 0) : FVec Ideal S50000x128 .f32) (ix2 r k) := by
  obtain ⟨e0, e1, -⟩ := idx0 t
  show V c (Pipeline.arrRef spec0 0) (((cfg0.win 0).blk t).view.emb (ix2 y k)) = V c (Pipeline.arrRef spec0 0) (ix2 r k)
  refine congrArg _ (funext fun a => Fin.ext ?_)
  match a with
  | ⟨0, _⟩ => show win0_0.index t (0 : Fin 2) * 2000 + 1 * y.val = r.val; omega
  | ⟨1, _⟩ => show win0_0.index t (1 : Fin 2) * 128 + 1 * k.val = k.val; omega
theorem iblk0_1 (c : Dev nD) (t : Fin cfg0.N) (y : Fin 2000) (k : Fin 128) (r : Fin 50000) (hr : r.val = t.val * 2000 + y.val) :
    Mlp0.iblk V c 1 t (ix2 y k) = (V c (Pipeline.arrRef spec0 1) : FVec Ideal S50000x128 .f32) (ix2 r k) := by
  obtain ⟨-, -, e0, e1, -⟩ := idx0 t
  show V c (Pipeline.arrRef spec0 1) (((cfg0.win 1).blk t).view.emb (ix2 y k)) = V c (Pipeline.arrRef spec0 1) (ix2 r k)
  refine congrArg _ (funext fun a => Fin.ext ?_)
  match a with
  | ⟨0, _⟩ => show win0_1.index t (0 : Fin 2) * 2000 + 1 * y.val = r.val; omega
  | ⟨1, _⟩ => show win0_1.index t (1 : Fin 2) * 128 + 1 * k.val = k.val; omega
/-- A weight matrix's block is the whole matrix at every point. -/
theorem iblk0_2 (c : Dev nD) (t : Fin cfg0.N) (k j : Fin 128) :
    Mlp0.iblk V c 2 t (ix2 k j) = (V c (Pipeline.arrRef spec0 2) : FVec Ideal S128x128 .f32) (ix2 k j) := by
  obtain ⟨-, -, -, -, -, -, e0, e1, -⟩ := idx0 t
  show V c (Pipeline.arrRef spec0 2) (((cfg0.win 2).blk t).view.emb (ix2 k j)) = V c (Pipeline.arrRef spec0 2) (ix2 k j)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega
/-- A row vector's block is the whole row at every point. -/
theorem iblk0_3 (c : Dev nD) (t : Fin cfg0.N) (j : Fin 128) :
    Mlp0.iblk V c 3 t (ix2 0 j) = (V c (Pipeline.arrRef spec0 3) : FVec Ideal S1x128 .f32) (ix2 0 j) := by
  obtain ⟨-, -, -, -, -, -, -, -, e0, e1, -⟩ := idx0 t
  show V c (Pipeline.arrRef spec0 3) (((cfg0.win 3).blk t).view.emb (ix2 0 j)) = V c (Pipeline.arrRef spec0 3) (ix2 0 j)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega
theorem iblk0_4 (c : Dev nD) (t : Fin cfg0.N) (k j : Fin 128) :
    Mlp0.iblk V c 4 t (ix2 k j) = (V c (Pipeline.arrRef spec0 4) : FVec Ideal S128x128 .f32) (ix2 k j) := by
  obtain ⟨-, -, -, -, -, -, -, -, -, -, e0, e1, -⟩ := idx0 t
  show V c (Pipeline.arrRef spec0 4) (((cfg0.win 4).blk t).view.emb (ix2 k j)) = V c (Pipeline.arrRef spec0 4) (ix2 k j)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega
theorem iblk0_5 (c : Dev nD) (t : Fin cfg0.N) (j : Fin 128) :
    Mlp0.iblk V c 5 t (ix2 0 j) = (V c (Pipeline.arrRef spec0 5) : FVec Ideal S1x128 .f32) (ix2 0 j) := by
  obtain ⟨-, -, -, -, -, -, -, -, -, -, -, -, e0, e1, -⟩ := idx0 t
  show V c (Pipeline.arrRef spec0 5) (((cfg0.win 5).blk t).view.emb (ix2 0 j)) = V c (Pipeline.arrRef spec0 5) (ix2 0 j)
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega
theorem iblk0_6 (c : Dev nD) (t : Fin cfg0.N) (j : Fin 128) :
    Mlp0.iblk V c 6 t (ix2 0 j) = (V c (Pipeline.arrRef spec0 6) : FVec Ideal S1x128 .f32) (ix2 0 j) := by
  obtain ⟨-, -, -, -, -, -, -, -, -, -, -, -, -, -, e0, e1, -⟩ := idx0 t
  show V c (Pipeline.arrRef spec0 6) (((cfg0.win 6).blk t).view.emb (ix2 0 j)) = V c (Pipeline.arrRef spec0 6) (ix2 0 j)
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega
theorem iblk0_7 (c : Dev nD) (t : Fin cfg0.N) (j : Fin 128) :
    Mlp0.iblk V c 7 t (ix2 0 j) = (V c (Pipeline.arrRef spec0 7) : FVec Ideal S1x128 .f32) (ix2 0 j) := by
  obtain ⟨-, -, -, -, -, -, -, -, -, -, -, -, -, -, -, -, e0, e1, -⟩ := idx0 t
  show V c (Pipeline.arrRef spec0 7) (((cfg0.win 7).blk t).view.emb (ix2 0 j)) = V c (Pipeline.arrRef spec0 7) (ix2 0 j)
  refine congrArg _ (funext fun a => Fin.ext ?_)
  match a with
  | ⟨0, _⟩ => show win0_7.index t (0 : Fin 2) * 1 + 1 * 0 = 0; omega
  | ⟨1, _⟩ => show win0_7.index t (1 : Fin 2) * 128 + 1 * j.val = j.val; omega
theorem iblk0_8 (c : Dev nD) (t : Fin cfg0.N) (j : Fin 128) :
    Mlp0.iblk V c 8 t (ix2 0 j) = (V c (Pipeline.arrRef spec0 8) : FVec Ideal S1x128 .f32) (ix2 0 j) := by
  obtain ⟨-, -, -, -, -, -, -, -, -, -, -, -, -, -, -, -, -, -, e0, e1, -⟩ := idx0 t
  show V c (Pipeline.arrRef spec0 8) (((cfg0.win 8).blk t).view.emb (ix2 0 j)) = V c (Pipeline.arrRef spec0 8) (ix2 0 j)
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * j.val = j.val; omega
theorem iblk0_9 (c : Dev nD) (t : Fin cfg0.N) (j : Fin 128) :
    Mlp0.iblk V c 9 t (ix2 0 j) = (V c (Pipeline.arrRef spec0 9) : FVec Ideal S1x128 .f32) (ix2 0 j) := by
  obtain ⟨-, -, -, -, -, -, -, -, -, -, -, -, -, -, -, -, -, -, -, -, e0, e1⟩ := idx0 t
  show V c (Pipeline.arrRef spec0 9) (((cfg0.win 9).blk t).view.emb (ix2 0 j)) = V c (Pipeline.arrRef spec0 9) (ix2 0 j)
  refine congrArg _ (funext fun a => Fin.ext ?_)
  match a with
  | ⟨0, _⟩ => show win0_9.index t (0 : Fin 2) * 1 + 1 * 0 = 0; omega
  | ⟨1, _⟩ => show win0_9.index t (1 : Fin 2) * 128 + 1 * j.val = j.val; omega

/-- The layer of the arrays region 0 finds, as one array over the nodes. -/
def layerArr0 (c : Dev nD) : FVec Ideal S50000x128 .f32 := fun i =>
  rowAt (V c (Pipeline.arrRef spec0 0)) (V c (Pipeline.arrRef spec0 1)) (V c (Pipeline.arrRef spec0 2))
    (V c (Pipeline.arrRef spec0 4)) (V c (Pipeline.arrRef spec0 3)) (V c (Pipeline.arrRef spec0 5))
    (V c (Pipeline.arrRef spec0 6)) (V c (Pipeline.arrRef spec0 7)) (V c (Pipeline.arrRef spec0 8))
    (V c (Pipeline.arrRef spec0 9)) ⟨(i 0).val, idx2_lt0 i⟩ ⟨(i 1).val, idx2_lt1 i⟩

theorem layerArr0_apply (c : Dev nD) (r : Fin 50000) (f : Fin 128) :
    layerArr0 V c (ix2 r f)
      = rowAt (V c (Pipeline.arrRef spec0 0)) (V c (Pipeline.arrRef spec0 1)) (V c (Pipeline.arrRef spec0 2))
          (V c (Pipeline.arrRef spec0 4)) (V c (Pipeline.arrRef spec0 3)) (V c (Pipeline.arrRef spec0 5))
          (V c (Pipeline.arrRef spec0 6)) (V c (Pipeline.arrRef spec0 7)) (V c (Pipeline.arrRef spec0 8))
          (V c (Pipeline.arrRef spec0 9)) r f := rfl

/-- What point t writes back is its block of that array: rows 2000 t .. 2000 t + 1999. -/
theorem flushed0_eq (c : Dev nD) (t : Fin cfg0.N) :
    (Mlp0.dat (F := Ideal) V c).flushed 10 t = ((cfg0.win 10).blk t).view.read (Elt Ideal) (layerArr0 V c) := by
  show (cfg0.win 10).cut (grid0.coords t) ((Mlp0.dat V c).after 10 t) = _
  rw [Mlp0.after_10]
  unfold Mlp0.out10
  rw [View.canon_unit_zero hz]
  funext j
  obtain ⟨y, f, rfl⟩ : ∃ (y : Fin 2000) (f : Fin 128), j = ix2 y f := ⟨j 0, j 1, eq_ix2 j⟩
  show Mlp0.tile (Mlp0.iblk V c 0 t) (Mlp0.iblk V c 1 t) (Mlp0.iblk V c 2 t) (Mlp0.iblk V c 3 t) (Mlp0.iblk V c 4 t)
        (Mlp0.iblk V c 5 t) (Mlp0.iblk V c 6 t) (Mlp0.iblk V c 7 t) (Mlp0.iblk V c 8 t) (Mlp0.iblk V c 9 t) (ix2 y f)
      = layerArr0 V c (((cfg0.win 10).blk t).view.emb (ix2 y f))
  refine (tile0_apply _ _ _ _ _ _ _ _ _ _ y f).trans ?_
  have ht : t.val < 25 := t.isLt
  have hr : t.val * 2000 + y.val < 50000 := by omega
  have e : ((cfg0.win 10).blk t).view.emb (ix2 y f) = (ix2 (⟨t.val * 2000 + y.val, hr⟩ : Fin 50000) f : S50000x128.Idx) := by
    obtain ⟨-, -, -, -, e0, e1, -⟩ := idx0 t
    refine funext fun a => Fin.ext ?_
    match a with
    | ⟨0, _⟩ => show win0_10.index t (0 : Fin 2) * 2000 + 1 * y.val = t.val * 2000 + y.val; omega
    | ⟨1, _⟩ => show win0_10.index t (1 : Fin 2) * 128 + 1 * f.val = f.val; omega
  rw [e, layerArr0_apply]
  exact rowOf_eq_rowAt _ _ _ _ _ _ _ _ _ _ _ _ _ _ _ _ _ _ _ _ y ⟨_, hr⟩ f
    (fun k => iblk0_0 V c t y k _ rfl) (fun k => iblk0_1 V c t y k _ rfl) (iblk0_2 V c t) (iblk0_4 V c t)
    (iblk0_3 V c t) (iblk0_5 V c t) (iblk0_6 V c t) (iblk0_7 V c t) (iblk0_8 V c t) (iblk0_9 V c t)

/-- An index of the node array is in point t's block iff each coordinate is in the block's range on its axis. -/
theorem mem_blk0 (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v37).slice (win0_10.rect t)).set ↔ _
  rw [View.set_slice_whole, Rect.mem_set_unit]
  exact Iff.rfl

/-- Every node row is in some point's block: row r in point r / 2000's. -/
theorem cover0 (i : S50000x128.Idx) : ∃ t : Fin cfg0.N, (cfg0.win 10).flush t = true ∧ i ∈ ((cfg0.win 10).blk t).view.set := by
  have hi0 : (i 0).val < 50000 := idx2_lt0 i
  have hi1 : (i 1).val < 128 := idx2_lt1 i
  have hq : (i 0).val / 2000 < 25 := by omega
  obtain ⟨-, -, -, -, e0, e1, -⟩ := idx0 ⟨(i 0).val / 2000, hq⟩
  have e0' : win0_10.index ⟨(i 0).val / 2000, hq⟩ (0 : Fin 2) = (i 0).val / 2000 := e0
  refine ⟨⟨(i 0).val / 2000, hq⟩, flush0_10 _, ?_⟩
  rw [mem_blk0]
  intro a
  match a with
  | ⟨0, _⟩ =>
    show win0_10.index ⟨(i 0).val / 2000, hq⟩ (0 : Fin 2) * 2000 ≤ (i 0).val
      ∧ (i 0).val < win0_10.index ⟨(i 0).val / 2000, hq⟩ (0 : Fin 2) * 2000 + 2000
    omega
  | ⟨1, _⟩ =>
    show win0_10.index ⟨(i 0).val / 2000, hq⟩ (1 : Fin 2) * 128 ≤ (i 1).val
      ∧ (i 1).val < win0_10.index ⟨(i 0).val / 2000, hq⟩ (1 : Fin 2) * 128 + 128
    omega

/-- The result array after region 0 is the layer of the arrays the region found. -/
theorem arr0_eq (c : Dev nD) : (Mlp0.dat (F := Ideal) V c).arrAt 10 cfg0.N = layerArr0 V c :=
  (Mlp0.dat V c).arrAt_eq_of_cover 10 (layerArr0 V c) (fun t _ => flushed0_eq V c t) cover0

/-- Read at node r, feature f: the row function of node r's summed row. -/
theorem arr0_apply (c : Dev nD) (r : Fin 50000) (f : Fin 128) :
    ((Mlp0.dat (F := Ideal) V c).arrAt 10 cfg0.N : FVec Ideal S50000x128 .f32) (ix2 r f)
      = rowAt (V c (Pipeline.arrRef spec0 0)) (V c (Pipeline.arrRef spec0 1)) (V c (Pipeline.arrRef spec0 2))
          (V c (Pipeline.arrRef spec0 4)) (V c (Pipeline.arrRef spec0 3)) (V c (Pipeline.arrRef spec0 5))
          (V c (Pipeline.arrRef spec0 6)) (V c (Pipeline.arrRef spec0 7)) (V c (Pipeline.arrRef spec0 8))
          (V c (Pipeline.arrRef spec0 9)) r f := by
  rw [arr0_eq]
  exact layerArr0_apply V c r f

end Launch0

/-! ## Launch 1 -/

/-- The printed index maps of launch 1, decided over its 25 points: the two node arrays and the result move one block of
    2000 rows per point, the eight parameter operands stay at their only block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The stored tile of launch 1 at (y, f): the layer's row function of tile row y. -/
theorem tile1_apply (x0 x1 : Vec Ideal S2000x128 .f32) (x2 : Vec Ideal S128x128 .f32) (x3 : Vec Ideal S1x128 .f32)
    (x4 : Vec Ideal S128x128 .f32) (x5 x6 x7 x8 x9 : Vec Ideal S1x128 .f32) (y : Fin 2000) (f : Fin 128) :
    Mlp1.tile x0 x1 x2 x3 x4 x5 x6 x7 x8 x9 (ix2 y f) = MlpValue.rowOf x0 x1 x2 x4 x3 x5 x6 x7 x8 x9 y f := by
  unfold Mlp1.tile
  simp only [View.ld_unit_zero (S := S2000x128) hz, View.ld_unit_zero (S := S128x128) hz, View.ld_unit_zero (S := S1x128) hz]
  exact MlpValue.layer1_apply x0 x1 x2 x4 x3 x5 x6 x7 x8 x9 y f

section Launch1
variable (V : (c : Dev nD) → (b : Ref sig .tc) → Buf (Elt Ideal) ((c : Thread nD τ).loc b))

/-- Point t's block of a node array, read at (y, k): the array at row 2000 t + y. -/
theorem iblk1_0 (c : Dev nD) (t : Fin cfg1.N) (y : Fin 2000) (k : Fin 128) (r : Fin 50000) (hr : r.val = t.val * 2000 + y.val) :
    Mlp1.iblk V c 0 t (ix2 y k) = (V c (Pipeline.arrRef spec1 0) : FVec Ideal S50000x128 .f32) (ix2 r k) := by
  obtain ⟨e0, e1, -⟩ := idx1 t
  show V c (Pipeline.arrRef spec1 0) (((cfg1.win 0).blk t).view.emb (ix2 y k)) = V c (Pipeline.arrRef spec1 0) (ix2 r k)
  refine congrArg _ (funext fun a => Fin.ext ?_)
  match a with
  | ⟨0, _⟩ => show win1_0.index t (0 : Fin 2) * 2000 + 1 * y.val = r.val; omega
  | ⟨1, _⟩ => show win1_0.index t (1 : Fin 2) * 128 + 1 * k.val = k.val; omega
theorem iblk1_1 (c : Dev nD) (t : Fin cfg1.N) (y : Fin 2000) (k : Fin 128) (r : Fin 50000) (hr : r.val = t.val * 2000 + y.val) :
    Mlp1.iblk V c 1 t (ix2 y k) = (V c (Pipeline.arrRef spec1 1) : FVec Ideal S50000x128 .f32) (ix2 r k) := by
  obtain ⟨-, -, e0, e1, -⟩ := idx1 t
  show V c (Pipeline.arrRef spec1 1) (((cfg1.win 1).blk t).view.emb (ix2 y k)) = V c (Pipeline.arrRef spec1 1) (ix2 r k)
  refine congrArg _ (funext fun a => Fin.ext ?_)
  match a with
  | ⟨0, _⟩ => show win1_1.index t (0 : Fin 2) * 2000 + 1 * y.val = r.val; omega
  | ⟨1, _⟩ => show win1_1.index t (1 : Fin 2) * 128 + 1 * k.val = k.val; omega
/-- A weight matrix's block is the whole matrix at every point. -/
theorem iblk1_2 (c : Dev nD) (t : Fin cfg1.N) (k j : Fin 128) :
    Mlp1.iblk V c 2 t (ix2 k j) = (V c (Pipeline.arrRef spec1 2) : FVec Ideal S128x128 .f32) (ix2 k j) := by
  obtain ⟨-, -, -, -, -, -, e0, e1, -⟩ := idx1 t
  show V c (Pipeline.arrRef spec1 2) (((cfg1.win 2).blk t).view.emb (ix2 k j)) = V c (Pipeline.arrRef spec1 2) (ix2 k j)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega
/-- A row vector's block is the whole row at every point. -/
theorem iblk1_3 (c : Dev nD) (t : Fin cfg1.N) (j : Fin 128) :
    Mlp1.iblk V c 3 t (ix2 0 j) = (V c (Pipeline.arrRef spec1 3) : FVec Ideal S1x128 .f32) (ix2 0 j) := by
  obtain ⟨-, -, -, -, -, -, -, -, e0, e1, -⟩ := idx1 t
  show V c (Pipeline.arrRef spec1 3) (((cfg1.win 3).blk t).view.emb (ix2 0 j)) = V c (Pipeline.arrRef spec1 3) (ix2 0 j)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega
theorem iblk1_4 (c : Dev nD) (t : Fin cfg1.N) (k j : Fin 128) :
    Mlp1.iblk V c 4 t (ix2 k j) = (V c (Pipeline.arrRef spec1 4) : FVec Ideal S128x128 .f32) (ix2 k j) := by
  obtain ⟨-, -, -, -, -, -, -, -, -, -, e0, e1, -⟩ := idx1 t
  show V c (Pipeline.arrRef spec1 4) (((cfg1.win 4).blk t).view.emb (ix2 k j)) = V c (Pipeline.arrRef spec1 4) (ix2 k j)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega
theorem iblk1_5 (c : Dev nD) (t : Fin cfg1.N) (j : Fin 128) :
    Mlp1.iblk V c 5 t (ix2 0 j) = (V c (Pipeline.arrRef spec1 5) : FVec Ideal S1x128 .f32) (ix2 0 j) := by
  obtain ⟨-, -, -, -, -, -, -, -, -, -, -, -, e0, e1, -⟩ := idx1 t
  show V c (Pipeline.arrRef spec1 5) (((cfg1.win 5).blk t).view.emb (ix2 0 j)) = V c (Pipeline.arrRef spec1 5) (ix2 0 j)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega
theorem iblk1_6 (c : Dev nD) (t : Fin cfg1.N) (j : Fin 128) :
    Mlp1.iblk V c 6 t (ix2 0 j) = (V c (Pipeline.arrRef spec1 6) : FVec Ideal S1x128 .f32) (ix2 0 j) := by
  obtain ⟨-, -, -, -, -, -, -, -, -, -, -, -, -, -, e0, e1, -⟩ := idx1 t
  show V c (Pipeline.arrRef spec1 6) (((cfg1.win 6).blk t).view.emb (ix2 0 j)) = V c (Pipeline.arrRef spec1 6) (ix2 0 j)
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega
theorem iblk1_7 (c : Dev nD) (t : Fin cfg1.N) (j : Fin 128) :
    Mlp1.iblk V c 7 t (ix2 0 j) = (V c (Pipeline.arrRef spec1 7) : FVec Ideal S1x128 .f32) (ix2 0 j) := by
  obtain ⟨-, -, -, -, -, -, -, -, -, -, -, -, -, -, -, -, e0, e1, -⟩ := idx1 t
  show V c (Pipeline.arrRef spec1 7) (((cfg1.win 7).blk t).view.emb (ix2 0 j)) = V c (Pipeline.arrRef spec1 7) (ix2 0 j)
  refine congrArg _ (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega
theorem iblk1_8 (c : Dev nD) (t : Fin cfg1.N) (j : Fin 128) :
    Mlp1.iblk V c 8 t (ix2 0 j) = (V c (Pipeline.arrRef spec1 8) : FVec Ideal S1x128 .f32) (ix2 0 j) := by
  obtain ⟨-, -, -, -, -, -, -, -, -, -, -, -, -, -, -, -, -, -, e0, e1, -⟩ := idx1 t
  show V c (Pipeline.arrRef spec1 8) (((cfg1.win 8).blk t).view.emb (ix2 0 j)) = V c (Pipeline.arrRef spec1 8) (ix2 0 j)
  refine congrArg _ (funext fun a => Fin.ext ?_)
  match a with
  | ⟨0, _⟩ => show win1_8.index t (0 : Fin 2) * 1 + 1 * 0 = 0; omega
  | ⟨1, _⟩ => show win1_8.index t (1 : Fin 2) * 128 + 1 * j.val = j.val; omega
theorem iblk1_9 (c : Dev nD) (t : Fin cfg1.N) (j : Fin 128) :
    Mlp1.iblk V c 9 t (ix2 0 j) = (V c (Pipeline.arrRef spec1 9) : FVec Ideal S1x128 .f32) (ix2 0 j) := by
  obtain ⟨-, -, -, -, -, -, -, -, -, -, -, -, -, -, -, -, -, -, -, -, e0, e1⟩ := idx1 t
  show V c (Pipeline.arrRef spec1 9) (((cfg1.win 9).blk t).view.emb (ix2 0 j)) = V c (Pipeline.arrRef spec1 9) (ix2 0 j)
  refine congrArg _ (funext fun a => Fin.ext ?_)
  match a with
  | ⟨0, _⟩ => show win1_9.index t (0 : Fin 2) * 1 + 1 * 0 = 0; omega
  | ⟨1, _⟩ => show win1_9.index t (1 : Fin 2) * 128 + 1 * j.val = j.val; omega

/-- The layer of the arrays region 1 finds, as one array over the nodes. -/
def layerArr1 (c : Dev nD) : FVec Ideal S50000x128 .f32 := fun i =>
  rowAt (V c (Pipeline.arrRef spec1 0)) (V c (Pipeline.arrRef spec1 1)) (V c (Pipeline.arrRef spec1 2))
    (V c (Pipeline.arrRef spec1 4)) (V c (Pipeline.arrRef spec1 3)) (V c (Pipeline.arrRef spec1 5))
    (V c (Pipeline.arrRef spec1 6)) (V c (Pipeline.arrRef spec1 7)) (V c (Pipeline.arrRef spec1 8))
    (V c (Pipeline.arrRef spec1 9)) ⟨(i 0).val, idx2_lt0 i⟩ ⟨(i 1).val, idx2_lt1 i⟩

theorem layerArr1_apply (c : Dev nD) (r : Fin 50000) (f : Fin 128) :
    layerArr1 V c (ix2 r f)
      = rowAt (V c (Pipeline.arrRef spec1 0)) (V c (Pipeline.arrRef spec1 1)) (V c (Pipeline.arrRef spec1 2))
          (V c (Pipeline.arrRef spec1 4)) (V c (Pipeline.arrRef spec1 3)) (V c (Pipeline.arrRef spec1 5))
          (V c (Pipeline.arrRef spec1 6)) (V c (Pipeline.arrRef spec1 7)) (V c (Pipeline.arrRef spec1 8))
          (V c (Pipeline.arrRef spec1 9)) r f := rfl

/-- What point t writes back is its block of that array: rows 2000 t .. 2000 t + 1999. -/
theorem flushed1_eq (c : Dev nD) (t : Fin cfg1.N) :
    (Mlp1.dat (F := Ideal) V c).flushed 10 t = ((cfg1.win 10).blk t).view.read (Elt Ideal) (layerArr1 V c) := by
  show (cfg1.win 10).cut (grid1.coords t) ((Mlp1.dat V c).after 10 t) = _
  rw [Mlp1.after_10]
  unfold Mlp1.out10
  rw [View.canon_unit_zero hz]
  funext j
  obtain ⟨y, f, rfl⟩ : ∃ (y : Fin 2000) (f : Fin 128), j = ix2 y f := ⟨j 0, j 1, eq_ix2 j⟩
  show Mlp1.tile (Mlp1.iblk V c 0 t) (Mlp1.iblk V c 1 t) (Mlp1.iblk V c 2 t) (Mlp1.iblk V c 3 t) (Mlp1.iblk V c 4 t)
        (Mlp1.iblk V c 5 t) (Mlp1.iblk V c 6 t) (Mlp1.iblk V c 7 t) (Mlp1.iblk V c 8 t) (Mlp1.iblk V c 9 t) (ix2 y f)
      = layerArr1 V c (((cfg1.win 10).blk t).view.emb (ix2 y f))
  refine (tile1_apply _ _ _ _ _ _ _ _ _ _ y f).trans ?_
  have ht : t.val < 25 := t.isLt
  have hr : t.val * 2000 + y.val < 50000 := by omega
  have e : ((cfg1.win 10).blk t).view.emb (ix2 y f) = (ix2 (⟨t.val * 2000 + y.val, hr⟩ : Fin 50000) f : S50000x128.Idx) := by
    obtain ⟨-, -, -, -, e0, e1, -⟩ := idx1 t
    refine funext fun a => Fin.ext ?_
    match a with
    | ⟨0, _⟩ => show win1_10.index t (0 : Fin 2) * 2000 + 1 * y.val = t.val * 2000 + y.val; omega
    | ⟨1, _⟩ => show win1_10.index t (1 : Fin 2) * 128 + 1 * f.val = f.val; omega
  rw [e, layerArr1_apply]
  exact rowOf_eq_rowAt _ _ _ _ _ _ _ _ _ _ _ _ _ _ _ _ _ _ _ _ y ⟨_, hr⟩ f
    (fun k => iblk1_0 V c t y k _ rfl) (fun k => iblk1_1 V c t y k _ rfl) (iblk1_2 V c t) (iblk1_4 V c t)
    (iblk1_3 V c t) (iblk1_5 V c t) (iblk1_6 V c t) (iblk1_7 V c t) (iblk1_8 V c t) (iblk1_9 V c t)

/-- An index of the node array is in point t's block iff each coordinate is in the block's range on its axis. -/
theorem mem_blk1 (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v70).slice (win1_10.rect t)).set ↔ _
  rw [View.set_slice_whole, Rect.mem_set_unit]
  exact Iff.rfl

/-- Every node row is in some point's block: row r in point r / 2000's. -/
theorem cover1 (i : S50000x128.Idx) : ∃ t : Fin cfg1.N, (cfg1.win 10).flush t = true ∧ i ∈ ((cfg1.win 10).blk t).view.set := by
  have hi0 : (i 0).val < 50000 := idx2_lt0 i
  have hi1 : (i 1).val < 128 := idx2_lt1 i
  have hq : (i 0).val / 2000 < 25 := by omega
  obtain ⟨-, -, -, -, e0, e1, -⟩ := idx1 ⟨(i 0).val / 2000, hq⟩
  have e0' : win1_10.index ⟨(i 0).val / 2000, hq⟩ (0 : Fin 2) = (i 0).val / 2000 := e0
  refine ⟨⟨(i 0).val / 2000, hq⟩, flush1_10 _, ?_⟩
  rw [mem_blk1]
  intro a
  match a with
  | ⟨0, _⟩ =>
    show win1_10.index ⟨(i 0).val / 2000, hq⟩ (0 : Fin 2) * 2000 ≤ (i 0).val
      ∧ (i 0).val < win1_10.index ⟨(i 0).val / 2000, hq⟩ (0 : Fin 2) * 2000 + 2000
    omega
  | ⟨1, _⟩ =>
    show win1_10.index ⟨(i 0).val / 2000, hq⟩ (1 : Fin 2) * 128 ≤ (i 1).val
      ∧ (i 1).val < win1_10.index ⟨(i 0).val / 2000, hq⟩ (1 : Fin 2) * 128 + 128
    omega

/-- The result array after region 1 is the layer of the arrays the region found. -/
theorem arr1_eq (c : Dev nD) : (Mlp1.dat (F := Ideal) V c).arrAt 10 cfg1.N = layerArr1 V c :=
  (Mlp1.dat V c).arrAt_eq_of_cover 10 (layerArr1 V c) (fun t _ => flushed1_eq V c t) cover1

/-- Read at node r, feature f: the row function of node r's summed row. -/
theorem arr1_apply (c : Dev nD) (r : Fin 50000) (f : Fin 128) :
    ((Mlp1.dat (F := Ideal) V c).arrAt 10 cfg1.N : FVec Ideal S50000x128 .f32) (ix2 r f)
      = rowAt (V c (Pipeline.arrRef spec1 0)) (V c (Pipeline.arrRef spec1 1)) (V c (Pipeline.arrRef spec1 2))
          (V c (Pipeline.arrRef spec1 4)) (V c (Pipeline.arrRef spec1 3)) (V c (Pipeline.arrRef spec1 5))
          (V c (Pipeline.arrRef spec1 6)) (V c (Pipeline.arrRef spec1 7)) (V c (Pipeline.arrRef spec1 8))
          (V c (Pipeline.arrRef spec1 9)) r f := by
  rw [arr1_eq]
  exact layerArr1_apply V c r f

end Launch1

/-! ## Launch 2 -/

/-- The printed index maps of launch 2, decided over its 25 points: the two node arrays and the result move one block of
    2000 rows per point, the eight parameter operands stay at their only block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_10.index t (0 : Fin 2) = t.val ∧ win2_10.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- The stored tile of launch 2 at (y, f): the layer's row function of tile row y. -/
theorem tile2_apply (x0 x1 : Vec Ideal S2000x128 .f32) (x2 : Vec Ideal S128x128 .f32) (x3 : Vec Ideal S1x128 .f32)
    (x4 : Vec Ideal S128x128 .f32) (x5 x6 x7 x8 x9 : Vec Ideal S1x128 .f32) (y : Fin 2000) (f : Fin 128) :
    Mlp2.tile x0 x1 x2 x3 x4 x5 x6 x7 x8 x9 (ix2 y f) = MlpValue.rowOf x0 x1 x2 x4 x3 x5 x6 x7 x8 x9 y f := by
  unfold Mlp2.tile
  simp only [View.ld_unit_zero (S := S2000x128) hz, View.ld_unit_zero (S := S128x128) hz, View.ld_unit_zero (S := S1x128) hz]
  exact MlpValue.layer2_apply x0 x1 x2 x4 x3 x5 x6 x7 x8 x9 y f

section Launch2
variable (V : (c : Dev nD) → (b : Ref sig .tc) → Buf (Elt Ideal) ((c : Thread nD τ).loc b))

/-- Point t's block of a node array, read at (y, k): the array at row 2000 t + y. -/
theorem iblk2_0 (c : Dev nD) (t : Fin cfg2.N) (y : Fin 2000) (k : Fin 128) (r : Fin 50000) (hr : r.val = t.val * 2000 + y.val) :
    Mlp2.iblk V c 0 t (ix2 y k) = (V c (Pipeline.arrRef spec2 0) : FVec Ideal S50000x128 .f32) (ix2 r k) := by
  obtain ⟨e0, e1, -⟩ := idx2 t
  show V c (Pipeline.arrRef spec2 0) (((cfg2.win 0).blk t).view.emb (ix2 y k)) = V c (Pipeline.arrRef spec2 0) (ix2 r k)
  refine congrArg _ (funext fun a => Fin.ext ?_)
  match a with
  | ⟨0, _⟩ => show win2_0.index t (0 : Fin 2) * 2000 + 1 * y.val = r.val; omega
  | ⟨1, _⟩ => show win2_0.index t (1 : Fin 2) * 128 + 1 * k.val = k.val; omega
theorem iblk2_1 (c : Dev nD) (t : Fin cfg2.N) (y : Fin 2000) (k : Fin 128) (r : Fin 50000) (hr : r.val = t.val * 2000 + y.val) :
    Mlp2.iblk V c 1 t (ix2 y k) = (V c (Pipeline.arrRef spec2 1) : FVec Ideal S50000x128 .f32) (ix2 r k) := by
  obtain ⟨-, -, e0, e1, -⟩ := idx2 t
  show V c (Pipeline.arrRef spec2 1) (((cfg2.win 1).blk t).view.emb (ix2 y k)) = V c (Pipeline.arrRef spec2 1) (ix2 r k)
  refine congrArg _ (funext fun a => Fin.ext ?_)
  match a with
  | ⟨0, _⟩ => show win2_1.index t (0 : Fin 2) * 2000 + 1 * y.val = r.val; omega
  | ⟨1, _⟩ => show win2_1.index t (1 : Fin 2) * 128 + 1 * k.val = k.val; omega
/-- A weight matrix's block is the whole matrix at every point. -/
theorem iblk2_2 (c : Dev nD) (t : Fin cfg2.N) (k j : Fin 128) :
    Mlp2.iblk V c 2 t (ix2 k j) = (V c (Pipeline.arrRef spec2 2) : FVec Ideal S128x128 .f32) (ix2 k j) := by
  obtain ⟨-, -, -, -, -, -, e0, e1, -⟩ := idx2 t
  show V c (Pipeline.arrRef spec2 2) (((cfg2.win 2).blk t).view.emb (ix2 k j)) = V c (Pipeline.arrRef spec2 2) (ix2 k j)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega
/-- A row vector's block is the whole row at every point. -/
theorem iblk2_3 (c : Dev nD) (t : Fin cfg2.N) (j : Fin 128) :
    Mlp2.iblk V c 3 t (ix2 0 j) = (V c (Pipeline.arrRef spec2 3) : FVec Ideal S1x128 .f32) (ix2 0 j) := by
  obtain ⟨-, -, -, -, -, -, -, -, e0, e1, -⟩ := idx2 t
  show V c (Pipeline.arrRef spec2 3) (((cfg2.win 3).blk t).view.emb (ix2 0 j)) = V c (Pipeline.arrRef spec2 3) (ix2 0 j)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * j.val = j.val; omega
theorem iblk2_4 (c : Dev nD) (t : Fin cfg2.N) (k j : Fin 128) :
    Mlp2.iblk V c 4 t (ix2 k j) = (V c (Pipeline.arrRef spec2 4) : FVec Ideal S128x128 .f32) (ix2 k j) := by
  obtain ⟨-, -, -, -, -, -, -, -, -, -, e0, e1, -⟩ := idx2 t
  show V c (Pipeline.arrRef spec2 4) (((cfg2.win 4).blk t).view.emb (ix2 k j)) = V c (Pipeline.arrRef spec2 4) (ix2 k j)
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * j.val = j.val; omega
theorem iblk2_5 (c : Dev nD) (t : Fin cfg2.N) (j : Fin 128) :
    Mlp2.iblk V c 5 t (ix2 0 j) = (V c (Pipeline.arrRef spec2 5) : FVec Ideal S1x128 .f32) (ix2 0 j) := by
  obtain ⟨-, -, -, -, -, -, -, -, -, -, -, -, e0, e1, -⟩ := idx2 t
  show V c (Pipeline.arrRef spec2 5) (((cfg2.win 5).blk t).view.emb (ix2 0 j)) = V c (Pipeline.arrRef spec2 5) (ix2 0 j)
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * j.val = j.val; omega
theorem iblk2_6 (c : Dev nD) (t : Fin cfg2.N) (j : Fin 128) :
    Mlp2.iblk V c 6 t (ix2 0 j) = (V c (Pipeline.arrRef spec2 6) : FVec Ideal S1x128 .f32) (ix2 0 j) := by
  obtain ⟨-, -, -, -, -, -, -, -, -, -, -, -, -, -, e0, e1, -⟩ := idx2 t
  show V c (Pipeline.arrRef spec2 6) (((cfg2.win 6).blk t).view.emb (ix2 0 j)) = V c (Pipeline.arrRef spec2 6) (ix2 0 j)
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * j.val = j.val; omega
theorem iblk2_7 (c : Dev nD) (t : Fin cfg2.N) (j : Fin 128) :
    Mlp2.iblk V c 7 t (ix2 0 j) = (V c (Pipeline.arrRef spec2 7) : FVec Ideal S1x128 .f32) (ix2 0 j) := by
  obtain ⟨-, -, -, -, -, -, -, -, -, -, -, -, -, -, -, -, e0, e1, -⟩ := idx2 t
  show V c (Pipeline.arrRef spec2 7) (((cfg2.win 7).blk t).view.emb (ix2 0 j)) = V c (Pipeline.arrRef spec2 7) (ix2 0 j)
  refine congrArg _ (funext fun a => Fin.ext ?_)
  match a with
  | ⟨0, _⟩ => show win2_7.index t (0 : Fin 2) * 1 + 1 * 0 = 0; omega
  | ⟨1, _⟩ => show win2_7.index t (1 : Fin 2) * 128 + 1 * j.val = j.val; omega
theorem iblk2_8 (c : Dev nD) (t : Fin cfg2.N) (j : Fin 128) :
    Mlp2.iblk V c 8 t (ix2 0 j) = (V c (Pipeline.arrRef spec2 8) : FVec Ideal S1x128 .f32) (ix2 0 j) := by
  obtain ⟨-, -, -, -, -, -, -, -, -, -, -, -, -, -, -, -, -, -, e0, e1, -⟩ := idx2 t
  show V c (Pipeline.arrRef spec2 8) (((cfg2.win 8).blk t).view.emb (ix2 0 j)) = V c (Pipeline.arrRef spec2 8) (ix2 0 j)
  refine congrArg _ (funext fun a => Fin.ext ?_)
  match a with
  | ⟨0, _⟩ => show win2_8.index t (0 : Fin 2) * 1 + 1 * 0 = 0; omega
  | ⟨1, _⟩ => show win2_8.index t (1 : Fin 2) * 128 + 1 * j.val = j.val; omega
theorem iblk2_9 (c : Dev nD) (t : Fin cfg2.N) (j : Fin 128) :
    Mlp2.iblk V c 9 t (ix2 0 j) = (V c (Pipeline.arrRef spec2 9) : FVec Ideal S1x128 .f32) (ix2 0 j) := by
  obtain ⟨-, -, -, -, -, -, -, -, -, -, -, -, -, -, -, -, -, -, -, -, e0, e1⟩ := idx2 t
  show V c (Pipeline.arrRef spec2 9) (((cfg2.win 9).blk t).view.emb (ix2 0 j)) = V c (Pipeline.arrRef spec2 9) (ix2 0 j)
  refine congrArg _ (funext fun a => Fin.ext ?_)
  match a with
  | ⟨0, _⟩ => show win2_9.index t (0 : Fin 2) * 1 + 1 * 0 = 0; omega
  | ⟨1, _⟩ => show win2_9.index t (1 : Fin 2) * 128 + 1 * j.val = j.val; omega

/-- The layer of the arrays region 2 finds, as one array over the nodes. -/
def layerArr2 (c : Dev nD) : FVec Ideal S50000x128 .f32 := fun i =>
  rowAt (V c (Pipeline.arrRef spec2 0)) (V c (Pipeline.arrRef spec2 1)) (V c (Pipeline.arrRef spec2 2))
    (V c (Pipeline.arrRef spec2 4)) (V c (Pipeline.arrRef spec2 3)) (V c (Pipeline.arrRef spec2 5))
    (V c (Pipeline.arrRef spec2 6)) (V c (Pipeline.arrRef spec2 7)) (V c (Pipeline.arrRef spec2 8))
    (V c (Pipeline.arrRef spec2 9)) ⟨(i 0).val, idx2_lt0 i⟩ ⟨(i 1).val, idx2_lt1 i⟩

theorem layerArr2_apply (c : Dev nD) (r : Fin 50000) (f : Fin 128) :
    layerArr2 V c (ix2 r f)
      = rowAt (V c (Pipeline.arrRef spec2 0)) (V c (Pipeline.arrRef spec2 1)) (V c (Pipeline.arrRef spec2 2))
          (V c (Pipeline.arrRef spec2 4)) (V c (Pipeline.arrRef spec2 3)) (V c (Pipeline.arrRef spec2 5))
          (V c (Pipeline.arrRef spec2 6)) (V c (Pipeline.arrRef spec2 7)) (V c (Pipeline.arrRef spec2 8))
          (V c (Pipeline.arrRef spec2 9)) r f := rfl

/-- What point t writes back is its block of that array: rows 2000 t .. 2000 t + 1999. -/
theorem flushed2_eq (c : Dev nD) (t : Fin cfg2.N) :
    (Mlp2.dat (F := Ideal) V c).flushed 10 t = ((cfg2.win 10).blk t).view.read (Elt Ideal) (layerArr2 V c) := by
  show (cfg2.win 10).cut (grid2.coords t) ((Mlp2.dat V c).after 10 t) = _
  rw [Mlp2.after_10]
  unfold Mlp2.out10
  rw [View.canon_unit_zero hz]
  funext j
  obtain ⟨y, f, rfl⟩ : ∃ (y : Fin 2000) (f : Fin 128), j = ix2 y f := ⟨j 0, j 1, eq_ix2 j⟩
  show Mlp2.tile (Mlp2.iblk V c 0 t) (Mlp2.iblk V c 1 t) (Mlp2.iblk V c 2 t) (Mlp2.iblk V c 3 t) (Mlp2.iblk V c 4 t)
        (Mlp2.iblk V c 5 t) (Mlp2.iblk V c 6 t) (Mlp2.iblk V c 7 t) (Mlp2.iblk V c 8 t) (Mlp2.iblk V c 9 t) (ix2 y f)
      = layerArr2 V c (((cfg2.win 10).blk t).view.emb (ix2 y f))
  refine (tile2_apply _ _ _ _ _ _ _ _ _ _ y f).trans ?_
  have ht : t.val < 25 := t.isLt
  have hr : t.val * 2000 + y.val < 50000 := by omega
  have e : ((cfg2.win 10).blk t).view.emb (ix2 y f) = (ix2 (⟨t.val * 2000 + y.val, hr⟩ : Fin 50000) f : S50000x128.Idx) := by
    obtain ⟨-, -, -, -, e0, e1, -⟩ := idx2 t
    refine funext fun a => Fin.ext ?_
    match a with
    | ⟨0, _⟩ => show win2_10.index t (0 : Fin 2) * 2000 + 1 * y.val = t.val * 2000 + y.val; omega
    | ⟨1, _⟩ => show win2_10.index t (1 : Fin 2) * 128 + 1 * f.val = f.val; omega
  rw [e, layerArr2_apply]
  exact rowOf_eq_rowAt _ _ _ _ _ _ _ _ _ _ _ _ _ _ _ _ _ _ _ _ y ⟨_, hr⟩ f
    (fun k => iblk2_0 V c t y k _ rfl) (fun k => iblk2_1 V c t y k _ rfl) (iblk2_2 V c t) (iblk2_4 V c t)
    (iblk2_3 V c t) (iblk2_5 V c t) (iblk2_6 V c t) (iblk2_7 V c t) (iblk2_8 V c t) (iblk2_9 V c t)

/-- An index of the node array is in point t's block iff each coordinate is in the block's range on its axis. -/
theorem mem_blk2 (t : Fin cfg2.N) (i : S50000x128.Idx) :
    i ∈ ((cfg2.win 10).blk t).view.set ↔ ∀ a : Fin 2, win2_10.index t a * S2000x128.size a ≤ (i a).val
      ∧ (i a).val < win2_10.index t a * S2000x128.size a + S2000x128.size a := by
  show i ∈ ((View.whole main_v103).slice (win2_10.rect t)).set ↔ _
  rw [View.set_slice_whole, Rect.mem_set_unit]
  exact Iff.rfl

/-- Every node row is in some point's block: row r in point r / 2000's. -/
theorem cover2 (i : S50000x128.Idx) : ∃ t : Fin cfg2.N, (cfg2.win 10).flush t = true ∧ i ∈ ((cfg2.win 10).blk t).view.set := by
  have hi0 : (i 0).val < 50000 := idx2_lt0 i
  have hi1 : (i 1).val < 128 := idx2_lt1 i
  have hq : (i 0).val / 2000 < 25 := by omega
  obtain ⟨-, -, -, -, e0, e1, -⟩ := idx2 ⟨(i 0).val / 2000, hq⟩
  have e0' : win2_10.index ⟨(i 0).val / 2000, hq⟩ (0 : Fin 2) = (i 0).val / 2000 := e0
  refine ⟨⟨(i 0).val / 2000, hq⟩, flush2_10 _, ?_⟩
  rw [mem_blk2]
  intro a
  match a with
  | ⟨0, _⟩ =>
    show win2_10.index ⟨(i 0).val / 2000, hq⟩ (0 : Fin 2) * 2000 ≤ (i 0).val
      ∧ (i 0).val < win2_10.index ⟨(i 0).val / 2000, hq⟩ (0 : Fin 2) * 2000 + 2000
    omega
  | ⟨1, _⟩ =>
    show win2_10.index ⟨(i 0).val / 2000, hq⟩ (1 : Fin 2) * 128 ≤ (i 1).val
      ∧ (i 1).val < win2_10.index ⟨(i 0).val / 2000, hq⟩ (1 : Fin 2) * 128 + 128
    omega

/-- The result array after region 2 is the layer of the arrays the region found. -/
theorem arr2_eq (c : Dev nD) : (Mlp2.dat (F := Ideal) V c).arrAt 10 cfg2.N = layerArr2 V c :=
  (Mlp2.dat V c).arrAt_eq_of_cover 10 (layerArr2 V c) (fun t _ => flushed2_eq V c t) cover2

/-- Read at node r, feature f: the row function of node r's summed row. -/
theorem arr2_apply (c : Dev nD) (r : Fin 50000) (f : Fin 128) :
    ((Mlp2.dat (F := Ideal) V c).arrAt 10 cfg2.N : FVec Ideal S50000x128 .f32) (ix2 r f)
      = rowAt (V c (Pipeline.arrRef spec2 0)) (V c (Pipeline.arrRef spec2 1)) (V c (Pipeline.arrRef spec2 2))
          (V c (Pipeline.arrRef spec2 4)) (V c (Pipeline.arrRef spec2 3)) (V c (Pipeline.arrRef spec2 5))
          (V c (Pipeline.arrRef spec2 6)) (V c (Pipeline.arrRef spec2 7)) (V c (Pipeline.arrRef spec2 8))
          (V c (Pipeline.arrRef spec2 9)) r f := by
  rw [arr2_eq]
  exact layerArr2_apply V c r f

end Launch2

end Cert.KernelIdeal.MlpArr

end
-- ==== Proof.PoolKernel.lean ====
/-
  The read-out kernel's three stored values read at one coordinate. The accumulator step adds, to what the scratch held,
  the tile's per-graph sums: the 0/1 matrix of "node y belongs to graph g" (the node's graph id word compared with the
  lane number) contracted with the tile's features over the 2000 nodes. The last step is the linear read-out of the
  accumulator. The changes of float format are the identity on the extended reals.
-/
import proofs.«418468_j32066225832278_1_alg».proof.Proof.Gen.KernelIdeal.Skeleton
import proofs.«418468_j32066225832278_1_alg».proof.Proof.GinSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PoolValue

open Idealize.ShloMosaic Idealize.ShloMosaic.ValueIdx Cert.KernelIdeal Cert.KernelIdeal.Gen

/-- The word test as an extended real: the one-bit comparison of two words, widened and read as a signed integer. -/
theorem weight_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    rw [if_pos rfl]
    have : IntOp.cmpi .eq a a = 1#1 := by simp [IntOp.cmpi]
    rw [this]
    norm_num
  · rw [if_neg h]
    have hb : (a == b) = false := beq_eq_false_iff_ne.mpr h
    have : IntOp.cmpi .eq a b = 0#1 := by simp [IntOp.cmpi, hb]
    rw [this]
    norm_num

/-- The scratch's reset value is zero everywhere. -/
theorem reset_apply (g d : Fin 128) : k3_pay1 (F := Ideal) (ix2 g d) = 0 := by
  unfold k3_pay1
  rw [shapeCast_self]
  show Ideal.ofBits .f32 0x00000000#32 = 0
  exact Ideal.ofBits_zero_f32

/-- The 0/1 weight of the accumulation step at (node y, graph g): the node's id word against the lane number. -/
theorem weight_apply (bb : Vec Ideal S2000x1 .i32) (y : Fin 2000) (g : Fin 128) :
    (sitofp (F := Ideal) .f32 (extui 32 (cmpi .eq
        (broadcastTo S2000x128 (shapeCast S2000x1 bb shapeCasts_S2000x1_S2000x1) broadcasts_S2000x1_S2000x128)
        (iota .tc S2000x128 32 [1] iota_S2000x128_d1_w32)) natLt_1_32) : FVec Ideal S2000x128 .f32) (ix2 y g)
      = GinSpec.hit (bb (ix2 y 0)) g := by
  rw [sitofp_apply, extui_apply]
  show FloatOps.sitofp (F := Ideal) .f32 ((IntOp.cmpi .eq _ _).setWidth 32) = _
  rw [weight_word, iota_single_apply, shapeCast_self,
    broadcastTo_apply bb broadcasts_S2000x1_S2000x128 (ix2 y g) (ix2 y 0) (fun a => by
      match a with
      | ⟨0, _⟩ => rfl
      | ⟨1, _⟩ => rfl)]
  rfl

/-! The accumulation's contraction runs over axis 0 of both operands (the nodes); the coordinates of the two operand
    indices, axis by axis. -/

theorem lhs_pool_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q

theorem lhs_pool_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide),
    dif_pos (show (1 : Fin S2000x128.rank) ∈ dot_S2000x128_S2000x128_S128x128_0_0_1_1_n_n.lhsNonContracting by decide)]
  rfl

theorem rhs_pool_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q

theorem rhs_pool_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide),
    dif_pos (show (1 : Fin S2000x128.rank) ∈ dot_S2000x128_S2000x128_S128x128_0_0_1_1_n_n.rhsNonContracting by decide)]
  rfl

/-- The accumulation's product at (g, d): the sum over the nodes y of the left operand at (y, g) times the right at (y, d). -/
theorem pool_matmul_apply (A B : FVec Ideal S2000x128 .bf16) (g d : Fin 128) :
    matmul dot_S2000x128_S2000x128_S128x128_0_0_1_1_n_n none A B (constant S128x128 .f32 0x00000000#32) (ix2 g d)
      = ∑ y : Fin 2000, A (ix2 y g) * B (ix2 y d) := by
  simp only [matmul]
  rw [Ideal.matmul_constant_zero_apply,
    ← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 g d)
      ((contrEquiv1 dot_S2000x128_S2000x128_S128x128_0_0_1_1_n_n 2000 rfl rfl).symm k) = ix2 k g :=
    funext fun a => Fin.ext (by
      match a with
      | ⟨0, _⟩ => exact (lhs_pool_0 _ _).trans hk
      | ⟨1, _⟩ => exact lhs_pool_1 _ _)
  have er : dot_S2000x128_S2000x128_S128x128_0_0_1_1_n_n.rhsIdx (ix2 g d)
      ((contrEquiv1 dot_S2000x128_S2000x128_S128x128_0_0_1_1_n_n 2000 rfl rfl).symm k) = ix2 k d :=
    funext fun a => Fin.ext (by
      match a with
      | ⟨0, _⟩ => exact (rhs_pool_0 _ _).trans hk
      | ⟨1, _⟩ => exact rhs_pool_1 _ _)
  rw [el, er]

/-- One accumulation step at (graph g, feature d). -/
theorem step_apply (bb : Vec Ideal S2000x1 .i32) (hb : Vec Ideal S2000x128 .f32) (acc : Vec Ideal S128x128 .f32)
    (g d : Fin 128) :
    k3_pay2 (F := Ideal) bb hb acc (ix2 g d)
      = acc (ix2 g d) + GinSpec.pooledTile (fun y k => hb (ix2 y k)) (fun y => bb (ix2 y 0)) g d := by
  unfold k3_pay2
  rw [shapeCast_self, addf_apply, pool_matmul_apply]
  unfold GinSpec.pooledTile
  refine congrArg (acc (ix2 g d) + ·) (Finset.sum_congr rfl fun y _ => ?_)
  rw [truncf_apply, truncf_apply, weight_apply, shapeCast_self]

/-! The read-out's contraction runs over axis 1 of the accumulator and axis 0 of the weights (the features). -/

theorem lhs_cls_0 (i : S128x16.Idx) (q : dot_S128x128_S128x16_S128x16_1_0_0_1_n_n.contr.Idx) :
    (dot_S128x128_S128x16_S128x16_1_0_0_1_n_n.lhsIdx i q 0).val = (i 0).val := by
  unfold DotDims.lhsIdx
  rw [dif_neg (show ¬(0 : Fin S128x128.rank) ∈ dot_S128x128_S128x16_S128x16_1_0_0_1_n_n.lhsBatch by decide),
    dif_pos (show (0 : Fin S128x128.rank) ∈ dot_S128x128_S128x16_S128x16_1_0_0_1_n_n.lhsNonContracting by decide)]
  rfl

theorem lhs_cls_1 (i : S128x16.Idx) (q : dot_S128x128_S128x16_S128x16_1_0_0_1_n_n.contr.Idx) :
    (dot_S128x128_S128x16_S128x16_1_0_0_1_n_n.lhsIdx i q 1).val = (q ⟨0, by decide⟩).val :=
  dot_S128x128_S128x16_S128x16_1_0_0_1_n_n.lhsIdx_val_of_single rfl i q

theorem rhs_cls_0 (i : S128x16.Idx) (q : dot_S128x128_S128x16_S128x16_1_0_0_1_n_n.contr.Idx) :
    (dot_S128x128_S128x16_S128x16_1_0_0_1_n_n.rhsIdx i q 0).val = (q ⟨0, by decide⟩).val :=
  dot_S128x128_S128x16_S128x16_1_0_0_1_n_n.rhsIdx_val_of_single rfl i q

theorem rhs_cls_1 (i : S128x16.Idx) (q : dot_S128x128_S128x16_S128x16_1_0_0_1_n_n.contr.Idx) :
    (dot_S128x128_S128x16_S128x16_1_0_0_1_n_n.rhsIdx i q 1).val = (i 1).val := by
  unfold DotDims.rhsIdx
  rw [dif_neg (show ¬(1 : Fin S128x16.rank) ∈ dot_S128x128_S128x16_S128x16_1_0_0_1_n_n.rhsBatch by decide),
    dif_pos (show (1 : Fin S128x16.rank) ∈ dot_S128x128_S128x16_S128x16_1_0_0_1_n_n.rhsNonContracting by decide)]
  rfl

/-- The read-out's product at (g, o): the sum over the features k of the left operand at (g, k) times the right at (k, o). -/
theorem cls_matmul_apply (A : FVec Ideal S128x128 .bf16) (B : FVec Ideal S128x16 .bf16) (g : Fin 128) (o : Fin 16) :
    matmul dot_S128x128_S128x16_S128x16_1_0_0_1_n_n none A B (constant S128x16 .f32 0x00000000#32) (ix2 g o)
      = ∑ k : Fin 128, A (ix2 g k) * B (ix2 k o) := by
  simp only [matmul]
  rw [Ideal.matmul_constant_zero_apply,
    ← Equiv.sum_comp (contrEquiv1 dot_S128x128_S128x16_S128x16_1_0_0_1_n_n 128 rfl rfl).symm]
  refine Finset.sum_congr rfl fun k _ => ?_
  have hk := contrEquiv1_symm_val dot_S128x128_S128x16_S128x16_1_0_0_1_n_n 128 rfl rfl k
  have el : dot_S128x128_S128x16_S128x16_1_0_0_1_n_n.lhsIdx (ix2 g o)
      ((contrEquiv1 dot_S128x128_S128x16_S128x16_1_0_0_1_n_n 128 rfl rfl).symm k) = ix2 g k :=
    funext fun a => Fin.ext (by
      match a with
      | ⟨0, _⟩ => exact lhs_cls_0 _ _
      | ⟨1, _⟩ => exact (lhs_cls_1 _ _).trans hk)
  have er : dot_S128x128_S128x16_S128x16_1_0_0_1_n_n.rhsIdx (ix2 g o)
      ((contrEquiv1 dot_S128x128_S128x16_S128x16_1_0_0_1_n_n 128 rfl rfl).symm k) = ix2 k o :=
    funext fun a => Fin.ext (by
      match a with
      | ⟨0, _⟩ => exact (rhs_cls_0 _ _).trans hk
      | ⟨1, _⟩ => exact rhs_cls_1 _ _)
  rw [el, er]

/-- The read-out of the accumulator at (graph g, class o). -/
theorem readout_apply (acc : Vec Ideal S128x128 .f32) (wc : Vec Ideal S128x16 .f32) (bc : Vec Ideal S1x16 .f32)
    (g : Fin 128) (o : Fin 16) :
    k3_pay3 (F := Ideal) acc wc bc (ix2 g o)
      = GinSpec.classify (fun g d => acc (ix2 g d)) (fun d o => wc (ix2 d o)) (fun o => bc (ix2 0 o)) g o := by
  unfold k3_pay3
  rw [addf_apply, cls_matmul_apply, shapeCast_self,
    broadcastTo_apply bc broadcasts_S1x16_S128x16 (ix2 g o) (ix2 0 o) (fun a => by
      match a with
      | ⟨0, _⟩ => rfl
      | ⟨1, _⟩ => rfl)]
  unfold GinSpec.classify
  refine congrArg (· + bc (ix2 0 o)) (Finset.sum_congr rfl fun k _ => ?_)
  rw [truncf_apply, truncf_apply]

end Cert.KernelIdeal.PoolValue

end
-- ==== Proof.PoolFold.lean ====
/-
  The per-graph sum over the 50000 nodes is the sum, over the 25 tiles of 2000 consecutive nodes, of the tiles' sums;
  and an accumulator that starts at zero plus the first tile's sum and adds one tile's sum per step holds, after the
  last step, that total. Addition on the extended reals is commutative and associative, so no finiteness is needed.
-/
import proofs.«418468_j32066225832278_1_alg».proof.Proof.GinSpec
import Mathlib.Algebra.BigOperators.Fin

noncomputable section

namespace Cert.GinSpec

open Idealize.ShloMosaic

/-- Node 2000 t + y, the y-th node of tile t. -/
def node (t : Fin 25) (y : Fin 2000) : Fin 50000 := ⟨2000 * t.val + y.val, by omega⟩

/-- Every node is the y-th node of exactly one tile t: t is the quotient and y the remainder of its number by 2000. -/
def nodeEquiv : Fin 25 × Fin 2000 ≃ Fin 50000 where
  toFun p := node p.1 p.2
  invFun r := (⟨r.val / 2000, by omega⟩, ⟨r.val % 2000, by omega⟩)
  left_inv p := by
    obtain ⟨t, y⟩ := p
    refine Prod.ext (Fin.ext ?_) (Fin.ext ?_)
    · show (2000 * t.val + y.val) / 2000 = t.val
      omega
    · show (2000 * t.val + y.val) % 2000 = y.val
      omega
  right_inv r := by
    refine Fin.ext ?_
    show 2000 * (r.val / 2000) + r.val % 2000 = r.val
    omega

/-- A sum over the nodes, tile by tile. -/
theorem sum_nodes (f : Fin 50000 → EReal) : ∑ r : Fin 50000, f r = ∑ t : Fin 25, ∑ y : Fin 2000, f (node t y) := by
  calc ∑ r : Fin 50000, f r = ∑ p : Fin 25 × Fin 2000, f (node p.1 p.2) :=
        (Fintype.sum_equiv nodeEquiv _ _ (fun _ => rfl)).symm
    _ = ∑ t : Fin 25, ∑ y : Fin 2000, f (node t y) := Fintype.sum_prod_type' (fun t y => f (node t y))

/-- The per-graph sum, tile by tile. -/
theorem pooled_eq_tiles (h : Fin 50000 → Fin 128 → EReal) (batch : Fin 50000 → BitVec 32) (g d : Fin 128) :
    pooled h batch g d = ∑ t : Fin 25, pooledTile (fun y k => h (node t y) k) (fun y => batch (node t y)) g d := by
  unfold pooled pooledTile
  exact sum_nodes (fun r => hit (batch r) g * h r d)

/-- An accumulator run: `a 0 = 0 + f 0`, `a (n+1) = a n + f (n+1)`; after step 24 it holds the sum of the 25 terms. -/
theorem fold_total (f : Fin 25 → EReal) (a : ℕ → EReal) (h0 : a 0 = 0 + f 0)
    (hs : ∀ n (hn : n + 1 < 25), a (n + 1) = a n + f ⟨n + 1, hn⟩) : a 24 = ∑ t : Fin 25, f t := by
  -- the terms as a sequence on the naturals, zero past the last one
  let F : ℕ → EReal := fun i => if h : i < 25 then f ⟨i, h⟩ else 0
  have hF : ∀ t : Fin 25, F t.val = f t := fun t => by
    show (if h : t.val < 25 then f ⟨t.val, h⟩ else 0) = f t
    rw [dif_pos t.isLt]
  -- after step n the accumulator holds the sum of the first n + 1 terms
  have key : ∀ n, n < 25 → a n = ∑ i ∈ Finset.range (n + 1), F i := by
    intro n
    induction n with
    | zero =>
      intro _
      rw [h0, zero_add, Finset.sum_range_one]
      exact (hF 0).symm
    | succ n ih =>
      intro hn
      rw [hs n hn, ih (by omega), Finset.sum_range_succ _ (n + 1)]
      exact congrArg (_ + ·) (hF ⟨n + 1, hn⟩).symm
  rw [key 24 (by norm_num)]
  show ∑ i ∈ Finset.range 25, F i = _
  rw [← Fin.sum_univ_eq_sum_range]
  exact Finset.sum_congr rfl fun t _ => hF t

end Cert.GinSpec

end
-- ==== Proof.PoolArr.lean ====
/-
  The read-out region's result read at a coordinate. Each of the region's 25 points stages the t-th tile of 2000
  consecutive nodes: the feature block at (y, d) is the feature array at (node 2000 t + y, d), the id block at (y, 0) the
  id array at (node 2000 t + y, 0); the classifier matrix and the bias row are staged whole. The scratch is reset to zero
  at the first point and every point adds its tile's per-graph sums, so after the last point it holds, at (g, d), the sum
  of feature d over all the nodes whose graph id is g; the result is the linear read-out of that matrix.
-/
import proofs.«418468_j32066225832278_1_alg».proof.Proof.Region3
import proofs.«418468_j32066225832278_1_alg».proof.Proof.PoolKernel
import proofs.«418468_j32066225832278_1_alg».proof.Proof.PoolFold
import proofs.«418468_j32066225832278_1_alg».proof.Proof.GinSpec
import Idealize.ShloMosaic.Lib.ValueIdx
import Idealize.ShloMosaic.Lib.Pipeline.Value

noncomputable section

namespace Cert.KernelIdeal.PoolArr

open Idealize.ShloMosaic Idealize.ShloMosaic.TcCoe Idealize.ShloMosaic.ValueIdx Cert.KernelIdeal Cert.KernelIdeal.Gen

section Param

variable (V : (c : Dev nD) → (b : Ref sig .tc) → Buf (Elt Ideal) ((c : Thread nD τ).loc b))

/-- The printed index maps, decided over the grid: the two tiled windows sit at block (t, 0), the two whole ones at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The feature block of point t at (y, d) is the feature array at (node 2000 t + y, d). -/
theorem iblk0_apply (c : Dev nD) (t : Fin cfg3.N) (y : Fin 2000) (d : Fin 128) :
    (Pool3.iblk (F := Ideal) V c 0 t : FVec Ideal S2000x128 .f32) (ix2 y d)
      = (V c (Pipeline.arrRef spec3 0) : FVec Ideal S50000x128 .f32) (ix2 (GinSpec.node t y) d) := by
  unfold Pool3.iblk
  show V c (Pipeline.arrRef spec3 0) (((cfg3.win 0).blk t).view.emb (ix2 y d)) = V c (Pipeline.arrRef spec3 0) (ix2 (GinSpec.node t y) d)
  refine congrArg _ (funext fun a => Fin.ext ?_)
  obtain ⟨e0, e1, -⟩ := idx_facts t
  match a with
  | ⟨0, _⟩ => show win3_0.index t (0 : Fin 2) * 2000 + 1 * y.val = 2000 * t.val + y.val; omega
  | ⟨1, _⟩ => show win3_0.index t (1 : Fin 2) * 128 + 1 * d.val = d.val; omega

/-- The id block of point t at (y, 0) is the id array at (node 2000 t + y, 0). -/
theorem iblk1_apply (c : Dev nD) (t : Fin cfg3.N) (y : Fin 2000) :
    (Pool3.iblk (F := Ideal) V c 1 t : IVec S2000x1 32) (ix2 y 0)
      = (V c (Pipeline.arrRef spec3 1) : IVec S50000x1 32) (ix2 (GinSpec.node t y) 0) := by
  unfold Pool3.iblk
  show V c (Pipeline.arrRef spec3 1) (((cfg3.win 1).blk t).view.emb (ix2 y 0)) = V c (Pipeline.arrRef spec3 1) (ix2 (GinSpec.node t y) 0)
  refine congrArg _ (funext fun a => Fin.ext ?_)
  obtain ⟨-, -, e0, e1, -⟩ := idx_facts t
  match a with
  | ⟨0, _⟩ => show win3_1.index t (0 : Fin 2) * 2000 + 1 * y.val = 2000 * t.val + y.val; omega
  | ⟨1, _⟩ => show win3_1.index t (1 : Fin 2) * 1 + 1 * 0 = 0; omega

/-- The classifier matrix's block is the whole matrix. -/
theorem iblk2_apply (c : Dev nD) (t : Fin cfg3.N) (d : Fin 128) (o : Fin 16) :
    (Pool3.iblk (F := Ideal) V c 2 t : FVec Ideal S128x16 .f32) (ix2 d o)
      = (V c (Pipeline.arrRef spec3 2) : FVec Ideal S128x16 .f32) (ix2 d o) := by
  unfold Pool3.iblk
  show V c (Pipeline.arrRef spec3 2) (((cfg3.win 2).blk t).view.emb (ix2 d o)) = V c (Pipeline.arrRef spec3 2) (ix2 d o)
  refine congrArg _ (funext fun a => Fin.ext ?_)
  obtain ⟨-, -, -, -, e0, e1, -⟩ := idx_facts t
  match a with
  | ⟨0, _⟩ => show win3_2.index t (0 : Fin 2) * 128 + 1 * d.val = d.val; omega
  | ⟨1, _⟩ => show win3_2.index t (1 : Fin 2) * 16 + 1 * o.val = o.val; omega

/-- The bias row's block is the whole row. -/
theorem iblk3_apply (c : Dev nD) (t : Fin cfg3.N) (o : Fin 16) :
    (Pool3.iblk (F := Ideal) V c 3 t : FVec Ideal S1x16 .f32) (ix2 0 o)
      = (V c (Pipeline.arrRef spec3 3) : FVec Ideal S1x16 .f32) (ix2 0 o) := by
  unfold Pool3.iblk
  show V c (Pipeline.arrRef spec3 3) (((cfg3.win 3).blk t).view.emb (ix2 0 o)) = V c (Pipeline.arrRef spec3 3) (ix2 0 o)
  refine congrArg _ (funext fun a => Fin.ext ?_)
  obtain ⟨-, -, -, -, -, -, e0, e1⟩ := idx_facts t
  match a with
  | ⟨0, _⟩ => show win3_3.index t (0 : Fin 2) * 1 + 1 * 0 = 0; omega
  | ⟨1, _⟩ => show win3_3.index t (1 : Fin 2) * 16 + 1 * o.val = o.val; omega

/-- The tile sum of point t's blocks is the tile sum of the arrays at the nodes of tile t. -/
theorem tile_eq (c : Dev nD) (t : Fin cfg3.N) (g d : Fin 128) :
    GinSpec.pooledTile (fun y k => (Pool3.iblk (F := Ideal) V c 0 t : FVec Ideal S2000x128 .f32) (ix2 y k))
        (fun y => (Pool3.iblk (F := Ideal) V c 1 t : IVec S2000x1 32) (ix2 y 0)) g d
      = GinSpec.pooledTile (fun y k => (V c (Pipeline.arrRef spec3 0) : FVec Ideal S50000x128 .f32) (ix2 (GinSpec.node t y) k))
        (fun y => (V c (Pipeline.arrRef spec3 1) : IVec S50000x1 32) (ix2 (GinSpec.node t y) 0)) g d := by
  have e0 : (fun (y : Fin 2000) (k : Fin 128) => (Pool3.iblk (F := Ideal) V c 0 t : FVec Ideal S2000x128 .f32) (ix2 y k))
      = fun y k => (V c (Pipeline.arrRef spec3 0) : FVec Ideal S50000x128 .f32) (ix2 (GinSpec.node t y) k) :=
    funext fun y => funext fun k => iblk0_apply V c t y k
  have e1 : (fun (y : Fin 2000) => (Pool3.iblk (F := Ideal) V c 1 t : IVec S2000x1 32) (ix2 y 0))
      = fun y => (V c (Pipeline.arrRef spec3 1) : IVec S50000x1 32) (ix2 (GinSpec.node t y) 0) :=
    funext fun y => iblk1_apply V c t y
  rw [e0, e1]

/-- Tile t's per-graph sum of feature d, read off the arrays. -/
def tileSum (c : Dev nD) (g d : Fin 128) (t : Fin 25) : EReal :=
  GinSpec.pooledTile (fun y k => (V c (Pipeline.arrRef spec3 0) : FVec Ideal S50000x128 .f32) (ix2 (GinSpec.node t y) k))
    (fun y => (V c (Pipeline.arrRef spec3 1) : IVec S50000x1 32) (ix2 (GinSpec.node t y) 0)) g d

/-- The scratch at (g, d) after point n, as a sequence on the naturals (zero past the last point). -/
def accSeq (c : Dev nD) (g d : Fin 128) (n : ℕ) : EReal :=
  if hn : n < cfg3.N then (Pool3.accAt (F := Ideal) V c n hn : FVec Ideal S128x128 .f32) (ix2 g d) else 0

/-- The first point resets the scratch to zero and adds tile 0's sum. -/
theorem accSeq_zero (c : Dev nD) (g d : Fin 128) : accSeq V c g d 0 = 0 + tileSum V c g d 0 := by
  unfold accSeq
  rw [dif_pos (by decide : 0 < cfg3.N), Pool3.accAt_zero, PoolValue.step_apply, PoolValue.reset_apply]
  exact congrArg (0 + ·) (tile_eq V c ⟨0, by decide⟩ g d)

/-- Every later point adds its tile's sum to what the scratch held. -/
theorem accSeq_succ (c : Dev nD) (g d : Fin 128) (n : ℕ) (hn : n + 1 < 25) :
    accSeq V c g d (n + 1) = accSeq V c g d n + tileSum V c g d ⟨n + 1, hn⟩ := by
  have hn' : n + 1 < cfg3.N := hn
  have hn0 : n < cfg3.N := Nat.lt_of_succ_lt hn'
  unfold accSeq
  rw [dif_pos hn', dif_pos hn0, Pool3.accAt_succ, PoolValue.step_apply]
  exact congrArg (_ + ·) (tile_eq V c ⟨n + 1, hn'⟩ g d)

/-- After the last point the scratch holds, at (g, d), the sum of feature d over the nodes of graph g. -/
theorem acc_total (c : Dev nD) (h24 : 24 < cfg3.N) (g d : Fin 128) :
    (Pool3.accAt (F := Ideal) V c 24 h24 : FVec Ideal S128x128 .f32) (ix2 g d)
      = GinSpec.pooled (fun r k => (V c (Pipeline.arrRef spec3 0) : FVec Ideal S50000x128 .f32) (ix2 r k))
          (fun r => (V c (Pipeline.arrRef spec3 1) : IVec S50000x1 32) (ix2 r 0)) g d := by
  rw [GinSpec.pooled_eq_tiles]
  have key := GinSpec.fold_total (tileSum V c g d) (accSeq V c g d) (accSeq_zero V c g d) (accSeq_succ V c g d)
  refine Eq.trans ?_ key
  unfold accSeq
  rw [dif_pos h24]

end Param

/-- The region's result at (graph g, class o): the read-out of the per-graph sums of the arrays the region found. -/
theorem out_apply (V : (c : Dev nD) → (b : Ref sig .tc) → Buf (Elt Ideal) ((c : Thread nD τ).loc b)) (c : Dev nD)
    (g : Fin 128) (o : Fin 16) :
    (Pool3.outLast (F := Ideal) V c : FVec Ideal S128x16 .f32) (ix2 g o)
      = GinSpec.classify
          (GinSpec.pooled (fun r d => (V c (Pipeline.arrRef spec3 0) : FVec Ideal S50000x128 .f32) (ix2 r d))
            (fun r => (V c (Pipeline.arrRef spec3 1) : IVec S50000x1 32) (ix2 r 0)))
          (fun d o => (V c (Pipeline.arrRef spec3 2) : FVec Ideal S128x16 .f32) (ix2 d o))
          (fun o => (V c (Pipeline.arrRef spec3 3) : FVec Ideal S1x16 .f32) (ix2 0 o)) g o := by
  have h24 : 24 < cfg3.N := by decide
  rw [Pool3.outLast_eq V c h24, PoolValue.readout_apply]
  have ea : (fun (g d : Fin 128) => (Pool3.accAt (F := Ideal) V c 24 h24 : FVec Ideal S128x128 .f32) (ix2 g d))
      = GinSpec.pooled (fun r d => (V c (Pipeline.arrRef spec3 0) : FVec Ideal S50000x128 .f32) (ix2 r d))
          (fun r => (V c (Pipeline.arrRef spec3 1) : IVec S50000x1 32) (ix2 r 0)) :=
    funext fun g => funext fun d => acc_total V c h24 g d
  have ew : (fun (d : Fin 128) (o : Fin 16) => (Pool3.iblk (F := Ideal) V c 2 ⟨24, h24⟩ : FVec Ideal S128x16 .f32) (ix2 d o))
      = fun d o => (V c (Pipeline.arrRef spec3 2) : FVec Ideal S128x16 .f32) (ix2 d o) :=
    funext fun d => funext fun o => iblk2_apply V c ⟨24, h24⟩ d o
  have eb : (fun (o : Fin 16) => (Pool3.iblk (F := Ideal) V c 3 ⟨24, h24⟩ : FVec Ideal S1x16 .f32) (ix2 0 o))
      = fun o => (V c (Pipeline.arrRef spec3 3) : FVec Ideal S1x16 .f32) (ix2 0 o) :=
    funext fun o => iblk3_apply V c ⟨24, h24⟩ o
  rw [ea, ew, eb]

end Cert.KernelIdeal.PoolArr

end
-- ==== Proof.KernelNet.lean ====
/-
  The kernel program's result as the reference's network of the launch contents, at the ideal values. Each of the four
  kernel regions' result arrays is read through the chain of buffer contents: a host stretch leaves each operand buffer at
  a named function of the buffers before it, a region replaces only its result array. So the first region's operands are
  the input features, their neighbour sum and layer 0's parameters; the second's are the first's result, its neighbour
  sum and layer 1's parameters; and so on; the last region's are the third layer's output, the id column, the read-out
  matrix and the bias row. Coordinate by coordinate each region computes the row function (or the read-out) that the
  reference's operations compute on the same operands; the arrays themselves stay opaque throughout.
-/
import proofs.«418468_j32066225832278_1_alg».proof.Proof.RunVals
import proofs.«418468_j32066225832278_1_alg».proof.Proof.HostStretches
import proofs.«418468_j32066225832278_1_alg».proof.Proof.RefNet
import proofs.«418468_j32066225832278_1_alg».proof.Proof.MlpArr
import proofs.«418468_j32066225832278_1_alg».proof.Proof.PoolArr

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.KernelIdeal.HostValue (srcOf dstOf aggT mat0 mat1 mat2 row0 row1 row2 colOf biasRow)

variable {F : FTy → Type} [FloatOps F]

/-! ## The two programs' spellings of one term

The two programs print the same shapes and the same dimension records (they differ in proof fields only), so a piece
spelled with one program's records is the piece spelled with the other's. -/

theorem srcOf_eq (ei : IVec S2x800000 32) : srcOf ei = Cert.ReferenceIdeal.RefValue.srcOf ei := rfl
theorem dstOf_eq (ei : IVec S2x800000 32) : dstOf ei = Cert.ReferenceIdeal.RefValue.dstOf ei := rfl
theorem aggT_eq (h : FVec F S50000x128 .f32) (s d : IVec S800000 32) :
    aggT h s d = Cert.ReferenceIdeal.RefValue.aggT h s d := rfl

variable (m : (ℓ : Loc nD τ sig) → Buf (Elt F) ℓ) (c : Dev nD)

/-! ## The chain of contents at the buffers the regions read

`XJ m c` at a buffer, back to the launch contents. A stretch's equations are read at the valuation it starts from; a
region's update is read off at its result array and passed over at every other buffer. -/

theorem X1_main_v1 : X1 m c (Proc.devRef .tc main_v1) = srcOf (m ((c.tc : Thread nD τ).loc main_arg1)) :=
  HostValue.after0_main_v1 (fun b => m (c, b))
theorem X1_main_v3 : X1 m c (Proc.devRef .tc main_v3) = dstOf (m ((c.tc : Thread nD τ).loc main_arg1)) :=
  HostValue.after0_main_v3 (fun b => m (c, b))
theorem X1_main_v4 : X1 m c (Proc.devRef .tc main_v4) = colOf (m ((c.tc : Thread nD τ).loc main_arg2)) :=
  HostValue.after0_main_v4 (fun b => m (c, b))
theorem X1_main_v14 : X1 m c (Proc.devRef .tc main_v14) = aggT (m ((c.tc : Thread nD τ).loc main_arg0)) (srcOf (m ((c.tc : Thread nD τ).loc main_arg1))) (dstOf (m ((c.tc : Thread nD τ).loc main_arg1))) :=
  HostValue.after0_main_v14 (fun b => m (c, b))
theorem X1_main_v16 : X1 m c (Proc.devRef .tc main_v16) = mat0 (m ((c.tc : Thread nD τ).loc main_arg3)) :=
  HostValue.after0_main_v16 (fun b => m (c, b))
theorem X1_main_v31 : X1 m c (Proc.devRef .tc main_v31) = row0 (m ((c.tc : Thread nD τ).loc main_arg4)) :=
  HostValue.after0_main_v31 (fun b => m (c, b))
theorem X1_main_v20 : X1 m c (Proc.devRef .tc main_v20) = mat0 (m ((c.tc : Thread nD τ).loc main_arg5)) :=
  HostValue.after0_main_v20 (fun b => m (c, b))
theorem X1_main_v32 : X1 m c (Proc.devRef .tc main_v32) = row0 (m ((c.tc : Thread nD τ).loc main_arg6)) :=
  HostValue.after0_main_v32 (fun b => m (c, b))
theorem X1_main_v33 : X1 m c (Proc.devRef .tc main_v33) = row0 (m ((c.tc : Thread nD τ).loc main_arg7)) :=
  HostValue.after0_main_v33 (fun b => m (c, b))
theorem X1_main_v34 : X1 m c (Proc.devRef .tc main_v34) = row0 (m ((c.tc : Thread nD τ).loc main_arg8)) :=
  HostValue.after0_main_v34 (fun b => m (c, b))
theorem X1_main_v35 : X1 m c (Proc.devRef .tc main_v35) = row0 (m ((c.tc : Thread nD τ).loc main_arg9)) :=
  HostValue.after0_main_v35 (fun b => m (c, b))
theorem X1_main_v36 : X1 m c (Proc.devRef .tc main_v36) = row0 (m ((c.tc : Thread nD τ).loc main_arg10)) :=
  HostValue.after0_main_v36 (fun b => m (c, b))
theorem X1_main_arg0 : X1 m c (Proc.devRef .tc main_arg0) = m ((c.tc : Thread nD τ).loc main_arg0) :=
  HostValue.after0_main_arg0 (fun b => m (c, b))
theorem X1_main_arg1 : X1 m c (Proc.devRef .tc main_arg1) = m ((c.tc : Thread nD τ).loc main_arg1) :=
  HostValue.after0_main_arg1 (fun b => m (c, b))
theorem X1_main_arg2 : X1 m c (Proc.devRef .tc main_arg2) = m ((c.tc : Thread nD τ).loc main_arg2) :=
  HostValue.after0_main_arg2 (fun b => m (c, b))
theorem X1_main_arg3 : X1 m c (Proc.devRef .tc main_arg3) = m ((c.tc : Thread nD τ).loc main_arg3) :=
  HostValue.after0_main_arg3 (fun b => m (c, b))
theorem X1_main_arg4 : X1 m c (Proc.devRef .tc main_arg4) = m ((c.tc : Thread nD τ).loc main_arg4) :=
  HostValue.after0_main_arg4 (fun b => m (c, b))
theorem X1_main_arg5 : X1 m c (Proc.devRef .tc main_arg5) = m ((c.tc : Thread nD τ).loc main_arg5) :=
  HostValue.after0_main_arg5 (fun b => m (c, b))
theorem X1_main_arg6 : X1 m c (Proc.devRef .tc main_arg6) = m ((c.tc : Thread nD τ).loc main_arg6) :=
  HostValue.after0_main_arg6 (fun b => m (c, b))
theorem X1_main_arg7 : X1 m c (Proc.devRef .tc main_arg7) = m ((c.tc : Thread nD τ).loc main_arg7) :=
  HostValue.after0_main_arg7 (fun b => m (c, b))
theorem X1_main_arg8 : X1 m c (Proc.devRef .tc main_arg8) = m ((c.tc : Thread nD τ).loc main_arg8) :=
  HostValue.after0_main_arg8 (fun b => m (c, b))
theorem X1_main_arg9 : X1 m c (Proc.devRef .tc main_arg9) = m ((c.tc : Thread nD τ).loc main_arg9) :=
  HostValue.after0_main_arg9 (fun b => m (c, b))
theorem X1_main_arg10 : X1 m c (Proc.devRef .tc main_arg10) = m ((c.tc : Thread nD τ).loc main_arg10) :=
  HostValue.after0_main_arg10 (fun b => m (c, b))
theorem X1_main_arg11 : X1 m c (Proc.devRef .tc main_arg11) = m ((c.tc : Thread nD τ).loc main_arg11) :=
  HostValue.after0_main_arg11 (fun b => m (c, b))
theorem X1_main_arg12 : X1 m c (Proc.devRef .tc main_arg12) = m ((c.tc : Thread nD τ).loc main_arg12) :=
  HostValue.after0_main_arg12 (fun b => m (c, b))

theorem X2_main_v37 : X2 m c (Proc.devRef .tc main_v37) = H1 m c := upd_self _ _ _
theorem X2_main_v1 : X2 m c (Proc.devRef .tc main_v1) = srcOf (m ((c.tc : Thread nD τ).loc main_arg1)) :=
  (upd_ne (X1 m c) main_v37 (H1 m c) main_v1 (by decide)).trans (X1_main_v1 m c)
theorem X2_main_v3 : X2 m c (Proc.devRef .tc main_v3) = dstOf (m ((c.tc : Thread nD τ).loc main_arg1)) :=
  (upd_ne (X1 m c) main_v37 (H1 m c) main_v3 (by decide)).trans (X1_main_v3 m c)
theorem X2_main_v4 : X2 m c (Proc.devRef .tc main_v4) = colOf (m ((c.tc : Thread nD τ).loc main_arg2)) :=
  (upd_ne (X1 m c) main_v37 (H1 m c) main_v4 (by decide)).trans (X1_main_v4 m c)
theorem X2_main_arg0 : X2 m c (Proc.devRef .tc main_arg0) = m ((c.tc : Thread nD τ).loc main_arg0) :=
  (upd_ne (X1 m c) main_v37 (H1 m c) main_arg0 (by decide)).trans (X1_main_arg0 m c)
theorem X2_main_arg1 : X2 m c (Proc.devRef .tc main_arg1) = m ((c.tc : Thread nD τ).loc main_arg1) :=
  (upd_ne (X1 m c) main_v37 (H1 m c) main_arg1 (by decide)).trans (X1_main_arg1 m c)
theorem X2_main_arg2 : X2 m c (Proc.devRef .tc main_arg2) = m ((c.tc : Thread nD τ).loc main_arg2) :=
  (upd_ne (X1 m c) main_v37 (H1 m c) main_arg2 (by decide)).trans (X1_main_arg2 m c)
theorem X2_main_arg3 : X2 m c (Proc.devRef .tc main_arg3) = m ((c.tc : Thread nD τ).loc main_arg3) :=
  (upd_ne (X1 m c) main_v37 (H1 m c) main_arg3 (by decide)).trans (X1_main_arg3 m c)
theorem X2_main_arg4 : X2 m c (Proc.devRef .tc main_arg4) = m ((c.tc : Thread nD τ).loc main_arg4) :=
  (upd_ne (X1 m c) main_v37 (H1 m c) main_arg4 (by decide)).trans (X1_main_arg4 m c)
theorem X2_main_arg5 : X2 m c (Proc.devRef .tc main_arg5) = m ((c.tc : Thread nD τ).loc main_arg5) :=
  (upd_ne (X1 m c) main_v37 (H1 m c) main_arg5 (by decide)).trans (X1_main_arg5 m c)
theorem X2_main_arg6 : X2 m c (Proc.devRef .tc main_arg6) = m ((c.tc : Thread nD τ).loc main_arg6) :=
  (upd_ne (X1 m c) main_v37 (H1 m c) main_arg6 (by decide)).trans (X1_main_arg6 m c)
theorem X2_main_arg7 : X2 m c (Proc.devRef .tc main_arg7) = m ((c.tc : Thread nD τ).loc main_arg7) :=
  (upd_ne (X1 m c) main_v37 (H1 m c) main_arg7 (by decide)).trans (X1_main_arg7 m c)
theorem X2_main_arg8 : X2 m c (Proc.devRef .tc main_arg8) = m ((c.tc : Thread nD τ).loc main_arg8) :=
  (upd_ne (X1 m c) main_v37 (H1 m c) main_arg8 (by decide)).trans (X1_main_arg8 m c)
theorem X2_main_arg9 : X2 m c (Proc.devRef .tc main_arg9) = m ((c.tc : Thread nD τ).loc main_arg9) :=
  (upd_ne (X1 m c) main_v37 (H1 m c) main_arg9 (by decide)).trans (X1_main_arg9 m c)
theorem X2_main_arg10 : X2 m c (Proc.devRef .tc main_arg10) = m ((c.tc : Thread nD τ).loc main_arg10) :=
  (upd_ne (X1 m c) main_v37 (H1 m c) main_arg10 (by decide)).trans (X1_main_arg10 m c)
theorem X2_main_arg11 : X2 m c (Proc.devRef .tc main_arg11) = m ((c.tc : Thread nD τ).loc main_arg11) :=
  (upd_ne (X1 m c) main_v37 (H1 m c) main_arg11 (by decide)).trans (X1_main_arg11 m c)
theorem X2_main_arg12 : X2 m c (Proc.devRef .tc main_arg12) = m ((c.tc : Thread nD τ).loc main_arg12) :=
  (upd_ne (X1 m c) main_v37 (H1 m c) main_arg12 (by decide)).trans (X1_main_arg12 m c)

theorem X3_main_v37 : X3 m c (Proc.devRef .tc main_v37) = H1 m c :=
  (HostValue.after1_main_v37 (X2 m c)).trans (X2_main_v37 m c)
theorem X3_main_v1 : X3 m c (Proc.devRef .tc main_v1) = srcOf (m ((c.tc : Thread nD τ).loc main_arg1)) :=
  (HostValue.after1_main_v1 (X2 m c)).trans (X2_main_v1 m c)
theorem X3_main_v3 : X3 m c (Proc.devRef .tc main_v3) = dstOf (m ((c.tc : Thread nD τ).loc main_arg1)) :=
  (HostValue.after1_main_v3 (X2 m c)).trans (X2_main_v3 m c)
theorem X3_main_v4 : X3 m c (Proc.devRef .tc main_v4) = colOf (m ((c.tc : Thread nD τ).loc main_arg2)) :=
  (HostValue.after1_main_v4 (X2 m c)).trans (X2_main_v4 m c)
theorem X3_main_arg0 : X3 m c (Proc.devRef .tc main_arg0) = m ((c.tc : Thread nD τ).loc main_arg0) :=
  (HostValue.after1_main_arg0 (X2 m c)).trans (X2_main_arg0 m c)
theorem X3_main_arg1 : X3 m c (Proc.devRef .tc main_arg1) = m ((c.tc : Thread nD τ).loc main_arg1) :=
  (HostValue.after1_main_arg1 (X2 m c)).trans (X2_main_arg1 m c)
theorem X3_main_arg2 : X3 m c (Proc.devRef .tc main_arg2) = m ((c.tc : Thread nD τ).loc main_arg2) :=
  (HostValue.after1_main_arg2 (X2 m c)).trans (X2_main_arg2 m c)
theorem X3_main_arg3 : X3 m c (Proc.devRef .tc main_arg3) = m ((c.tc : Thread nD τ).loc main_arg3) :=
  (HostValue.after1_main_arg3 (X2 m c)).trans (X2_main_arg3 m c)
theorem X3_main_arg4 : X3 m c (Proc.devRef .tc main_arg4) = m ((c.tc : Thread nD τ).loc main_arg4) :=
  (HostValue.after1_main_arg4 (X2 m c)).trans (X2_main_arg4 m c)
theorem X3_main_arg5 : X3 m c (Proc.devRef .tc main_arg5) = m ((c.tc : Thread nD τ).loc main_arg5) :=
  (HostValue.after1_main_arg5 (X2 m c)).trans (X2_main_arg5 m c)
theorem X3_main_arg6 : X3 m c (Proc.devRef .tc main_arg6) = m ((c.tc : Thread nD τ).loc main_arg6) :=
  (HostValue.after1_main_arg6 (X2 m c)).trans (X2_main_arg6 m c)
theorem X3_main_arg7 : X3 m c (Proc.devRef .tc main_arg7) = m ((c.tc : Thread nD τ).loc main_arg7) :=
  (HostValue.after1_main_arg7 (X2 m c)).trans (X2_main_arg7 m c)
theorem X3_main_arg8 : X3 m c (Proc.devRef .tc main_arg8) = m ((c.tc : Thread nD τ).loc main_arg8) :=
  (HostValue.after1_main_arg8 (X2 m c)).trans (X2_main_arg8 m c)
theorem X3_main_arg9 : X3 m c (Proc.devRef .tc main_arg9) = m ((c.tc : Thread nD τ).loc main_arg9) :=
  (HostValue.after1_main_arg9 (X2 m c)).trans (X2_main_arg9 m c)
theorem X3_main_arg10 : X3 m c (Proc.devRef .tc main_arg10) = m ((c.tc : Thread nD τ).loc main_arg10) :=
  (HostValue.after1_main_arg10 (X2 m c)).trans (X2_main_arg10 m c)
theorem X3_main_arg11 : X3 m c (Proc.devRef .tc main_arg11) = m ((c.tc : Thread nD τ).loc main_arg11) :=
  (HostValue.after1_main_arg11 (X2 m c)).trans (X2_main_arg11 m c)
theorem X3_main_arg12 : X3 m c (Proc.devRef .tc main_arg12) = m ((c.tc : Thread nD τ).loc main_arg12) :=
  (HostValue.after1_main_arg12 (X2 m c)).trans (X2_main_arg12 m c)
theorem X3_main_v47 : X3 m c (Proc.devRef .tc main_v47) = aggT (H1 m c) (srcOf (m ((c.tc : Thread nD τ).loc main_arg1))) (dstOf (m ((c.tc : Thread nD τ).loc main_arg1))) := by
  rw [show X3 m c (Proc.devRef .tc main_v47) = _ from HostValue.after1_main_v47 (X2 m c), X2_main_v37, X2_main_v1, X2_main_v3]
theorem X3_main_v49 : X3 m c (Proc.devRef .tc main_v49) = mat1 (m ((c.tc : Thread nD τ).loc main_arg3)) := by
  rw [show X3 m c (Proc.devRef .tc main_v49) = _ from HostValue.after1_main_v49 (X2 m c), X2_main_arg3]
theorem X3_main_v64 : X3 m c (Proc.devRef .tc main_v64) = row1 (m ((c.tc : Thread nD τ).loc main_arg4)) := by
  rw [show X3 m c (Proc.devRef .tc main_v64) = _ from HostValue.after1_main_v64 (X2 m c), X2_main_arg4]
theorem X3_main_v53 : X3 m c (Proc.devRef .tc main_v53) = mat1 (m ((c.tc : Thread nD τ).loc main_arg5)) := by
  rw [show X3 m c (Proc.devRef .tc main_v53) = _ from HostValue.after1_main_v53 (X2 m c), X2_main_arg5]
theorem X3_main_v65 : X3 m c (Proc.devRef .tc main_v65) = row1 (m ((c.tc : Thread nD τ).loc main_arg6)) := by
  rw [show X3 m c (Proc.devRef .tc main_v65) = _ from HostValue.after1_main_v65 (X2 m c), X2_main_arg6]
theorem X3_main_v66 : X3 m c (Proc.devRef .tc main_v66) = row1 (m ((c.tc : Thread nD τ).loc main_arg7)) := by
  rw [show X3 m c (Proc.devRef .tc main_v66) = _ from HostValue.after1_main_v66 (X2 m c), X2_main_arg7]
theorem X3_main_v67 : X3 m c (Proc.devRef .tc main_v67) = row1 (m ((c.tc : Thread nD τ).loc main_arg8)) := by
  rw [show X3 m c (Proc.devRef .tc main_v67) = _ from HostValue.after1_main_v67 (X2 m c), X2_main_arg8]
theorem X3_main_v68 : X3 m c (Proc.devRef .tc main_v68) = row1 (m ((c.tc : Thread nD τ).loc main_arg9)) := by
  rw [show X3 m c (Proc.devRef .tc main_v68) = _ from HostValue.after1_main_v68 (X2 m c), X2_main_arg9]
theorem X3_main_v69 : X3 m c (Proc.devRef .tc main_v69) = row1 (m ((c.tc : Thread nD τ).loc main_arg10)) := by
  rw [show X3 m c (Proc.devRef .tc main_v69) = _ from HostValue.after1_main_v69 (X2 m c), X2_main_arg10]

theorem X4_main_v70 : X4 m c (Proc.devRef .tc main_v70) = H2 m c := upd_self _ _ _
theorem X4_main_v1 : X4 m c (Proc.devRef .tc main_v1) = srcOf (m ((c.tc : Thread nD τ).loc main_arg1)) :=
  (upd_ne (X3 m c) main_v70 (H2 m c) main_v1 (by decide)).trans (X3_main_v1 m c)
theorem X4_main_v3 : X4 m c (Proc.devRef .tc main_v3) = dstOf (m ((c.tc : Thread nD τ).loc main_arg1)) :=
  (upd_ne (X3 m c) main_v70 (H2 m c) main_v3 (by decide)).trans (X3_main_v3 m c)
theorem X4_main_v4 : X4 m c (Proc.devRef .tc main_v4) = colOf (m ((c.tc : Thread nD τ).loc main_arg2)) :=
  (upd_ne (X3 m c) main_v70 (H2 m c) main_v4 (by decide)).trans (X3_main_v4 m c)
theorem X4_main_arg0 : X4 m c (Proc.devRef .tc main_arg0) = m ((c.tc : Thread nD τ).loc main_arg0) :=
  (upd_ne (X3 m c) main_v70 (H2 m c) main_arg0 (by decide)).trans (X3_main_arg0 m c)
theorem X4_main_arg1 : X4 m c (Proc.devRef .tc main_arg1) = m ((c.tc : Thread nD τ).loc main_arg1) :=
  (upd_ne (X3 m c) main_v70 (H2 m c) main_arg1 (by decide)).trans (X3_main_arg1 m c)
theorem X4_main_arg2 : X4 m c (Proc.devRef .tc main_arg2) = m ((c.tc : Thread nD τ).loc main_arg2) :=
  (upd_ne (X3 m c) main_v70 (H2 m c) main_arg2 (by decide)).trans (X3_main_arg2 m c)
theorem X4_main_arg3 : X4 m c (Proc.devRef .tc main_arg3) = m ((c.tc : Thread nD τ).loc main_arg3) :=
  (upd_ne (X3 m c) main_v70 (H2 m c) main_arg3 (by decide)).trans (X3_main_arg3 m c)
theorem X4_main_arg4 : X4 m c (Proc.devRef .tc main_arg4) = m ((c.tc : Thread nD τ).loc main_arg4) :=
  (upd_ne (X3 m c) main_v70 (H2 m c) main_arg4 (by decide)).trans (X3_main_arg4 m c)
theorem X4_main_arg5 : X4 m c (Proc.devRef .tc main_arg5) = m ((c.tc : Thread nD τ).loc main_arg5) :=
  (upd_ne (X3 m c) main_v70 (H2 m c) main_arg5 (by decide)).trans (X3_main_arg5 m c)
theorem X4_main_arg6 : X4 m c (Proc.devRef .tc main_arg6) = m ((c.tc : Thread nD τ).loc main_arg6) :=
  (upd_ne (X3 m c) main_v70 (H2 m c) main_arg6 (by decide)).trans (X3_main_arg6 m c)
theorem X4_main_arg7 : X4 m c (Proc.devRef .tc main_arg7) = m ((c.tc : Thread nD τ).loc main_arg7) :=
  (upd_ne (X3 m c) main_v70 (H2 m c) main_arg7 (by decide)).trans (X3_main_arg7 m c)
theorem X4_main_arg8 : X4 m c (Proc.devRef .tc main_arg8) = m ((c.tc : Thread nD τ).loc main_arg8) :=
  (upd_ne (X3 m c) main_v70 (H2 m c) main_arg8 (by decide)).trans (X3_main_arg8 m c)
theorem X4_main_arg9 : X4 m c (Proc.devRef .tc main_arg9) = m ((c.tc : Thread nD τ).loc main_arg9) :=
  (upd_ne (X3 m c) main_v70 (H2 m c) main_arg9 (by decide)).trans (X3_main_arg9 m c)
theorem X4_main_arg10 : X4 m c (Proc.devRef .tc main_arg10) = m ((c.tc : Thread nD τ).loc main_arg10) :=
  (upd_ne (X3 m c) main_v70 (H2 m c) main_arg10 (by decide)).trans (X3_main_arg10 m c)
theorem X4_main_arg11 : X4 m c (Proc.devRef .tc main_arg11) = m ((c.tc : Thread nD τ).loc main_arg11) :=
  (upd_ne (X3 m c) main_v70 (H2 m c) main_arg11 (by decide)).trans (X3_main_arg11 m c)
theorem X4_main_arg12 : X4 m c (Proc.devRef .tc main_arg12) = m ((c.tc : Thread nD τ).loc main_arg12) :=
  (upd_ne (X3 m c) main_v70 (H2 m c) main_arg12 (by decide)).trans (X3_main_arg12 m c)

theorem X5_main_v70 : X5 m c (Proc.devRef .tc main_v70) = H2 m c :=
  (HostValue.after2_main_v70 (X4 m c)).trans (X4_main_v70 m c)
theorem X5_main_v1 : X5 m c (Proc.devRef .tc main_v1) = srcOf (m ((c.tc : Thread nD τ).loc main_arg1)) :=
  (HostValue.after2_main_v1 (X4 m c)).trans (X4_main_v1 m c)
theorem X5_main_v3 : X5 m c (Proc.devRef .tc main_v3) = dstOf (m ((c.tc : Thread nD τ).loc main_arg1)) :=
  (HostValue.after2_main_v3 (X4 m c)).trans (X4_main_v3 m c)
theorem X5_main_v4 : X5 m c (Proc.devRef .tc main_v4) = colOf (m ((c.tc : Thread nD τ).loc main_arg2)) :=
  (HostValue.after2_main_v4 (X4 m c)).trans (X4_main_v4 m c)
theorem X5_main_arg0 : X5 m c (Proc.devRef .tc main_arg0) = m ((c.tc : Thread nD τ).loc main_arg0) :=
  (HostValue.after2_main_arg0 (X4 m c)).trans (X4_main_arg0 m c)
theorem X5_main_arg1 : X5 m c (Proc.devRef .tc main_arg1) = m ((c.tc : Thread nD τ).loc main_arg1) :=
  (HostValue.after2_main_arg1 (X4 m c)).trans (X4_main_arg1 m c)
theorem X5_main_arg2 : X5 m c (Proc.devRef .tc main_arg2) = m ((c.tc : Thread nD τ).loc main_arg2) :=
  (HostValue.after2_main_arg2 (X4 m c)).trans (X4_main_arg2 m c)
theorem X5_main_arg3 : X5 m c (Proc.devRef .tc main_arg3) = m ((c.tc : Thread nD τ).loc main_arg3) :=
  (HostValue.after2_main_arg3 (X4 m c)).trans (X4_main_arg3 m c)
theorem X5_main_arg4 : X5 m c (Proc.devRef .tc main_arg4) = m ((c.tc : Thread nD τ).loc main_arg4) :=
  (HostValue.after2_main_arg4 (X4 m c)).trans (X4_main_arg4 m c)
theorem X5_main_arg5 : X5 m c (Proc.devRef .tc main_arg5) = m ((c.tc : Thread nD τ).loc main_arg5) :=
  (HostValue.after2_main_arg5 (X4 m c)).trans (X4_main_arg5 m c)
theorem X5_main_arg6 : X5 m c (Proc.devRef .tc main_arg6) = m ((c.tc : Thread nD τ).loc main_arg6) :=
  (HostValue.after2_main_arg6 (X4 m c)).trans (X4_main_arg6 m c)
theorem X5_main_arg7 : X5 m c (Proc.devRef .tc main_arg7) = m ((c.tc : Thread nD τ).loc main_arg7) :=
  (HostValue.after2_main_arg7 (X4 m c)).trans (X4_main_arg7 m c)
theorem X5_main_arg8 : X5 m c (Proc.devRef .tc main_arg8) = m ((c.tc : Thread nD τ).loc main_arg8) :=
  (HostValue.after2_main_arg8 (X4 m c)).trans (X4_main_arg8 m c)
theorem X5_main_arg9 : X5 m c (Proc.devRef .tc main_arg9) = m ((c.tc : Thread nD τ).loc main_arg9) :=
  (HostValue.after2_main_arg9 (X4 m c)).trans (X4_main_arg9 m c)
theorem X5_main_arg10 : X5 m c (Proc.devRef .tc main_arg10) = m ((c.tc : Thread nD τ).loc main_arg10) :=
  (HostValue.after2_main_arg10 (X4 m c)).trans (X4_main_arg10 m c)
theorem X5_main_arg11 : X5 m c (Proc.devRef .tc main_arg11) = m ((c.tc : Thread nD τ).loc main_arg11) :=
  (HostValue.after2_main_arg11 (X4 m c)).trans (X4_main_arg11 m c)
theorem X5_main_arg12 : X5 m c (Proc.devRef .tc main_arg12) = m ((c.tc : Thread nD τ).loc main_arg12) :=
  (HostValue.after2_main_arg12 (X4 m c)).trans (X4_main_arg12 m c)
theorem X5_main_v80 : X5 m c (Proc.devRef .tc main_v80) = aggT (H2 m c) (srcOf (m ((c.tc : Thread nD τ).loc main_arg1))) (dstOf (m ((c.tc : Thread nD τ).loc main_arg1))) := by
  rw [show X5 m c (Proc.devRef .tc main_v80) = _ from HostValue.after2_main_v80 (X4 m c), X4_main_v70, X4_main_v1, X4_main_v3]
theorem X5_main_v82 : X5 m c (Proc.devRef .tc main_v82) = mat2 (m ((c.tc : Thread nD τ).loc main_arg3)) := by
  rw [show X5 m c (Proc.devRef .tc main_v82) = _ from HostValue.after2_main_v82 (X4 m c), X4_main_arg3]
theorem X5_main_v97 : X5 m c (Proc.devRef .tc main_v97) = row2 (m ((c.tc : Thread nD τ).loc main_arg4)) := by
  rw [show X5 m c (Proc.devRef .tc main_v97) = _ from HostValue.after2_main_v97 (X4 m c), X4_main_arg4]
theorem X5_main_v86 : X5 m c (Proc.devRef .tc main_v86) = mat2 (m ((c.tc : Thread nD τ).loc main_arg5)) := by
  rw [show X5 m c (Proc.devRef .tc main_v86) = _ from HostValue.after2_main_v86 (X4 m c), X4_main_arg5]
theorem X5_main_v98 : X5 m c (Proc.devRef .tc main_v98) = row2 (m ((c.tc : Thread nD τ).loc main_arg6)) := by
  rw [show X5 m c (Proc.devRef .tc main_v98) = _ from HostValue.after2_main_v98 (X4 m c), X4_main_arg6]
theorem X5_main_v99 : X5 m c (Proc.devRef .tc main_v99) = row2 (m ((c.tc : Thread nD τ).loc main_arg7)) := by
  rw [show X5 m c (Proc.devRef .tc main_v99) = _ from HostValue.after2_main_v99 (X4 m c), X4_main_arg7]
theorem X5_main_v100 : X5 m c (Proc.devRef .tc main_v100) = row2 (m ((c.tc : Thread nD τ).loc main_arg8)) := by
  rw [show X5 m c (Proc.devRef .tc main_v100) = _ from HostValue.after2_main_v100 (X4 m c), X4_main_arg8]
theorem X5_main_v101 : X5 m c (Proc.devRef .tc main_v101) = row2 (m ((c.tc : Thread nD τ).loc main_arg9)) := by
  rw [show X5 m c (Proc.devRef .tc main_v101) = _ from HostValue.after2_main_v101 (X4 m c), X4_main_arg9]
theorem X5_main_v102 : X5 m c (Proc.devRef .tc main_v102) = row2 (m ((c.tc : Thread nD τ).loc main_arg10)) := by
  rw [show X5 m c (Proc.devRef .tc main_v102) = _ from HostValue.after2_main_v102 (X4 m c), X4_main_arg10]

theorem X6_main_v103 : X6 m c (Proc.devRef .tc main_v103) = H3 m c := upd_self _ _ _
theorem X6_main_v4 : X6 m c (Proc.devRef .tc main_v4) = colOf (m ((c.tc : Thread nD τ).loc main_arg2)) :=
  (upd_ne (X5 m c) main_v103 (H3 m c) main_v4 (by decide)).trans (X5_main_v4 m c)
theorem X6_main_arg0 : X6 m c (Proc.devRef .tc main_arg0) = m ((c.tc : Thread nD τ).loc main_arg0) :=
  (upd_ne (X5 m c) main_v103 (H3 m c) main_arg0 (by decide)).trans (X5_main_arg0 m c)
theorem X6_main_arg1 : X6 m c (Proc.devRef .tc main_arg1) = m ((c.tc : Thread nD τ).loc main_arg1) :=
  (upd_ne (X5 m c) main_v103 (H3 m c) main_arg1 (by decide)).trans (X5_main_arg1 m c)
theorem X6_main_arg2 : X6 m c (Proc.devRef .tc main_arg2) = m ((c.tc : Thread nD τ).loc main_arg2) :=
  (upd_ne (X5 m c) main_v103 (H3 m c) main_arg2 (by decide)).trans (X5_main_arg2 m c)
theorem X6_main_arg3 : X6 m c (Proc.devRef .tc main_arg3) = m ((c.tc : Thread nD τ).loc main_arg3) :=
  (upd_ne (X5 m c) main_v103 (H3 m c) main_arg3 (by decide)).trans (X5_main_arg3 m c)
theorem X6_main_arg4 : X6 m c (Proc.devRef .tc main_arg4) = m ((c.tc : Thread nD τ).loc main_arg4) :=
  (upd_ne (X5 m c) main_v103 (H3 m c) main_arg4 (by decide)).trans (X5_main_arg4 m c)
theorem X6_main_arg5 : X6 m c (Proc.devRef .tc main_arg5) = m ((c.tc : Thread nD τ).loc main_arg5) :=
  (upd_ne (X5 m c) main_v103 (H3 m c) main_arg5 (by decide)).trans (X5_main_arg5 m c)
theorem X6_main_arg6 : X6 m c (Proc.devRef .tc main_arg6) = m ((c.tc : Thread nD τ).loc main_arg6) :=
  (upd_ne (X5 m c) main_v103 (H3 m c) main_arg6 (by decide)).trans (X5_main_arg6 m c)
theorem X6_main_arg7 : X6 m c (Proc.devRef .tc main_arg7) = m ((c.tc : Thread nD τ).loc main_arg7) :=
  (upd_ne (X5 m c) main_v103 (H3 m c) main_arg7 (by decide)).trans (X5_main_arg7 m c)
theorem X6_main_arg8 : X6 m c (Proc.devRef .tc main_arg8) = m ((c.tc : Thread nD τ).loc main_arg8) :=
  (upd_ne (X5 m c) main_v103 (H3 m c) main_arg8 (by decide)).trans (X5_main_arg8 m c)
theorem X6_main_arg9 : X6 m c (Proc.devRef .tc main_arg9) = m ((c.tc : Thread nD τ).loc main_arg9) :=
  (upd_ne (X5 m c) main_v103 (H3 m c) main_arg9 (by decide)).trans (X5_main_arg9 m c)
theorem X6_main_arg10 : X6 m c (Proc.devRef .tc main_arg10) = m ((c.tc : Thread nD τ).loc main_arg10) :=
  (upd_ne (X5 m c) main_v103 (H3 m c) main_arg10 (by decide)).trans (X5_main_arg10 m c)
theorem X6_main_arg11 : X6 m c (Proc.devRef .tc main_arg11) = m ((c.tc : Thread nD τ).loc main_arg11) :=
  (upd_ne (X5 m c) main_v103 (H3 m c) main_arg11 (by decide)).trans (X5_main_arg11 m c)
theorem X6_main_arg12 : X6 m c (Proc.devRef .tc main_arg12) = m ((c.tc : Thread nD τ).loc main_arg12) :=
  (upd_ne (X5 m c) main_v103 (H3 m c) main_arg12 (by decide)).trans (X5_main_arg12 m c)

theorem X7_main_v103 : X7 m c (Proc.devRef .tc main_v103) = H3 m c :=
  (HostValue.after3_main_v103 (X6 m c)).trans (X6_main_v103 m c)
theorem X7_main_v4 : X7 m c (Proc.devRef .tc main_v4) = colOf (m ((c.tc : Thread nD τ).loc main_arg2)) :=
  (HostValue.after3_main_v4 (X6 m c)).trans (X6_main_v4 m c)
theorem X7_main_arg0 : X7 m c (Proc.devRef .tc main_arg0) = m ((c.tc : Thread nD τ).loc main_arg0) :=
  (HostValue.after3_main_arg0 (X6 m c)).trans (X6_main_arg0 m c)
theorem X7_main_arg1 : X7 m c (Proc.devRef .tc main_arg1) = m ((c.tc : Thread nD τ).loc main_arg1) :=
  (HostValue.after3_main_arg1 (X6 m c)).trans (X6_main_arg1 m c)
theorem X7_main_arg2 : X7 m c (Proc.devRef .tc main_arg2) = m ((c.tc : Thread nD τ).loc main_arg2) :=
  (HostValue.after3_main_arg2 (X6 m c)).trans (X6_main_arg2 m c)
theorem X7_main_arg3 : X7 m c (Proc.devRef .tc main_arg3) = m ((c.tc : Thread nD τ).loc main_arg3) :=
  (HostValue.after3_main_arg3 (X6 m c)).trans (X6_main_arg3 m c)
theorem X7_main_arg4 : X7 m c (Proc.devRef .tc main_arg4) = m ((c.tc : Thread nD τ).loc main_arg4) :=
  (HostValue.after3_main_arg4 (X6 m c)).trans (X6_main_arg4 m c)
theorem X7_main_arg5 : X7 m c (Proc.devRef .tc main_arg5) = m ((c.tc : Thread nD τ).loc main_arg5) :=
  (HostValue.after3_main_arg5 (X6 m c)).trans (X6_main_arg5 m c)
theorem X7_main_arg6 : X7 m c (Proc.devRef .tc main_arg6) = m ((c.tc : Thread nD τ).loc main_arg6) :=
  (HostValue.after3_main_arg6 (X6 m c)).trans (X6_main_arg6 m c)
theorem X7_main_arg7 : X7 m c (Proc.devRef .tc main_arg7) = m ((c.tc : Thread nD τ).loc main_arg7) :=
  (HostValue.after3_main_arg7 (X6 m c)).trans (X6_main_arg7 m c)
theorem X7_main_arg8 : X7 m c (Proc.devRef .tc main_arg8) = m ((c.tc : Thread nD τ).loc main_arg8) :=
  (HostValue.after3_main_arg8 (X6 m c)).trans (X6_main_arg8 m c)
theorem X7_main_arg9 : X7 m c (Proc.devRef .tc main_arg9) = m ((c.tc : Thread nD τ).loc main_arg9) :=
  (HostValue.after3_main_arg9 (X6 m c)).trans (X6_main_arg9 m c)
theorem X7_main_arg10 : X7 m c (Proc.devRef .tc main_arg10) = m ((c.tc : Thread nD τ).loc main_arg10) :=
  (HostValue.after3_main_arg10 (X6 m c)).trans (X6_main_arg10 m c)
theorem X7_main_arg11 : X7 m c (Proc.devRef .tc main_arg11) = m ((c.tc : Thread nD τ).loc main_arg11) :=
  (HostValue.after3_main_arg11 (X6 m c)).trans (X6_main_arg11 m c)
theorem X7_main_arg12 : X7 m c (Proc.devRef .tc main_arg12) = m ((c.tc : Thread nD τ).loc main_arg12) :=
  (HostValue.after3_main_arg12 (X6 m c)).trans (X6_main_arg12 m c)
theorem X7_main_v104 : X7 m c (Proc.devRef .tc main_v104) = biasRow (m ((c.tc : Thread nD τ).loc main_arg12)) := by
  rw [show X7 m c (Proc.devRef .tc main_v104) = _ from HostValue.after3_main_v104 (X6 m c), X6_main_arg12]

/-! ## The row function on a region's operands is the reference's layer

At the ideal values. A region's operands are the features `h`, their neighbour sum, layer K's two matrices and its six
1 x 128 rows; the row function of those, coordinate by coordinate, is the reference's layer K on `h` read at (r, f):
both read the stacked parameter arrays at (K, …). -/

theorem layerRow_layer0 (h : FVec Ideal S50000x128 .f32) (ei : IVec S2x800000 32) (a3 a5 : FVec Ideal S3x128x128 .f32)
    (a4 a6 a7 a8 a9 a10 : FVec Ideal S3x128 .f32) (r : Fin 50000) (f : Fin 128) :
    GinSpec.layerRow (fun k => h (ix2 r k) + aggT h (srcOf ei) (dstOf ei) (ix2 r k))
        (fun k j => mat0 a3 (ix2 k j)) (fun j c => mat0 a5 (ix2 j c))
        (fun j => row0 a4 (ix2 0 j)) (fun c => row0 a6 (ix2 0 c)) (fun c => row0 a7 (ix2 0 c))
        (fun c => row0 a8 (ix2 0 c)) (fun c => row0 a9 (ix2 0 c)) (fun c => row0 a10 (ix2 0 c)) f
      = Cert.ReferenceIdeal.RefValue.layer0 h ei a3 a5 a4 a6 a7 a8 a9 a10 (ix2 r f) := by
  unfold Cert.ReferenceIdeal.RefValue.layer0
  rw [Cert.ReferenceIdeal.RefValue.layerT_apply]
  simp only [HostValue.mat0_apply, HostValue.row0_apply, Cert.ReferenceIdeal.RefValue.mat0_apply, Cert.ReferenceIdeal.RefValue.vec0_apply, aggT_eq, srcOf_eq, dstOf_eq]

theorem layerRow_layer1 (h : FVec Ideal S50000x128 .f32) (ei : IVec S2x800000 32) (a3 a5 : FVec Ideal S3x128x128 .f32)
    (a4 a6 a7 a8 a9 a10 : FVec Ideal S3x128 .f32) (r : Fin 50000) (f : Fin 128) :
    GinSpec.layerRow (fun k => h (ix2 r k) + aggT h (srcOf ei) (dstOf ei) (ix2 r k))
        (fun k j => mat1 a3 (ix2 k j)) (fun j c => mat1 a5 (ix2 j c))
        (fun j => row1 a4 (ix2 0 j)) (fun c => row1 a6 (ix2 0 c)) (fun c => row1 a7 (ix2 0 c))
        (fun c => row1 a8 (ix2 0 c)) (fun c => row1 a9 (ix2 0 c)) (fun c => row1 a10 (ix2 0 c)) f
      = Cert.ReferenceIdeal.RefValue.layer1 h ei a3 a5 a4 a6 a7 a8 a9 a10 (ix2 r f) := by
  unfold Cert.ReferenceIdeal.RefValue.layer1
  rw [Cert.ReferenceIdeal.RefValue.layerT_apply]
  simp only [HostValue.mat1_apply, HostValue.row1_apply, Cert.ReferenceIdeal.RefValue.mat1_apply, Cert.ReferenceIdeal.RefValue.vec1_apply, aggT_eq, srcOf_eq, dstOf_eq]

theorem layerRow_layer2 (h : FVec Ideal S50000x128 .f32) (ei : IVec S2x800000 32) (a3 a5 : FVec Ideal S3x128x128 .f32)
    (a4 a6 a7 a8 a9 a10 : FVec Ideal S3x128 .f32) (r : Fin 50000) (f : Fin 128) :
    GinSpec.layerRow (fun k => h (ix2 r k) + aggT h (srcOf ei) (dstOf ei) (ix2 r k))
        (fun k j => mat2 a3 (ix2 k j)) (fun j c => mat2 a5 (ix2 j c))
        (fun j => row2 a4 (ix2 0 j)) (fun c => row2 a6 (ix2 0 c)) (fun c => row2 a7 (ix2 0 c))
        (fun c => row2 a8 (ix2 0 c)) (fun c => row2 a9 (ix2 0 c)) (fun c => row2 a10 (ix2 0 c)) f
      = Cert.ReferenceIdeal.RefValue.layer2 h ei a3 a5 a4 a6 a7 a8 a9 a10 (ix2 r f) := by
  unfold Cert.ReferenceIdeal.RefValue.layer2
  rw [Cert.ReferenceIdeal.RefValue.layerT_apply]
  simp only [HostValue.mat2_apply, HostValue.row2_apply, Cert.ReferenceIdeal.RefValue.mat2_apply, Cert.ReferenceIdeal.RefValue.vec2_apply, aggT_eq, srcOf_eq, dstOf_eq]

/-! ## The regions' result arrays

At the ideal values. Each layer region's result at (r, f) is the row function of its operands at row r; its operands
are, by the chain above, the previous features, their neighbour sum and the layer's parameters. The read-out region's
result at (g, o) is the read-out of the per-graph sums of its operands: the third layer's output, the id column, the
read-out matrix and the bias row. -/

/-- The row function depends on its ten operand arrays only through their values. -/
theorem rowAt_congr {A0 A0' A1 A1' : FVec Ideal S50000x128 .f32} {W1 W1' W2 W2' : FVec Ideal S128x128 .f32}
    {b1 b1' b2 b2' gam gam' bet bet' mu mu' var var' : FVec Ideal S1x128 .f32}
    (h0 : A0 = A0') (h1 : A1 = A1') (h2 : W1 = W1') (h3 : W2 = W2') (h4 : b1 = b1') (h5 : b2 = b2') (h6 : gam = gam')
    (h7 : bet = bet') (h8 : mu = mu') (h9 : var = var') (r : Fin 50000) (f : Fin 128) :
    MlpArr.rowAt A0 A1 W1 W2 b1 b2 gam bet mu var r f = MlpArr.rowAt A0' A1' W1' W2' b1' b2' gam' bet' mu' var' r f := by
  subst h0 h1 h2 h3 h4 h5 h6 h7 h8 h9
  rfl

section Ideal

variable (m : (ℓ : Loc nD τ sig) → Buf (Elt Ideal) ℓ) (c : Dev nD)

/-- Region 0's operands, window by window. -/
theorem T1_op0 : @Eq (FVec Ideal S50000x128 .f32) (T1 m c (Pipeline.arrRef spec0 0)) (m ((c.tc : Thread nD τ).loc main_arg0)) :=
  X1_main_arg0 m c
theorem T1_op1 : @Eq (FVec Ideal S50000x128 .f32) (T1 m c (Pipeline.arrRef spec0 1)) (aggT (F := Ideal) (m ((c.tc : Thread nD τ).loc main_arg0)) (srcOf (m ((c.tc : Thread nD τ).loc main_arg1))) (dstOf (m ((c.tc : Thread nD τ).loc main_arg1)))) :=
  X1_main_v14 m c
theorem T1_op2 : @Eq (FVec Ideal S128x128 .f32) (T1 m c (Pipeline.arrRef spec0 2)) (mat0 (F := Ideal) (m ((c.tc : Thread nD τ).loc main_arg3))) :=
  X1_main_v16 m c
theorem T1_op3 : @Eq (FVec Ideal S1x128 .f32) (T1 m c (Pipeline.arrRef spec0 3)) (row0 (F := Ideal) (m ((c.tc : Thread nD τ).loc main_arg4))) :=
  X1_main_v31 m c
theorem T1_op4 : @Eq (FVec Ideal S128x128 .f32) (T1 m c (Pipeline.arrRef spec0 4)) (mat0 (F := Ideal) (m ((c.tc : Thread nD τ).loc main_arg5))) :=
  X1_main_v20 m c
theorem T1_op5 : @Eq (FVec Ideal S1x128 .f32) (T1 m c (Pipeline.arrRef spec0 5)) (row0 (F := Ideal) (m ((c.tc : Thread nD τ).loc main_arg6))) :=
  X1_main_v32 m c
theorem T1_op6 : @Eq (FVec Ideal S1x128 .f32) (T1 m c (Pipeline.arrRef spec0 6)) (row0 (F := Ideal) (m ((c.tc : Thread nD τ).loc main_arg7))) :=
  X1_main_v33 m c
theorem T1_op7 : @Eq (FVec Ideal S1x128 .f32) (T1 m c (Pipeline.arrRef spec0 7)) (row0 (F := Ideal) (m ((c.tc : Thread nD τ).loc main_arg8))) :=
  X1_main_v34 m c
theorem T1_op8 : @Eq (FVec Ideal S1x128 .f32) (T1 m c (Pipeline.arrRef spec0 8)) (row0 (F := Ideal) (m ((c.tc : Thread nD τ).loc main_arg9))) :=
  X1_main_v35 m c
theorem T1_op9 : @Eq (FVec Ideal S1x128 .f32) (T1 m c (Pipeline.arrRef spec0 9)) (row0 (F := Ideal) (m ((c.tc : Thread nD τ).loc main_arg10))) :=
  X1_main_v36 m c

/-- Region 0's result at (r, f) is the reference's layer 0 on the region's input features. -/
theorem H1_apply (r : Fin 50000) (f : Fin 128) :
    @Eq EReal ((H1 (F := Ideal) m c : FVec Ideal S50000x128 .f32) (ix2 r f))
      (Cert.ReferenceIdeal.RefValue.layer0 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 r f)) := by
  refine ((MlpArr.arr0_apply (T1 m) c r f).trans
    (rowAt_congr (T1_op0 m c) (T1_op1 m c) (T1_op2 m c) (T1_op4 m c) (T1_op3 m c) (T1_op5 m c) (T1_op6 m c) (T1_op7 m c) (T1_op8 m c) (T1_op9 m c) r f)).trans ?_
  exact layerRow_layer0 (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) r f

theorem H1_eq :
    @Eq (FVec Ideal S50000x128 .f32) (H1 (F := Ideal) m c)
      (Cert.ReferenceIdeal.RefValue.layer0 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  funext j
  obtain ⟨r, f, rfl⟩ : ∃ (r : Fin 50000) (f : Fin 128), j = ix2 r f := ⟨j 0, j 1, eq_ix2 j⟩
  exact H1_apply m c r f

/-- Region 1's operands, window by window. -/
theorem T3_op0 : @Eq (FVec Ideal S50000x128 .f32) (T3 m c (Pipeline.arrRef spec1 0)) (H1 (F := Ideal) m c) :=
  X3_main_v37 m c
theorem T3_op1 : @Eq (FVec Ideal S50000x128 .f32) (T3 m c (Pipeline.arrRef spec1 1)) (aggT (F := Ideal) (H1 (F := Ideal) m c) (srcOf (m ((c.tc : Thread nD τ).loc main_arg1))) (dstOf (m ((c.tc : Thread nD τ).loc main_arg1)))) :=
  X3_main_v47 m c
theorem T3_op2 : @Eq (FVec Ideal S128x128 .f32) (T3 m c (Pipeline.arrRef spec1 2)) (mat1 (F := Ideal) (m ((c.tc : Thread nD τ).loc main_arg3))) :=
  X3_main_v49 m c
theorem T3_op3 : @Eq (FVec Ideal S1x128 .f32) (T3 m c (Pipeline.arrRef spec1 3)) (row1 (F := Ideal) (m ((c.tc : Thread nD τ).loc main_arg4))) :=
  X3_main_v64 m c
theorem T3_op4 : @Eq (FVec Ideal S128x128 .f32) (T3 m c (Pipeline.arrRef spec1 4)) (mat1 (F := Ideal) (m ((c.tc : Thread nD τ).loc main_arg5))) :=
  X3_main_v53 m c
theorem T3_op5 : @Eq (FVec Ideal S1x128 .f32) (T3 m c (Pipeline.arrRef spec1 5)) (row1 (F := Ideal) (m ((c.tc : Thread nD τ).loc main_arg6))) :=
  X3_main_v65 m c
theorem T3_op6 : @Eq (FVec Ideal S1x128 .f32) (T3 m c (Pipeline.arrRef spec1 6)) (row1 (F := Ideal) (m ((c.tc : Thread nD τ).loc main_arg7))) :=
  X3_main_v66 m c
theorem T3_op7 : @Eq (FVec Ideal S1x128 .f32) (T3 m c (Pipeline.arrRef spec1 7)) (row1 (F := Ideal) (m ((c.tc : Thread nD τ).loc main_arg8))) :=
  X3_main_v67 m c
theorem T3_op8 : @Eq (FVec Ideal S1x128 .f32) (T3 m c (Pipeline.arrRef spec1 8)) (row1 (F := Ideal) (m ((c.tc : Thread nD τ).loc main_arg9))) :=
  X3_main_v68 m c
theorem T3_op9 : @Eq (FVec Ideal S1x128 .f32) (T3 m c (Pipeline.arrRef spec1 9)) (row1 (F := Ideal) (m ((c.tc : Thread nD τ).loc main_arg10))) :=
  X3_main_v69 m c

/-- Region 1's result at (r, f) is the reference's layer 1 on the region's input features. -/
theorem H2_apply (r : Fin 50000) (f : Fin 128) :
    @Eq EReal ((H2 (F := Ideal) m c : FVec Ideal S50000x128 .f32) (ix2 r f))
      (Cert.ReferenceIdeal.RefValue.layer1 (F := Ideal) (H1 (F := Ideal) m c) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 r f)) := by
  refine ((MlpArr.arr1_apply (T3 m) c r f).trans
    (rowAt_congr (T3_op0 m c) (T3_op1 m c) (T3_op2 m c) (T3_op4 m c) (T3_op3 m c) (T3_op5 m c) (T3_op6 m c) (T3_op7 m c) (T3_op8 m c) (T3_op9 m c) r f)).trans ?_
  exact layerRow_layer1 (H1 (F := Ideal) m c) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) r f

theorem H2_eq :
    @Eq (FVec Ideal S50000x128 .f32) (H2 (F := Ideal) m c)
      (Cert.ReferenceIdeal.RefValue.layer1 (F := Ideal) (H1 (F := Ideal) m c) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  funext j
  obtain ⟨r, f, rfl⟩ : ∃ (r : Fin 50000) (f : Fin 128), j = ix2 r f := ⟨j 0, j 1, eq_ix2 j⟩
  exact H2_apply m c r f

/-- Region 2's operands, window by window. -/
theorem T5_op0 : @Eq (FVec Ideal S50000x128 .f32) (T5 m c (Pipeline.arrRef spec2 0)) (H2 (F := Ideal) m c) :=
  X5_main_v70 m c
theorem T5_op1 : @Eq (FVec Ideal S50000x128 .f32) (T5 m c (Pipeline.arrRef spec2 1)) (aggT (F := Ideal) (H2 (F := Ideal) m c) (srcOf (m ((c.tc : Thread nD τ).loc main_arg1))) (dstOf (m ((c.tc : Thread nD τ).loc main_arg1)))) :=
  X5_main_v80 m c
theorem T5_op2 : @Eq (FVec Ideal S128x128 .f32) (T5 m c (Pipeline.arrRef spec2 2)) (mat2 (F := Ideal) (m ((c.tc : Thread nD τ).loc main_arg3))) :=
  X5_main_v82 m c
theorem T5_op3 : @Eq (FVec Ideal S1x128 .f32) (T5 m c (Pipeline.arrRef spec2 3)) (row2 (F := Ideal) (m ((c.tc : Thread nD τ).loc main_arg4))) :=
  X5_main_v97 m c
theorem T5_op4 : @Eq (FVec Ideal S128x128 .f32) (T5 m c (Pipeline.arrRef spec2 4)) (mat2 (F := Ideal) (m ((c.tc : Thread nD τ).loc main_arg5))) :=
  X5_main_v86 m c
theorem T5_op5 : @Eq (FVec Ideal S1x128 .f32) (T5 m c (Pipeline.arrRef spec2 5)) (row2 (F := Ideal) (m ((c.tc : Thread nD τ).loc main_arg6))) :=
  X5_main_v98 m c
theorem T5_op6 : @Eq (FVec Ideal S1x128 .f32) (T5 m c (Pipeline.arrRef spec2 6)) (row2 (F := Ideal) (m ((c.tc : Thread nD τ).loc main_arg7))) :=
  X5_main_v99 m c
theorem T5_op7 : @Eq (FVec Ideal S1x128 .f32) (T5 m c (Pipeline.arrRef spec2 7)) (row2 (F := Ideal) (m ((c.tc : Thread nD τ).loc main_arg8))) :=
  X5_main_v100 m c
theorem T5_op8 : @Eq (FVec Ideal S1x128 .f32) (T5 m c (Pipeline.arrRef spec2 8)) (row2 (F := Ideal) (m ((c.tc : Thread nD τ).loc main_arg9))) :=
  X5_main_v101 m c
theorem T5_op9 : @Eq (FVec Ideal S1x128 .f32) (T5 m c (Pipeline.arrRef spec2 9)) (row2 (F := Ideal) (m ((c.tc : Thread nD τ).loc main_arg10))) :=
  X5_main_v102 m c

/-- Region 2's result at (r, f) is the reference's layer 2 on the region's input features. -/
theorem H3_apply (r : Fin 50000) (f : Fin 128) :
    @Eq EReal ((H3 (F := Ideal) m c : FVec Ideal S50000x128 .f32) (ix2 r f))
      (Cert.ReferenceIdeal.RefValue.layer2 (F := Ideal) (H2 (F := Ideal) m c) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 r f)) := by
  refine ((MlpArr.arr2_apply (T5 m) c r f).trans
    (rowAt_congr (T5_op0 m c) (T5_op1 m c) (T5_op2 m c) (T5_op4 m c) (T5_op3 m c) (T5_op5 m c) (T5_op6 m c) (T5_op7 m c) (T5_op8 m c) (T5_op9 m c) r f)).trans ?_
  exact layerRow_layer2 (H2 (F := Ideal) m c) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) r f

theorem H3_eq :
    @Eq (FVec Ideal S50000x128 .f32) (H3 (F := Ideal) m c)
      (Cert.ReferenceIdeal.RefValue.layer2 (F := Ideal) (H2 (F := Ideal) m c) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  funext j
  obtain ⟨r, f, rfl⟩ : ∃ (r : Fin 50000) (f : Fin 128), j = ix2 r f := ⟨j 0, j 1, eq_ix2 j⟩
  exact H3_apply m c r f

/-- The read-out region's operands, window by window. -/
theorem T7_op0 : @Eq (FVec Ideal S50000x128 .f32) (T7 m c (Pipeline.arrRef spec3 0)) (H3 (F := Ideal) m c) :=
  X7_main_v103 m c
theorem T7_op1 : @Eq (IVec S50000x1 32) (T7 m c (Pipeline.arrRef spec3 1)) (colOf (m ((c.tc : Thread nD τ).loc main_arg2))) :=
  X7_main_v4 m c
theorem T7_op2 : @Eq (FVec Ideal S128x16 .f32) (T7 m c (Pipeline.arrRef spec3 2)) (m ((c.tc : Thread nD τ).loc main_arg11)) :=
  X7_main_arg11 m c
theorem T7_op3 : @Eq (FVec Ideal S1x16 .f32) (T7 m c (Pipeline.arrRef spec3 3)) (biasRow (F := Ideal) (m ((c.tc : Thread nD τ).loc main_arg12))) :=
  X7_main_v104 m c

/-- The program's result at (g, o) is the reference's read-out of the third layer's output. -/
theorem H4_apply (g : Fin 128) (o : Fin 16) :
    @Eq EReal ((H4 (F := Ideal) m c : FVec Ideal S128x16 .f32) (ix2 g o))
      (Cert.ReferenceIdeal.RefValue.poolT (F := Ideal) (H3 (F := Ideal) m c) (m ((c.tc : Thread nD τ).loc main_arg2)) (m ((c.tc : Thread nD τ).loc main_arg11)) (m ((c.tc : Thread nD τ).loc main_arg12)) (ix2 g o)) := by
  rw [Cert.ReferenceIdeal.RefValue.poolT_apply]
  have e : @Eq (FVec Ideal S128x16 .f32) (H4 (F := Ideal) m c) (Pool3.outLast (F := Ideal) (T7 m) c) :=
    Pool3.arrAt_out (T7 m) c
  rw [e]
  refine (PoolArr.out_apply (T7 m) c g o).trans ?_
  rw [T7_op0, T7_op1, T7_op2, T7_op3]
  simp only [HostValue.colOf_apply, HostValue.biasRow_apply]

theorem H4_eq :
    @Eq (FVec Ideal S128x16 .f32) (H4 (F := Ideal) m c)
      (Cert.ReferenceIdeal.RefValue.poolT (F := Ideal) (H3 (F := Ideal) m c) (m ((c.tc : Thread nD τ).loc main_arg2)) (m ((c.tc : Thread nD τ).loc main_arg11)) (m ((c.tc : Thread nD τ).loc main_arg12))) := by
  funext j
  obtain ⟨g, o, rfl⟩ : ∃ (g : Fin 128) (o : Fin 16), j = ix2 g o := ⟨j 0, j 1, eq_ix2 j⟩
  exact H4_apply m c g o

/-- The program's result array is the reference's network of the launch contents. -/
theorem H4_eq_net (m : (ℓ : Loc nD τ sig) → Buf (Elt Ideal) ℓ) (c : Dev nD) :
    (H4 (F := Ideal) m c : FVec Ideal S128x16 .f32)
      = Cert.ReferenceIdeal.RefValue.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
          (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  rw [H4_eq, H3_eq, H2_eq, H1_eq]
  rfl

end Ideal

end Cert.KernelIdeal.Whole

end
-- ==== Proof.lean ====
/-
  A three-layer graph-isomorphism network with a sum read-out, as a kernel program of four launches against its
  array reference, over the extended reals.

  Each layer maps node features h to rectify(normalise(perceptron(h + agg))), where agg sums the features of a node's
  in-neighbours (the same gather and accumulating scatter on both sides) and the perceptron is two 128 x 128 matrix
  products with a rectifier between; the layer is ROW-LOCAL, so the kernel's tile of 2000 nodes computes exactly the rows
  of the reference's whole-array operations: a matrix product of a row block is the rows of the product, every other
  operation is pointwise, and the changes of float format are the identity. The read-out sums the last layer's
  features per graph: the kernel contracts, tile by tile into an accumulator, the 0/1 matrix "node r has graph id g"
  with the features; the reference scatters each node's row onto row (its graph id), an id outside 0..127 landing
  nowhere — the same sum, since a product with the weight 0 vanishes on the extended reals whatever the other factor,
  and addition there is commutative and associative. Then one more linear map on both sides. No law used needs the
  inputs finite, so the precondition is never opened.

  The three frames: the kernel program's run is assembled region by region (each launch's body run once symbolically
  at a generic grid point, the scratch accumulator of the read-out carried in that region's invariant) over the
  conditional frame of the host side; the reference's is its run with the result dropped. The idealization rewrote
  nothing, so `preserves` is trivial.
-/
import proofs.«418468_j32066225832278_1_alg».proof.Defs
import proofs.«418468_j32066225832278_1_alg».proof.Proof.Gen.Kernel
import proofs.«418468_j32066225832278_1_alg».proof.Proof.Gen.KernelIdeal
import proofs.«418468_j32066225832278_1_alg».proof.Proof.Gen.ReferenceIdeal
import proofs.«418468_j32066225832278_1_alg».proof.Proof.Gen.Pre_finite_inputs
import proofs.«418468_j32066225832278_1_alg».proof.Proof.RunKBits
import proofs.«418468_j32066225832278_1_alg».proof.Proof.RunK
import proofs.«418468_j32066225832278_1_alg».proof.Proof.RunValued
import proofs.«418468_j32066225832278_1_alg».proof.Proof.KernelNet
import proofs.«418468_j32066225832278_1_alg».proof.Proof.RefNet
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Whole.frame m ρ

/-- So does the idealized program. -/
theorem frame_ki : Cert.frame_KernelIdeal := fun m ρ _ => Cert.KernelIdeal.Whole.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the network of the (agreeing) argument arrays: the kernel's result array is the reference's
    composed term of the launch contents (`H4_eq_net`), and the reference's run ends at that term. -/
theorem algebraic : Cert.algebraic_KernelIdeal_ReferenceIdeal := by
  intro m ρ m' ρ' _ hagree
  refine ⟨fun c => Cert.KernelIdeal.Whole.H4 (F := Ideal) m c, Cert.KernelIdeal.Whole.run_valued m ρ, ?_⟩
  refine (θ_run Cert.ReferenceIdeal.defs _ _).mono (fun _ h c => ⟨(h c).1.trans ?_, (h c).2⟩)
    (Cert.ReferenceIdeal.RefValue.run_net (F := Ideal) m' ρ')
  obtain ⟨h0, h1, h2, h3, h4, h5, h6, h7, h8, h9, h10, h11, h12⟩ := hagree c
  show Cert.ReferenceIdeal.RefValue.net (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) = Cert.KernelIdeal.Whole.H4 (F := Ideal) m c
  rw [Cert.KernelIdeal.Whole.H4_eq_net, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
